-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![512, 512]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S256x256 : Shape := ⟨2, ![256, 256]⟩
abbrev S1x256 : Shape := ⟨2, ![1, 256]⟩
abbrev S2 : Shape := ⟨1, ![2]⟩
abbrev S_ : Shape := ⟨0, ![]⟩
abbrev S1 : Shape := ⟨1, ![1]⟩
abbrev S256x1 : Shape := ⟨2, ![256, 1]⟩
abbrev S255x256 : Shape := ⟨2, ![255, 256]⟩
abbrev S256x255 : Shape := ⟨2, ![256, 255]⟩

abbrev nBuf : Space → Nat
  | .hbm => 2
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 2 6 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v25 : BitVec 32 := Scalar.muli v6 c2_i32_19
  let v26 : BitVec 32 := Scalar.addi c0_i32_20 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v27 : BitVec 32 := Scalar.muli v5 c1_i32_21
  let v28 : BitVec 32 := Scalar.addi v26 v27
  v28.toNat
def k0_dev4 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v39 : BitVec 32 := Scalar.muli v2 c2_i32_30
  let v40 : BitVec 32 := Scalar.addi c0_i32_31 v39
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_32 : BitVec 32 := 1#32
  let v41 : BitVec 32 := Scalar.muli v7 c1_i32_32
  let v42 : BitVec 32 := Scalar.addi v40 v41
  v42.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x256_o255_0_S1x256 : S256x256.Slices ![255, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S256x256_o0_0_S1x256 : S256x256.Slices ![0, 0] S1x256
  inb_S2_S1_0 : ∀ a, (![0] : Fin 1 → Nat) a + S1.size a ≤ S2.size a
  squeezes_S1_S_ : S1.Squeezes S_
  slices_S256x256_o0_255_S256x1 : S256x256.Slices ![0, 255] S256x1
  transposes_S256x1_p1_0_S1x256 : S256x1.Transposes [1, 0] S1x256
  slices_S256x256_o0_0_S256x1 : S256x256.Slices ![0, 0] S256x1
  inb_S2_S1_1 : ∀ a, (![1] : Fin 1 → Nat) a + S1.size a ≤ S2.size a
  slices_S256x256_o0_0_S255x256 : S256x256.Slices ![0, 0] S255x256
  concatenates_S1x256_S255x256_S256x256_d0 : Shape.Concatenates [S1x256, S255x256] S256x256 0
  slices_S256x256_o1_0_S255x256 : S256x256.Slices ![1, 0] S255x256
  concatenates_S255x256_S1x256_S256x256_d0 : Shape.Concatenates [S255x256, S1x256] S256x256 0
  slices_S256x256_o0_0_S256x255 : S256x256.Slices ![0, 0] S256x255
  concatenates_S256x1_S256x255_S256x256_d1 : Shape.Concatenates [S256x1, S256x255] S256x256 1
  slices_S256x256_o0_1_S256x255 : S256x256.Slices ![0, 1] S256x255
  concatenates_S256x255_S256x1_S256x256_d1 : Shape.Concatenates [S256x255, S256x1] S256x256 1
  iota_S256x256_d0_w32 : S256x256.Iotas .tc 32 [0]
  iota_S256x256_d1_w32 : S256x256.Iotas .tc 32 [1]
  iota_S256x1_d0_w32 : S256x1.Iotas .tc 32 [0]
  iota_S1x256_d1_w32 : S1x256.Iotas .tc 32 [1]
  inb_S256x256_S1x256_255_0 : ∀ a, (![255, 0] : Fin 2 → Nat) a + S1x256.size a ≤ S256x256.size a
  inb_S256x256_S1x256_0_0 : ∀ a, (![0, 0] : Fin 2 → Nat) a + S1x256.size a ≤ S256x256.size a
  transposes_S1x256_p1_0_S256x1 : S1x256.Transposes [1, 0] S256x1
  inb_S256x256_S256x1_0_255 : ∀ a, (![0, 255] : Fin 2 → Nat) a + S256x1.size a ≤ S256x256.size a
  h_S256x1 : 0 < S256x1.numel
  shapeCasts_S256x1_S256x1 : S256x1.ShapeCasts S256x1
  inb_S256x256_S256x1_0_0 : ∀ a, (![0, 0] : Fin 2 → Nat) a + S256x1.size a ≤ S256x256.size a
  hcc0_scratch6 : 0 + S_.numel ≤ 2
  hcc0_scratch4 : 2 + S2.numel ≤ 6
  hcc0_scratch5 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  hstage0_0 : ∀ j, (stage0_0 j).IsWhole
  hstage0_1 : ∀ j, (stage0_1 j).IsWhole

variable [Facts₀]

abbrev cc0_scratch6 : Sems sig S_ := SemArray.consecutive 0 S_ hcc0_scratch6
abbrev cc0_scratch4 : DmaSems sig S2 := SemArray.consecutive 2 S2 hcc0_scratch4
abbrev cc0_scratch5 : DmaSems sig S2 := SemArray.consecutive 4 S2 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x512 : Shape := ⟨2, ![512, 512]⟩
abbrev S510x510 : Shape := ⟨2, ![510, 510]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S510x510, .f32⟩
  | .hbm, ⟨2, _⟩ => ⟨S_, .f32⟩
  | .hbm, ⟨3, _⟩ => ⟨S510x510, .f32⟩
  | .hbm, ⟨4, _⟩ => ⟨S510x510, .f32⟩
  | .hbm, ⟨5, _⟩ => ⟨S510x510, .f32⟩
  | .hbm, ⟨6, _⟩ => ⟨S_, .f32⟩
  | .hbm, ⟨7, _⟩ => ⟨S510x510, .f32⟩
  | .hbm, ⟨8, _⟩ => ⟨S510x510, .f32⟩
  | .hbm, ⟨9, _⟩ => ⟨S510x510, .f32⟩
  | .hbm, ⟨10, _⟩ => ⟨S510x510, .f32⟩
  | .hbm, ⟨11, _⟩ => ⟨S_, .f32⟩
  | .hbm, ⟨12, _⟩ => ⟨S510x510, .f32⟩
  | .hbm, ⟨13, _⟩ => ⟨S510x510, .f32⟩
  | .hbm, ⟨14, _⟩ => ⟨S510x510, .f32⟩
  | .hbm, ⟨15, _⟩ => ⟨S510x510, .f32⟩
  | .hbm, ⟨16, _⟩ => ⟨S_, .f32⟩
  | .hbm, ⟨17, _⟩ => ⟨S510x510, .f32⟩
  | .hbm, ⟨18, _⟩ => ⟨S510x510, .f32⟩
  | .hbm, ⟨19, _⟩ => ⟨S510x510, .f32⟩
  | .hbm, ⟨20, _⟩ => ⟨S510x510, .f32⟩
  | .hbm, ⟨21, _⟩ => ⟨S_, .f32⟩
  | .hbm, ⟨22, _⟩ => ⟨S510x510, .f32⟩
  | .hbm, ⟨23, _⟩ => ⟨S510x510, .f32⟩
  | .hbm, ⟨24, _⟩ => ⟨S510x510, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S512x512_S510x510_1_1 : S512x512.Slices ![1, 1] S510x510
  bcast_S_S510x510 : S_.BroadcastsInDim S510x510 (![] : Fin 0 → Fin S510x510.rank)
  slices_S512x512_S510x510_0_1 : S512x512.Slices ![0, 1] S510x510
  slices_S512x512_S510x510_2_1 : S512x512.Slices ![2, 1] S510x510
  slices_S512x512_S510x510_1_0 : S512x512.Slices ![1, 0] S510x510
  slices_S512x512_S510x510_1_2 : S512x512.Slices ![1, 2] S510x510
  bcast_S_S1 : S_.BroadcastsInDim S1 (![] : Fin 0 → Fin S1.rank)
  concatenates_S1_S1_S2_d0 : Shape.Concatenates [S1, S1] S2 0
  scatter_S512x512_S2_S510x510_01_n_01_0_wf : ScatterDims.WF S512x512 S2 S510x510 [0, 1] [] [0, 1] 0

variable [Facts₀]

def scatter_S512x512_S2_S510x510_01_n_01_0 : ScatterDims S512x512 S2 S510x510 where
  updateWindowDims := [0, 1]
  insertedWindowDims := []
  scatterDimsToOperandDims := [0, 1]
  indexVectorDim := 0
  wf := scatter_S512x512_S2_S510x510_01_n_01_0_wf

class Facts : Prop extends Facts₀ where

variable [Facts]
-- ==== Proof.Vals.lean ====
/-
  What each device computes, as pure terms of the devices' input blocks.
  A device at mesh position (mx, my) holds block (mx, my) of the grid. It sends its edge row that faces its
  x-neighbour (its last row if mx = 0, its first if mx = 1) and its edge column that faces its y-neighbour (transposed
  to a row), applies the stencil to its own block with zeros beyond the block's edge, keeping rim points of the whole
  grid, and then adds an eighth of the received row to its facing edge row and an eighth of the received column to
  its facing edge column, each masked to the interior of the whole grid.
-/
import proofs.«900192_g7700000000000193_dist_halo2d_stencil_xy_m256_n256_v7x_xy2x2_bf16_1_alg».proof.Proof.Gen.KernelIdeal.Skeleton
import proofs.«900192_g7700000000000193_dist_halo2d_stencil_xy_m256_n256_v7x_xy2x2_bf16_1_alg».proof.Proof.Gen.KernelIdeal.Launch

noncomputable section

namespace Cert.KernelIdeal.Halo

open Cert.KernelIdeal Cert.KernelIdeal.Gen
open Idealize.ShloMosaic Idealize.ShloMosaic.TcCoe Idealize.SL.Sem

variable {F : FTy → Type} [FloatOps F]

/-! ## The mesh: neighbours and coordinates -/

/-- The device across the x axis (the other row of the mesh, same column); -/
def xn (c : Dev nD) : Dev nD := ⟨(c.val % 2 + 2) - 2 * (c.val / 2), by have h : c.val < 4 := c.isLt; show _ < 4; omega⟩
/-- the device across the y axis (same row of the mesh, the other column). -/
def yn (c : Dev nD) : Dev nD := ⟨(2 * (c.val / 2) + 1) - c.val % 2, by have h : c.val < 4 := c.isLt; show _ < 4; omega⟩

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide

/-- The four device-id chains of the body name these two neighbours. -/
theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)

/-- The device's x coordinate and y coordinate as the words the body computes them. -/
def mxW (c : Dev nD) : BitVec 32 := Scalar.remsi (Scalar.divsi (Dev.word c) 2#32) 2#32
def myW (c : Dev nD) : BitVec 32 := Scalar.remsi (Scalar.divsi (Dev.word c) 1#32) 2#32

theorem mxW_eq (c : Dev nD) : mxW c = BitVec.ofNat 32 (c.val / 2) := by revert c; decide +kernel
theorem myW_eq (c : Dev nD) : myW c = BitVec.ofNat 32 (c.val % 2) := by revert c; decide +kernel
theorem mxW_cases (c : Dev nD) : mxW c = 0#32 ∨ mxW c = 1#32 := by revert c; decide +kernel
theorem myW_cases (c : Dev nD) : myW c = 0#32 ∨ myW c = 1#32 := by revert c; decide +kernel

/-! ## The buffers and the rectangles the body accesses -/

abbrev xM : Memref sig .tc .vmem S256x256 .f32 := Memref.whole cc0_stg0_0
abbrev oM : Memref sig .tc .vmem S256x256 .f32 := Memref.whole cc0_stg1_0
abbrev rsM : Memref sig .tc .vmem S1x256 .f32 := Memref.whole cc0_scratch0
abbrev csM : Memref sig .tc .vmem S1x256 .f32 := Memref.whole cc0_scratch1
abbrev rbM : Memref sig .tc .vmem S1x256 .f32 := Memref.whole cc0_scratch2
abbrev cbM : Memref sig .tc .vmem S1x256 .f32 := Memref.whole cc0_scratch3

abbrev rAll : Rect S256x256 := Rect.unit (s := S256x256) ![0, 0] S256x256.size inb_S256x256_S256x256_0_0
abbrev rLine : Rect S1x256 := Rect.unit (s := S1x256) ![0, 0] S1x256.size inb_S1x256_S1x256_0_0
abbrev rRow255 : Rect S256x256 := Rect.unit (s := S256x256) ![255, 0] S1x256.size inb_S256x256_S1x256_255_0
abbrev rRow0 : Rect S256x256 := Rect.unit (s := S256x256) ![0, 0] S1x256.size inb_S256x256_S1x256_0_0
abbrev rCol255 : Rect S256x256 := Rect.unit (s := S256x256) ![0, 255] S256x1.size inb_S256x256_S256x1_0_255
abbrev rCol0 : Rect S256x256 := Rect.unit (s := S256x256) ![0, 0] S256x1.size inb_S256x256_S256x1_0_0

/-- A block's contents; a line's (one row of 256). -/
abbrev Blk (F : FTy → Type) : Type := (cc0_stg1_0 : Ref sig .tc).ty.Contents (Elt F)
abbrev Line (F : FTy → Type) : Type := (cc0_scratch0 : Ref sig .tc).ty.Contents (Elt F)

/-! ## The values -/

section Vals
variable (X : Dev nD → Blk F)

/-- The edge row a device sends across the x axis: its last row at mx = 0, its first at mx = 1. -/
def rowSent (c : Dev nD) : Line F := if mxW c = 0#32 then k0_pay2 (X c) else k0_pay3 (X c)
/-- The edge column a device sends across the y axis, as a row: its last column at my = 0, its first at my = 1. -/
def colSent (c : Dev nD) : Line F := if myW c = 0#32 then k0_pay4 (k0_pay1 (X c)) else k0_pay5 (k0_pay1 (X c))

/-- The stencil on the device's own block, zeros beyond the block, rim points of the whole grid kept. -/
def out0 (c : Dev nD) : Blk F :=
  k0_pay7 (mxW c) (myW c) (k0_pay1 (X c)) (k0_pay6 (k0_pay1 (X c))) (iota .tc S256x256 32 [0] iota_S256x256_d0_w32) 256#32

/-- After the row from across the x axis has been added to the facing edge row. -/
def out1 (c : Dev nD) : Blk F :=
  if mxW c = 0#32 then
    ((oM.access rRow255 : View sig .tc _ _ _).write (Elt F) (out0 X c)
      (k0_pay10 (k0_pay8 (myW c)) (rowSent X (xn c)) ((oM : Memref sig .tc .vmem S256x256 .f32).view.readAt (Elt F) rRow255.toLoadRect (out0 X c))) Finset.univ)
  else
    ((oM.access rRow0 : View sig .tc _ _ _).write (Elt F) (out0 X c)
      (k0_pay11 (k0_pay8 (myW c)) (rowSent X (xn c)) ((oM : Memref sig .tc .vmem S256x256 .f32).view.readAt (Elt F) rRow0.toLoadRect (out0 X c))) Finset.univ)

/-- After the column from across the y axis has been added to the facing edge column: the device's result. -/
def out2 (c : Dev nD) : Blk F :=
  if myW c = 0#32 then
    ((oM.access rCol255 : View sig .tc _ _ _).write (Elt F) (out1 X c)
      (k0_pay13 (k0_pay9 (mxW c)) (colSent X (yn c)) ((oM : Memref sig .tc .vmem S256x256 .f32).view.readAt (Elt F) rCol255.toLoadRect (out1 X c))) Finset.univ)
  else
    ((oM.access rCol0 : View sig .tc _ _ _).write (Elt F) (out1 X c)
      (k0_pay14 (k0_pay9 (mxW c)) (colSent X (yn c)) ((oM : Memref sig .tc .vmem S256x256 .f32).view.readAt (Elt F) rCol0.toLoadRect (out1 X c))) Finset.univ)

end Vals

end Cert.KernelIdeal.Halo

end
-- ==== Proof.Proto.lean ====
/-
  The halo exchange's protocol on the 2 × 2 mesh, one round per semaphore.
  Each device has six cells: the barrier semaphore (paid one unit by the device across the x axis, who hands over its
  row landing buffer), the credit semaphore (paid one unit by the device across the y axis, who hands over its column
  landing buffer), the two send semaphores (paid by the device's own two copies, returning the two send buffers) and the
  two receive semaphores (paid by the neighbours' copies, landing the neighbour's edge row and edge column).
-/
import proofs.«900192_g7700000000000193_dist_halo2d_stencil_xy_m256_n256_v7x_xy2x2_bf16_1_alg».proof.Proof.Vals
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (every round has one duty) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The semaphores and cells -/

abbrev barS : Sem sig := (SemArray.scalar (sig.barrier 0 rfl) : Sems sig S_).sem
abbrev crS : Sem sig := (cc0_scratch6 : Sems sig S_).sem
abbrev sRowS : DmaSem sig := ((cc0_scratch4.slice (Rect.unit (s := S2) ![0] S1.size inb_S2_S1_0)).squeeze S_ squeezes_S1_S_ : DmaSems sig S_).sem
abbrev sColS : DmaSem sig := ((cc0_scratch4.slice (Rect.unit (s := S2) ![1] S1.size inb_S2_S1_1)).squeeze S_ squeezes_S1_S_ : DmaSems sig S_).sem
abbrev rRowS : DmaSem sig := ((cc0_scratch5.slice (Rect.unit (s := S2) ![0] S1.size inb_S2_S1_0)).squeeze S_ squeezes_S1_S_ : DmaSems sig S_).sem
abbrev rColS : DmaSem sig := ((cc0_scratch5.slice (Rect.unit (s := S2) ![1] S1.size inb_S2_S1_1)).squeeze S_ squeezes_S1_S_ : DmaSems sig S_).sem

abbrev barCell (c : Dev nD) : GSem nD τ sig := ((c : Thread nD τ), .reg barS)
abbrev crCell (c : Dev nD) : GSem nD τ sig := ((c : Thread nD τ), .reg crS)
abbrev sRowCell (c : Dev nD) : GSem nD τ sig := ((c : Thread nD τ), .dma sRowS)
abbrev sColCell (c : Dev nD) : GSem nD τ sig := ((c : Thread nD τ), .dma sColS)
abbrev rRowCell (c : Dev nD) : GSem nD τ sig := ((c : Thread nD τ), .dma rRowS)
abbrev rColCell (c : Dev nD) : GSem nD τ sig := ((c : Thread nD τ), .dma rColS)

/-- The kernel's own (scoped) semaphores, as the launch indexes them; -/
abbrev osem : Fin 5 → SemLoc sig := fun | 0 => .reg crS | 1 => .dma sRowS | 2 => .dma sColS | 3 => .dma rRowS | 4 => .dma rColS
/-- all six of the protocol's, the barrier first. -/
abbrev csem : Fin 6 → SemLoc sig := fun | 0 => .reg barS | 1 => .reg crS | 2 => .dma sRowS | 3 => .dma sColS | 4 => .dma rRowS | 5 => .dma rColS
abbrev kcell (ck : Dev nD × Fin 6) : GSem nD τ sig := ((ck.1 : Thread nD τ), csem ck.2)

abbrev N : ℕ := (rbM : Memref sig .tc .vmem S1x256 .f32).view.dmaCredit
theorem N_pos : 0 < N := View.dmaCredit_pos _ (by decide)

/-! ## Contents -/

/-- A device's input block as its staging buffer holds it. -/
def xstg (c : Dev nD) : Blk F :=
  (win0_0.blk (0 : Fin 1)).view.read (Elt F) ((s₀ m ρ).mem ((c : Thread nD τ).loc main_arg0))

/-! ## The points-to facts of the four scratch lines and of the input block -/

def rsPts (c : Dev nD) (f : Buf (Elt F) ((rsM : Memref sig .tc .vmem S1x256 .f32).view.loc (c : Thread nD τ))) : sProp 𝕄 :=
  (rsM : Memref sig .tc .vmem S1x256 .f32).view.loc (c : Thread nD τ) ↦[(rsM : Memref sig .tc .vmem S1x256 .f32).view.set]{fullShare} f
omit [FloatOps F] in
instance rsPts_storable (c : Dev nD) (f) : BI.Storable (upEmb : UEmb _ 𝕄) (rsPts (F := F) c f) := by unfold rsPts; infer_instance
omit [FloatOps F] in
theorem rsPts_eq (c : Dev nD) (f : Buf (Elt F) ((c : Thread nD τ).loc cc0_scratch0)) :
    rsPts c f = (((c : Thread nD τ).loc cc0_scratch0) ↦{fullShare} f : sProp 𝕄) := by unfold rsPts; rw [View.set_whole]

def csPts (c : Dev nD) (f : Buf (Elt F) ((csM : Memref sig .tc .vmem S1x256 .f32).view.loc (c : Thread nD τ))) : sProp 𝕄 :=
  (csM : Memref sig .tc .vmem S1x256 .f32).view.loc (c : Thread nD τ) ↦[(csM : Memref sig .tc .vmem S1x256 .f32).view.set]{fullShare} f
omit [FloatOps F] in
instance csPts_storable (c : Dev nD) (f) : BI.Storable (upEmb : UEmb _ 𝕄) (csPts (F := F) c f) := by unfold csPts; infer_instance
omit [FloatOps F] in
theorem csPts_eq (c : Dev nD) (f : Buf (Elt F) ((c : Thread nD τ).loc cc0_scratch1)) :
    csPts c f = (((c : Thread nD τ).loc cc0_scratch1) ↦{fullShare} f : sProp 𝕄) := by unfold csPts; rw [View.set_whole]

def rbPts (c : Dev nD) (f : Buf (Elt F) ((rbM : Memref sig .tc .vmem S1x256 .f32).view.loc (c : Thread nD τ))) : sProp 𝕄 :=
  (rbM : Memref sig .tc .vmem S1x256 .f32).view.loc (c : Thread nD τ) ↦[(rbM : Memref sig .tc .vmem S1x256 .f32).view.set]{fullShare} f
omit [FloatOps F] in
instance rbPts_storable (c : Dev nD) (f) : BI.Storable (upEmb : UEmb _ 𝕄) (rbPts (F := F) c f) := by unfold rbPts; infer_instance
omit [FloatOps F] in
theorem rbPts_eq (c : Dev nD) (f : Buf (Elt F) ((c : Thread nD τ).loc cc0_scratch2)) :
    rbPts c f = (((c : Thread nD τ).loc cc0_scratch2) ↦{fullShare} f : sProp 𝕄) := by unfold rbPts; rw [View.set_whole]

def cbPts (c : Dev nD) (f : Buf (Elt F) ((cbM : Memref sig .tc .vmem S1x256 .f32).view.loc (c : Thread nD τ))) : sProp 𝕄 :=
  (cbM : Memref sig .tc .vmem S1x256 .f32).view.loc (c : Thread nD τ) ↦[(cbM : Memref sig .tc .vmem S1x256 .f32).view.set]{fullShare} f
omit [FloatOps F] in
instance cbPts_storable (c : Dev nD) (f) : BI.Storable (upEmb : UEmb _ 𝕄) (cbPts (F := F) c f) := by unfold cbPts; infer_instance
omit [FloatOps F] in
theorem cbPts_eq (c : Dev nD) (f : Buf (Elt F) ((c : Thread nD τ).loc cc0_scratch3)) :
    cbPts c f = (((c : Thread nD τ).loc cc0_scratch3) ↦{fullShare} f : sProp 𝕄) := by unfold cbPts; rw [View.set_whole]

def xPts (c : Dev nD) : sProp 𝕄 :=
  (xM : Memref sig .tc .vmem S256x256 .f32).view.loc (c : Thread nD τ) ↦[(xM : Memref sig .tc .vmem S256x256 .f32).view.set]{fullShare} xstg m ρ c
omit [FloatOps F] in
theorem xPts_eq (c : Dev nD) : xPts m ρ c = (((c : Thread nD τ).loc cc0_stg0_0) ↦{fullShare} xstg m ρ c : sProp 𝕄) := by
  unfold xPts; rw [View.set_whole]

/-- A whole line written over a whole line is the line written. -/
theorem line_landed (c : Dev nD) (fd : Buf (Elt F) ((rbM : Memref sig .tc .vmem S1x256 .f32).view.loc (c : Thread nD τ))) (fs : Line F) :
    (rbM : Memref sig .tc .vmem S1x256 .f32).view.write (Elt F) fd ((rsM : Memref sig .tc .vmem S1x256 .f32).view.read (Elt F) fs) Finset.univ = fs := by
  show (View.whole cc0_scratch2).write (Elt F) fd ((View.whole cc0_scratch0).read (Elt F) fs) Finset.univ = fs
  rw [View.read_whole]
  exact View.write_whole_univ _ _ _
theorem col_landed (c : Dev nD) (fd : Buf (Elt F) ((cbM : Memref sig .tc .vmem S1x256 .f32).view.loc (c : Thread nD τ))) (fs : Line F) :
    (cbM : Memref sig .tc .vmem S1x256 .f32).view.write (Elt F) fd ((csM : Memref sig .tc .vmem S1x256 .f32).view.read (Elt F) fs) Finset.univ = fs := by
  show (View.whole cc0_scratch3).write (Elt F) fd ((View.whole cc0_scratch1).read (Elt F) fs) Finset.univ = fs
  rw [View.read_whole]
  exact View.write_whole_univ _ _ _

/-! ## The schedule -/

/-- What the x-neighbour's signal hands device `c`: the neighbour's row landing buffer, and that the neighbour's row
    receive cell is at round 0 (what the copy into it needs). Likewise across the y axis with the column buffer. -/
def barPay (c : Dev nD) : sProp 𝕄 := iprop((∃ f, rbPts (xn c) f) ∗ reached ER (rRowCell (xn c)) 0)
def crPay (c : Dev nD) : sProp 𝕄 := iprop((∃ f, cbPts (yn c) f) ∗ reached ER (rColCell (yn c)) 0)
/-- A send cell returns the send buffer at what was sent; a receive cell lands the neighbour's line. -/
def sRowPay (c : Dev nD) : sProp 𝕄 := rsPts c (rowSent (xstg m ρ) c)
def sColPay (c : Dev nD) : sProp 𝕄 := csPts c (colSent (xstg m ρ) c)
def rRowPay (c : Dev nD) : sProp 𝕄 := rbPts c (rowSent (xstg m ρ) (xn c))
def rColPay (c : Dev nD) : sProp 𝕄 := cbPts c (colSent (xstg m ρ) (yn c))

abbrev IsSig (s : SemLoc sig) : Prop := s = .reg barS ∨ s = .reg crS
abbrev IsXfer (s : SemLoc sig) : Prop := s = .dma sRowS ∨ s = .dma sColS ∨ s = .dma rRowS ∨ s = .dma rColS

/-- One round, round 0, one duty a cell: a unit on the two signalled cells, the line's credit on the four copy cells. -/
def sched : Rounds.Schedule (GSem nD τ sig) Unit 𝕄 where
  duties g r := if r = 0 ∧ g.1.2 = .tc ∧ (IsSig g.2 ∨ IsXfer g.2) then {()} else ∅
  unitless _ := False
  amount g _ _ := if IsSig g.2 then 1 else N
  payload g _ _ :=
    if g.2 = .reg barS then barPay g.1.1
    else if g.2 = .reg crS then crPay g.1.1
    else if g.2 = .dma sRowS then sRowPay m ρ g.1.1
    else if g.2 = .dma sColS then sColPay m ρ g.1.1
    else if g.2 = .dma rRowS then rRowPay m ρ g.1.1
    else if g.2 = .dma rColS then rColPay m ρ g.1.1
    else iprop(emp)
  amount_pos g _ _ _ := by
    by_cases h : IsSig g.2
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1
    else if g.2 = .reg crS then crPay g.1.1
    else if g.2 = .dma sRowS then sRowPay m ρ g.1.1
    else if g.2 = .dma sColS then sColPay m ρ g.1.1
    else if g.2 = .dma rRowS then rRowPay m ρ g.1.1
    else if g.2 = .dma rColS then rColPay m ρ g.1.1
    else iprop(emp))
  unfold barPay crPay sRowPay sColPay rRowPay rColPay
  (repeat' split) <;> infer_instance

section Sched
variable (c : Dev nD)

omit [FloatOps F] in
theorem duties_cell (k : Fin 6) : (sched (F := F) m ρ).duties (kcell (c, k)) 0 = {()} := by
  dsimp only [sched]; refine if_pos ⟨rfl, rfl, ?_⟩; revert k; decide
omit [FloatOps F] in
theorem duties_later (g : GSem nD τ sig) : ∀ r, 1 ≤ r → (sched (F := F) m ρ).duties g r = ∅ :=
  fun r hr => by dsimp only [sched]; rw [if_neg fun h => by omega]
omit [FloatOps F] in
theorem mem_duties (k : Fin 6) : () ∈ (sched (F := F) m ρ).duties (kcell (c, k)) 0 := by
  rw [duties_cell]; exact Finset.mem_singleton_self _

omit [FloatOps F] in
theorem amount_sig (k : Fin 6) (hk : k.val < 2) (d : Unit) : (sched (F := F) m ρ).amount (kcell (c, k)) 0 d = 1 := by
  dsimp only [sched]; refine if_pos ?_; revert k; decide
omit [FloatOps F] in
theorem amount_xfer (k : Fin 6) (hk : 2 ≤ k.val) (d : Unit) : (sched (F := F) m ρ).amount (kcell (c, k)) 0 d = N := by
  dsimp only [sched]; refine if_neg ?_; revert k; decide

omit [FloatOps F] in
theorem expect_sig (k : Fin 6) (hk : k.val < 2) : (sched (F := F) m ρ).expect (kcell (c, k)) 0 = 1 := by
  unfold Schedule.expect Schedule.amountOf; rw [duties_cell, Finset.sum_singleton, amount_sig m ρ c k hk]
omit [FloatOps F] in
theorem expect_xfer (k : Fin 6) (hk : 2 ≤ k.val) : (sched (F := F) m ρ).expect (kcell (c, k)) 0 = N := by
  unfold Schedule.expect Schedule.amountOf; rw [duties_cell, Finset.sum_singleton, amount_xfer m ρ c k hk]

omit [FloatOps F] in
theorem payload_bar (d : Unit) : (sched (F := F) m ρ).payload (barCell c) 0 d = barPay c := by dsimp only [sched]; rw [if_pos rfl]
omit [FloatOps F] in
theorem payload_cr (d : Unit) : (sched (F := F) m ρ).payload (crCell c) 0 d = crPay c := by
  dsimp only [sched]; rw [if_neg (by decide), if_pos rfl]
omit [FloatOps F] in
theorem payload_sRow (d : Unit) : (sched (F := F) m ρ).payload (sRowCell c) 0 d = sRowPay m ρ c := by
  dsimp only [sched]; rw [if_neg (by decide), if_neg (by decide), if_pos rfl]
omit [FloatOps F] in
theorem payload_sCol (d : Unit) : (sched (F := F) m ρ).payload (sColCell c) 0 d = sColPay m ρ c := by
  dsimp only [sched]; rw [if_neg (by decide), if_neg (by decide), if_neg (by decide), if_pos rfl]
omit [FloatOps F] in
theorem payload_rRow (d : Unit) : (sched (F := F) m ρ).payload (rRowCell c) 0 d = rRowPay m ρ c := by
  dsimp only [sched]; rw [if_neg (by decide), if_neg (by decide), if_neg (by decide), if_neg (by decide), if_pos rfl]
omit [FloatOps F] in
theorem payload_rCol (d : Unit) : (sched (F := F) m ρ).payload (rColCell c) 0 d = rColPay m ρ c := by
  dsimp only [sched]; rw [if_neg (by decide), if_neg (by decide), if_neg (by decide), if_neg (by decide), if_neg (by decide), if_pos rfl]

omit [FloatOps F] in
/-- The rest of a cell's one-duty round, no duty taken, is the duty's payload. -/
theorem rest_cell (k : Fin 6) :
    bigSep ((sched (F := F) m ρ).duties (kcell (c, k)) 0 \ ∅) (fun d => (sched (F := F) m ρ).payload (kcell (c, k)) 0 d)
      = (sched (F := F) m ρ).payload (kcell (c, k)) 0 () := by
  rw [Finset.sdiff_empty, duties_cell, bigSep_singleton]

end Sched

/-! ## What each device owes at launch; the levels -/

/-- Device `c` owes the x-neighbour's barrier cell and the y-neighbour's credit cell a unit each, and their row and
    column receive cells the line's credit — summed so that each payment peels the last summand. -/
def O₂ (c : Dev nD) : CellTallies nD τ sig Unit := tallyAt (rColCell (yn c)) () N + tallyAt (rRowCell (xn c)) () N
def O₁ (c : Dev nD) : CellTallies nD τ sig Unit := O₂ c + tallyAt (crCell (yn c)) () 1
def O₀ (c : Dev nD) : CellTallies nD τ sig Unit := O₁ c + tallyAt (barCell (xn c)) () 1

def L (g : GSem nD τ sig) : Finset Unit := if g.1.2 = .tc then {()} else ∅
/-- The two signalled cells at 1, the two receive cells at 2, everything else (staging, send) at 0. -/
def lv (g : GSem nD τ sig) (_ : Unit) : ℕ := if IsSig g.2 then 1 else if g.2 = .dma rRowS ∨ g.2 = .dma rColS then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = rColCell (yn c) ∨ g = rRowCell (xn c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rColCell (yn c) ∨ g = rRowCell (xn c) ∨ g = crCell (yn c) ∨ g = barCell (xn c) := by
  unfold O₀ O₁ O₂ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

theorem lv_sig (c : Dev nD) (k : Fin 6) (hk : k.val < 2) (u : Unit) : lv (kcell (c, k)) u = 1 := by
  dsimp only [lv]; refine if_pos ?_; revert k; decide
theorem lv_rRow (c : Dev nD) (u : Unit) : lv (rRowCell c) u = 2 := by
  dsimp only [lv]; rw [if_neg (by decide), if_pos (Or.inl rfl)]
theorem lv_rCol (c : Dev nD) (u : Unit) : lv (rColCell c) u = 2 := by
  dsimp only [lv]; rw [if_neg (by decide), if_pos (Or.inr rfl)]

omit [FloatOps F] in
/-- A wait on a staging or send semaphore (level 0), owing all of the launch debt or nothing. -/
theorem mayWait_stage (c : Dev nD) (q : DmaSem sig) (hq : SemLoc.dma q ≠ .dma rRowS ∧ SemLoc.dma q ≠ .dma rColS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by
        rw [Finset.mem_singleton.mp hp]; dsimp only [lv]
        rw [if_neg (fun h => by rcases h with h | h <;> cases h), if_neg (fun h => by rcases h with h | h; exact hq.1 h; exact hq.2 h)])
      (fun g u hg => by
        rcases O₀_pos hg with rfl | rfl | rfl | rfl
        · rw [lv_rCol]; decide
        · rw [lv_rRow]; decide
        · rw [lv_sig (yn c) 1 (by decide)]; decide
        · rw [lv_sig (xn c) 0 (by decide)]; decide)
  · rw [MayWait_zero]; iintro -; iempintro

omit [FloatOps F] in
/-- At its barrier wait a device owes the two receive credits only: both above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; exact le_of_eq (lv_sig c 0 (by decide) ()))
    (fun g u hg => by
      rcases O₂_pos hg with rfl | rfl
      · rw [lv_rCol]; decide
      · rw [lv_rRow]; decide)

omit [FloatOps F] in
/-- At its credit wait a device owes the column receive credit only. -/
theorem mayWait_cr (c : Dev nD) :
    (levAts L lv : sProp 𝕄) ⊢ MayWait (c : Thread nD τ) (.reg crS) () (tallyAt (rColCell (yn c)) () N) :=
  MayOwe.of_cut (L := L) (lev := lv) 1 (fun p hp => by rw [Finset.mem_singleton.mp hp, L_tc]; exact Finset.mem_singleton_self _)
    (fun g u hg => by
      rw [tallyAt_apply] at hg
      by_cases h : g = rColCell (yn c) ∧ u = ()
      · rw [h.1, L_tc]; exact Finset.mem_singleton_self _
      · rw [if_neg h] at hg; exact absurd hg (Nat.lt_irrefl 0))
    (fun p hp => by rw [Finset.mem_singleton.mp hp]; exact le_of_eq (lv_sig c 1 (by decide) ()))
    (fun g u hg => by
      rw [tallyAt_apply] at hg
      by_cases h : g = rColCell (yn c) ∧ u = ()
      · rw [h.1, lv_rCol]; decide
      · rw [if_neg h] at hg; exact absurd hg (Nat.lt_irrefl 0))

end Cert.KernelIdeal.Halo

end
-- ==== Proof.Data.lean ====
/-
  The proof data of the one-point pipeline on each device: what the staging buffers hold before and after the body,
  the ghost state a device starts from, and what it owes.
-/
import proofs.«900192_g7700000000000193_dist_halo2d_stencil_xy_m256_n256_v7x_xy2x2_bf16_1_alg».proof.Proof.Proto

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The device's result: the stencil of its block with both halo lines added. -/
def outAt (c : Dev nD) : Blk F := out2 (xstg m ρ) c

/-- The cells' invariants device `c`'s body opens, at the names `K` the launch allocated them: its own six, the
    x-neighbour's barrier and row receive cells, the y-neighbour's credit and column receive cells. -/
def invs (K : Dev nD × Fin 6 → ℕ) (c : Dev nD) : sProp 𝕄 :=
  iprop(cellInv ER (sched m ρ) (K (c, 0)) (barCell c) ∗ cellInv ER (sched m ρ) (K (c, 1)) (crCell c)
    ∗ cellInv ER (sched m ρ) (K (c, 2)) (sRowCell c) ∗ cellInv ER (sched m ρ) (K (c, 3)) (sColCell c)
    ∗ cellInv ER (sched m ρ) (K (c, 4)) (rRowCell c) ∗ cellInv ER (sched m ρ) (K (c, 5)) (rColCell c)
    ∗ cellInv ER (sched m ρ) (K (xn c, 0)) (barCell (xn c)) ∗ cellInv ER (sched m ρ) (K (xn c, 4)) (rRowCell (xn c))
    ∗ cellInv ER (sched m ρ) (K (yn c, 1)) (crCell (yn c)) ∗ cellInv ER (sched m ρ) (K (yn c, 5)) (rColCell (yn c)))

instance invs_persistent (K : Dev nD × Fin 6 → ℕ) (c : Dev nD) : BI.Persistent (invs m ρ K c) := by unfold invs; infer_instance

/-- The positions of the device's own six cells at the start of round 0. -/
def poss (c : Dev nD) : sProp 𝕄 :=
  iprop(atPos ER (barCell c) 0 ∅ 0 ∗ atPos ER (crCell c) 0 ∅ 0 ∗ atPos ER (sRowCell c) 0 ∅ 0 ∗ atPos ER (sColCell c) 0 ∅ 0
    ∗ atPos ER (rRowCell c) 0 ∅ 0 ∗ atPos ER (rColCell c) 0 ∅ 0)
/-- Round 0 reached on the cells it pays and on its own copy cells. -/
def reacheds (c : Dev nD) : sProp 𝕄 :=
  iprop(reached ER (barCell (xn c)) 0 ∗ reached ER (crCell (yn c)) 0 ∗ reached ER (rRowCell (xn c)) 0 ∗ reached ER (rColCell (yn c)) 0
    ∗ reached ER (sRowCell c) 0 ∗ reached ER (sColCell c) 0 ∗ reached ER (rRowCell c) 0 ∗ reached ER (rColCell c) 0)
/-- The tokens of the six duties the device pays. -/
def payToks (c : Dev nD) : sProp 𝕄 :=
  iprop(dutyTok ER (barCell (xn c)) 0 () ∗ dutyTok ER (crCell (yn c)) 0 () ∗ dutyTok ER (rRowCell (xn c)) 0 () ∗ dutyTok ER (rColCell (yn c)) 0 ()
    ∗ dutyTok ER (sRowCell c) 0 () ∗ dutyTok ER (sColCell c) 0 ())

/-- The protocol's ghost state device `c` starts from. -/
def ghost (K : Dev nD × Fin 6 → ℕ) (c : Dev nD) : sProp 𝕄 :=
  iprop(invs m ρ K c ∗ poss c ∗ reacheds c ∗ payToks c)

/-- The credit dealt at launch on the four cells others pay. -/
def creds (c : Dev nD) : sProp 𝕄 :=
  iprop(cred (tallyAt (barCell c) () 1) ∗ cred (tallyAt (crCell c) () 1) ∗ cred (tallyAt (rRowCell c) () N) ∗ cred (tallyAt (rColCell c) () N))

/-- What device `c`'s body starts from besides its buffers. -/
def start (c : Dev nD) : sProp 𝕄 :=
  iprop((∃ K, ghost m ρ K c) ∗ creds c ∗ levAts L lv)

/-- The four scratch lines at some contents. -/
def scratch (c : Dev nD) : sProp 𝕄 :=
  iprop((∃ f, rsPts c f) ∗ (∃ f, csPts c f) ∗ (∃ f, rbPts c f) ∗ (∃ f, cbPts c f))

/-- The five own cells closed, their counters at zero. -/
def closed (c : Dev nD) : sProp 𝕄 :=
  iprop(semVal (crCell c) 0 ∗ semVal (sRowCell c) 0 ∗ semVal (sColCell c) 0 ∗ semVal (rRowCell c) 0 ∗ semVal (rColCell c) 0)

def Φ₀ (c : Dev nD) : sProp 𝕄 := iprop(start m ρ c ∗ scratch c)
def Φ₁ (c : Dev nD) : sProp 𝕄 := iprop(scratch c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the ghost state's names fixed. -/
def bodyPre (K : Dev nD × Fin 6 → ℕ) (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body ends with. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.Halo

end
-- ==== Proof.Body.lean ====
/-
  One device's body, stepped once at a symbolic device: the two signals, the edge row and column staged and sent
  after the handshakes, the stencil stored, the two halo lines added as they land, the send buffers taken back.
-/
import proofs.«900192_g7700000000000193_dist_halo2d_stencil_xy_m256_n256_v7x_xy2x2_bf16_1_alg».proof.Proof.Data

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 6 → ℕ)

omit [FloatOps F] in
theorem hz : (![0, 0] : Fin 2 → Nat) = fun _ => 0 := funext fun a => by fin_cases a <;> rfl

theorem cnd00 : (Scalar.cmpi CmpIPredicate.ne (Scalar.extui (Scalar.cmpi CmpIPredicate.eq (0#32 : BitVec 32) 0#32) : BitVec 32) 0#32 = 1#1) = True := eq_true (by decide)
theorem cnd01 : (Scalar.cmpi CmpIPredicate.ne (Scalar.extui (Scalar.cmpi CmpIPredicate.eq (0#32 : BitVec 32) 1#32) : BitVec 32) 0#32 = 1#1) = False := eq_false (by decide)
theorem cnd10 : (Scalar.cmpi CmpIPredicate.ne (Scalar.extui (Scalar.cmpi CmpIPredicate.eq (1#32 : BitVec 32) 0#32) : BitVec 32) 0#32 = 1#1) = False := eq_false (by decide)
theorem cnd11 : (Scalar.cmpi CmpIPredicate.ne (Scalar.extui (Scalar.cmpi CmpIPredicate.eq (1#32 : BitVec 32) 1#32) : BitVec 32) 0#32 = 1#1) = True := eq_true (by decide)

omit [FloatOps F] in
theorem read_x (f : Blk F) : (xM : Memref sig .tc .vmem S256x256 .f32).view.readAt (Elt F) rAll.toLoadRect f = f :=
  Memref.readAt_unit_zero (Elt F) cc0_stg0_0 hz _ f
omit [FloatOps F] in
theorem read_rb (f : Line F) : (rbM : Memref sig .tc .vmem S1x256 .f32).view.readAt (Elt F) rLine.toLoadRect f = f :=
  Memref.readAt_unit_zero (Elt F) cc0_scratch2 hz _ f
omit [FloatOps F] in
theorem read_cb (f : Line F) : (cbM : Memref sig .tc .vmem S1x256 .f32).view.readAt (Elt F) rLine.toLoadRect f = f :=
  Memref.readAt_unit_zero (Elt F) cc0_scratch3 hz _ f
omit [FloatOps F] in
theorem write_rs (f w : Line F) :
    ((rsM : Memref sig .tc .vmem S1x256 .f32).access rLine : View sig .tc _ _ _).write (Elt F) f w Finset.univ = w :=
  Memref.write_access_unit_zero_univ (Elt F) cc0_scratch0 hz _ f w
omit [FloatOps F] in
theorem write_cs (f w : Line F) :
    ((csM : Memref sig .tc .vmem S1x256 .f32).access rLine : View sig .tc _ _ _).write (Elt F) f w Finset.univ = w :=
  Memref.write_access_unit_zero_univ (Elt F) cc0_scratch1 hz _ f w
omit [FloatOps F] in
theorem write_out (f w : Blk F) :
    ((oM : Memref sig .tc .vmem S256x256 .f32).access rAll : View sig .tc _ _ _).write (Elt F) f w Finset.univ = w :=
  Memref.write_access_unit_zero_univ (Elt F) cc0_stg1_0 hz _ f w

/-- The row copy at the protocol's cells, addressed to `n = xn c`. -/
theorem wp_send_row (c n : Dev nD) (hn : n = xn c) {hsc : (rbM : Memref sig (Dev.tc n : Thread nD τ).2.kind .vmem S1x256 .f32).view.ref.isScScratch = false}
    {hsrc : (rsM : Memref sig .tc .vmem S1x256 .f32).view.WordExact} {hdst : (rbM : Memref sig .tc .vmem S1x256 .f32).view.WordExact}
    {hsem : DmaTarget.Typed .vmem (.dma rRowS) (.remote (Dev.tc n : Thread nD τ) (rbM : Memref sig .tc .vmem S1x256 .f32) (.dma sRowS) hsc)}
    {α : Type} {Q : α → sProp 𝕄} {k : PUnit → Prog (TpuEff nD τ sig (Elt F) Λ₀ .tc) α}
    (fn : Buf (Elt F) ((rbM : Memref sig .tc .vmem S1x256 .f32).view.loc (xn c : Thread nD τ))) (W : Waits sig Unit) (O : CellTallies nD τ sig Unit) :
    iprop(cellInv ER (sched m ρ) (K (c, 2)) (sRowCell c) ∗ cellInv ER (sched m ρ) (K (xn c, 4)) (rRowCell (xn c))
        ∗ rsPts c (rowSent (xstg m ρ) c) ∗ rbPts (xn c) fn
        ∗ owes (c : Thread nD τ) (O + tallyAt (rRowCell (xn c)) () N) W
        ∗ dutyTok ER (sRowCell c) 0 () ∗ reached ER (sRowCell c) 0
        ∗ dutyTok ER (rRowCell (xn c)) 0 () ∗ reached ER (rRowCell (xn c)) 0)
      ⊢ iprop(((cred (tallyAt (sRowCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rsM (.remote (Dev.tc n : Thread nD τ) rbM (.dma sRowS) hsc) (.dma rRowS) hsrc hdst hsem) k) Q) := by
  subst hn
  unfold rsPts rbPts
  exact Rounds.wp_send_pointsTo 𝒱₀ ER (sched m ρ) (c : Thread nD τ) none (κ₁ := K (c, 2)) (κ₂ := K (xn c, 4))
    (r₁ := 0) (r₂ := 0) (d₁ := ()) (d₂ := ()) (fd := fn)
    (mem_duties m ρ c 2) (mem_duties m ρ (xn c) 4)
    () () N rfl (amount_xfer m ρ c 2 (by decide) ()) (amount_xfer m ρ (xn c) 4 (by decide) ()) O rfl (W := W)
    (by rw [payload_sRow]; unfold sRowPay rsPts; exact BI.Entails.refl _)
    (by rw [payload_rRow]; unfold rRowPay rbPts; rw [line_landed, xn_xn])

/-- The column copy at the protocol's cells, addressed to `n = yn c`. -/
theorem wp_send_col (c n : Dev nD) (hn : n = yn c) {hsc : (cbM : Memref sig (Dev.tc n : Thread nD τ).2.kind .vmem S1x256 .f32).view.ref.isScScratch = false}
    {hsrc : (csM : Memref sig .tc .vmem S1x256 .f32).view.WordExact} {hdst : (cbM : Memref sig .tc .vmem S1x256 .f32).view.WordExact}
    {hsem : DmaTarget.Typed .vmem (.dma rColS) (.remote (Dev.tc n : Thread nD τ) (cbM : Memref sig .tc .vmem S1x256 .f32) (.dma sColS) hsc)}
    {α : Type} {Q : α → sProp 𝕄} {k : PUnit → Prog (TpuEff nD τ sig (Elt F) Λ₀ .tc) α}
    (fn : Buf (Elt F) ((cbM : Memref sig .tc .vmem S1x256 .f32).view.loc (yn c : Thread nD τ))) (W : Waits sig Unit) :
    iprop(cellInv ER (sched m ρ) (K (c, 3)) (sColCell c) ∗ cellInv ER (sched m ρ) (K (yn c, 5)) (rColCell (yn c))
        ∗ csPts c (colSent (xstg m ρ) c) ∗ cbPts (yn c) fn
        ∗ owes (c : Thread nD τ) (tallyAt (rColCell (yn c)) () N) W
        ∗ dutyTok ER (sColCell c) 0 () ∗ reached ER (sColCell c) 0
        ∗ dutyTok ER (rColCell (yn c)) 0 () ∗ reached ER (rColCell (yn c)) 0)
      ⊢ iprop(((cred (tallyAt (sColCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma csM (.remote (Dev.tc n : Thread nD τ) cbM (.dma sColS) hsc) (.dma rColS) hsrc hdst hsem) k) Q) := by
  subst hn
  unfold csPts cbPts
  exact Rounds.wp_send_pointsTo 𝒱₀ ER (sched m ρ) (c : Thread nD τ) none (κ₁ := K (c, 3)) (κ₂ := K (yn c, 5))
    (r₁ := 0) (r₂ := 0) (d₁ := ()) (d₂ := ()) (fd := fn)
    (mem_duties m ρ c 3) (mem_duties m ρ (yn c) 5)
    () () N rfl (amount_xfer m ρ c 3 (by decide) ()) (amount_xfer m ρ (yn c) 5 (by decide) ()) 0 (zero_add _).symm (W := W)
    (by rw [payload_sCol]; unfold sColPay csPts; exact BI.Entails.refl _)
    (by rw [payload_rCol]; unfold rColPay cbPts; rw [col_landed, yn_yn])

/-! The stored values, folded back into the values' definitions at the words of the device's position. -/
section Fold
variable (X : Dev nD → Blk F) (c : Dev nD)
theorem out0_lit (a b : BitVec 32) (ha : mxW c = a) (hb : myW c = b) :
    k0_pay7 a b (k0_pay1 (X c)) (k0_pay6 (k0_pay1 (X c))) (iota .tc S256x256 32 [0] iota_S256x256_d0_w32) 256#32 = out0 X c := by
  subst ha hb; rfl
theorem out1_fold0 (ha : mxW c = 0#32) (b : BitVec 32) (hb : myW c = b) :
    ((oM.access rRow255 : View sig .tc _ _ _).write (Elt F) (out0 X c)
      (k0_pay10 (k0_pay8 b) (rowSent X (xn c)) ((oM : Memref sig .tc .vmem S256x256 .f32).view.readAt (Elt F) rRow255.toLoadRect (out0 X c))) Finset.univ) = out1 X c := by
  subst hb; unfold out1; rw [if_pos ha]
theorem out1_fold1 (ha : mxW c = 1#32) (b : BitVec 32) (hb : myW c = b) :
    ((oM.access rRow0 : View sig .tc _ _ _).write (Elt F) (out0 X c)
      (k0_pay11 (k0_pay8 b) (rowSent X (xn c)) ((oM : Memref sig .tc .vmem S256x256 .f32).view.readAt (Elt F) rRow0.toLoadRect (out0 X c))) Finset.univ) = out1 X c := by
  subst hb; unfold out1; rw [if_neg (by rw [ha]; decide)]
theorem out2_fold0 (a : BitVec 32) (ha : mxW c = a) (hb : myW c = 0#32) :
    ((oM.access rCol255 : View sig .tc _ _ _).write (Elt F) (out1 X c)
      (k0_pay13 (k0_pay9 a) (colSent X (yn c)) ((oM : Memref sig .tc .vmem S256x256 .f32).view.readAt (Elt F) rCol255.toLoadRect (out1 X c))) Finset.univ) = out2 X c := by
  subst ha; unfold out2; rw [if_pos hb]
theorem out2_fold1 (a : BitVec 32) (ha : mxW c = a) (hb : myW c = 1#32) :
    ((oM.access rCol0 : View sig .tc _ _ _).write (Elt F) (out1 X c)
      (k0_pay14 (k0_pay9 a) (colSent X (yn c)) ((oM : Memref sig .tc .vmem S256x256 .f32).view.readAt (Elt F) rCol0.toLoadRect (out1 X c))) Finset.univ) = out2 X c := by
  subst ha; unfold out2; rw [if_neg (by rw [hb]; decide)]
end Fold

open Idealize.ShloMosaic.Tactic

/-! A buffer held whole, stated through its memref's view: the same assertion. -/
section ToView
variable (c : Dev nD)
omit [FloatOps F] in theorem toView_x (f : Buf (Elt F) ((c : Thread nD τ).loc cc0_stg0_0)) :
    ((((c : Thread nD τ).loc cc0_stg0_0) ↦{fullShare} f : sProp 𝕄)) = ((View.loc (c : Thread nD τ) (Memref.whole cc0_stg0_0 : Memref sig .tc .vmem S256x256 .f32).view) ↦{fullShare} f) := rfl
omit [FloatOps F] in theorem toView_o (f : Buf (Elt F) ((c : Thread nD τ).loc cc0_stg1_0)) :
    ((((c : Thread nD τ).loc cc0_stg1_0) ↦{fullShare} f : sProp 𝕄)) = ((View.loc (c : Thread nD τ) (Memref.whole cc0_stg1_0 : Memref sig .tc .vmem S256x256 .f32).view) ↦{fullShare} f) := rfl
omit [FloatOps F] in theorem toView_rs (f : Buf (Elt F) ((c : Thread nD τ).loc cc0_scratch0)) :
    ((((c : Thread nD τ).loc cc0_scratch0) ↦{fullShare} f : sProp 𝕄)) = ((View.loc (c : Thread nD τ) (Memref.whole cc0_scratch0 : Memref sig .tc .vmem S1x256 .f32).view) ↦{fullShare} f) := rfl
omit [FloatOps F] in theorem toView_cs (f : Buf (Elt F) ((c : Thread nD τ).loc cc0_scratch1)) :
    ((((c : Thread nD τ).loc cc0_scratch1) ↦{fullShare} f : sProp 𝕄)) = ((View.loc (c : Thread nD τ) (Memref.whole cc0_scratch1 : Memref sig .tc .vmem S1x256 .f32).view) ↦{fullShare} f) := rfl
omit [FloatOps F] in theorem toView_rb (f : Buf (Elt F) ((c : Thread nD τ).loc cc0_scratch2)) :
    ((((c : Thread nD τ).loc cc0_scratch2) ↦{fullShare} f : sProp 𝕄)) = ((View.loc (c : Thread nD τ) (Memref.whole cc0_scratch2 : Memref sig .tc .vmem S1x256 .f32).view) ↦{fullShare} f) := rfl
omit [FloatOps F] in theorem toView_cb (f : Buf (Elt F) ((c : Thread nD τ).loc cc0_scratch3)) :
    ((((c : Thread nD τ).loc cc0_scratch3) ↦{fullShare} f : sProp 𝕄)) = ((View.loc (c : Thread nD τ) (Memref.whole cc0_scratch3 : Memref sig .tc .vmem S1x256 .f32).view) ↦{fullShare} f) := rfl
end ToView

/-! The schedule read cell by cell: each cell's one duty of round 0, its amount, the units round 0 expects, and what the
    duty hands over, spelt as the buffer it is. At a neighbour's cell the hand-over names this device's own buffers
    (the neighbour's neighbour is the device itself). -/
section Tables
variable (c : Dev nD)
omit [FloatOps F] in theorem dutiesX_bar : (sched (F := F) m ρ).duties (barCell c) 0 = {()} := duties_cell m ρ c 0
omit [FloatOps F] in theorem dutiesX_cr : (sched (F := F) m ρ).duties (crCell c) 0 = {()} := duties_cell m ρ c 1
omit [FloatOps F] in theorem dutiesX_sRow : (sched (F := F) m ρ).duties (sRowCell c) 0 = {()} := duties_cell m ρ c 2
omit [FloatOps F] in theorem dutiesX_sCol : (sched (F := F) m ρ).duties (sColCell c) 0 = {()} := duties_cell m ρ c 3
omit [FloatOps F] in theorem dutiesX_rRow : (sched (F := F) m ρ).duties (rRowCell c) 0 = {()} := duties_cell m ρ c 4
omit [FloatOps F] in theorem dutiesX_rCol : (sched (F := F) m ρ).duties (rColCell c) 0 = {()} := duties_cell m ρ c 5
omit [FloatOps F] in theorem amountX_bar (d : Unit) : (sched (F := F) m ρ).amount (barCell c) 0 d = 1 := amount_sig m ρ c 0 (by decide) d
omit [FloatOps F] in theorem amountX_cr (d : Unit) : (sched (F := F) m ρ).amount (crCell c) 0 d = 1 := amount_sig m ρ c 1 (by decide) d
omit [FloatOps F] in theorem amountX_sRow (d : Unit) : (sched (F := F) m ρ).amount (sRowCell c) 0 d = N := amount_xfer m ρ c 2 (by decide) d
omit [FloatOps F] in theorem amountX_sCol (d : Unit) : (sched (F := F) m ρ).amount (sColCell c) 0 d = N := amount_xfer m ρ c 3 (by decide) d
omit [FloatOps F] in theorem amountX_rRow (d : Unit) : (sched (F := F) m ρ).amount (rRowCell c) 0 d = N := amount_xfer m ρ c 4 (by decide) d
omit [FloatOps F] in theorem amountX_rCol (d : Unit) : (sched (F := F) m ρ).amount (rColCell c) 0 d = N := amount_xfer m ρ c 5 (by decide) d
omit [FloatOps F] in theorem expectX_bar : (sched (F := F) m ρ).expect (barCell c) 0 = 1 := expect_sig m ρ c 0 (by decide)
omit [FloatOps F] in theorem expectX_cr : (sched (F := F) m ρ).expect (crCell c) 0 = 1 := expect_sig m ρ c 1 (by decide)
omit [FloatOps F] in theorem expectX_sRow : (sched (F := F) m ρ).expect (sRowCell c) 0 = N := expect_xfer m ρ c 2 (by decide)
omit [FloatOps F] in theorem expectX_sCol : (sched (F := F) m ρ).expect (sColCell c) 0 = N := expect_xfer m ρ c 3 (by decide)
omit [FloatOps F] in theorem expectX_rRow : (sched (F := F) m ρ).expect (rRowCell c) 0 = N := expect_xfer m ρ c 4 (by decide)
omit [FloatOps F] in theorem expectX_rCol : (sched (F := F) m ρ).expect (rColCell c) 0 = N := expect_xfer m ρ c 5 (by decide)
theorem payloadX_sRow (d : Unit) : (sched (F := F) m ρ).payload (sRowCell c) 0 d
    = ((View.loc (c : Thread nD τ) (Memref.whole cc0_scratch0 : Memref sig .tc .vmem S1x256 .f32).view) ↦{fullShare} rowSent (xstg m ρ) c : sProp 𝕄) := by
  rw [payload_sRow]; unfold sRowPay; exact (rsPts_eq c _).trans (toView_rs c _)
theorem payloadX_sCol (d : Unit) : (sched (F := F) m ρ).payload (sColCell c) 0 d
    = ((View.loc (c : Thread nD τ) (Memref.whole cc0_scratch1 : Memref sig .tc .vmem S1x256 .f32).view) ↦{fullShare} colSent (xstg m ρ) c : sProp 𝕄) := by
  rw [payload_sCol]; unfold sColPay; exact (csPts_eq c _).trans (toView_cs c _)
theorem payloadX_rRow (d : Unit) : (sched (F := F) m ρ).payload (rRowCell c) 0 d
    = ((View.loc (c : Thread nD τ) (Memref.whole cc0_scratch2 : Memref sig .tc .vmem S1x256 .f32).view) ↦{fullShare} rowSent (xstg m ρ) (xn c) : sProp 𝕄) := by
  rw [payload_rRow]; unfold rRowPay; exact (rbPts_eq c _).trans (toView_rb c _)
theorem payloadX_rCol (d : Unit) : (sched (F := F) m ρ).payload (rColCell c) 0 d
    = ((View.loc (c : Thread nD τ) (Memref.whole cc0_scratch3 : Memref sig .tc .vmem S1x256 .f32).view) ↦{fullShare} colSent (xstg m ρ) (yn c) : sProp 𝕄) := by
  rw [payload_rCol]; unfold rColPay; exact (cbPts_eq c _).trans (toView_cb c _)
theorem payloadX_barX (d : Unit) : (sched (F := F) m ρ).payload (barCell (xn c)) 0 d
    = iprop((∃ f, ((View.loc (c : Thread nD τ) (Memref.whole cc0_scratch2 : Memref sig .tc .vmem S1x256 .f32).view) ↦{fullShare} f : sProp 𝕄)) ∗ reached ER (rRowCell c) 0) := by
  rw [payload_bar]; unfold barPay; rw [xn_xn]; simp only [rbPts_eq]; first | rfl | done
theorem payloadX_crY (d : Unit) : (sched (F := F) m ρ).payload (crCell (yn c)) 0 d
    = iprop((∃ f, ((View.loc (c : Thread nD τ) (Memref.whole cc0_scratch3 : Memref sig .tc .vmem S1x256 .f32).view) ↦{fullShare} f : sProp 𝕄)) ∗ reached ER (rColCell c) 0) := by
  rw [payload_cr]; unfold crPay; rw [yn_yn]; simp only [cbPts_eq]; first | rfl | done
theorem payloadX_bar (d : Unit) : (sched (F := F) m ρ).payload (barCell c) 0 d
    = iprop((∃ f, ((View.loc ((xn c : Dev nD) : Thread nD τ) (Memref.whole cc0_scratch2 : Memref sig .tc .vmem S1x256 .f32).view) ↦{fullShare} f : sProp 𝕄)) ∗ reached ER (rRowCell (xn c)) 0) := by
  rw [payload_bar]; unfold barPay; simp only [rbPts_eq]; first | rfl | done
theorem payloadX_cr (d : Unit) : (sched (F := F) m ρ).payload (crCell c) 0 d
    = iprop((∃ f, ((View.loc ((yn c : Dev nD) : Thread nD τ) (Memref.whole cc0_scratch3 : Memref sig .tc .vmem S1x256 .f32).view) ↦{fullShare} f : sProp 𝕄)) ∗ reached ER (rColCell (yn c)) 0) := by
  rw [payload_cr]; unfold crPay; simp only [cbPts_eq]; first | rfl | done
theorem payloadX_rRowX (d : Unit) : (sched (F := F) m ρ).payload (rRowCell (xn c)) 0 d
    = ((View.loc ((xn c : Dev nD) : Thread nD τ) (Memref.whole cc0_scratch2 : Memref sig .tc .vmem S1x256 .f32).view) ↦{fullShare} rowSent (xstg m ρ) c : sProp 𝕄) := by
  rw [payload_rRow]; unfold rRowPay; rw [xn_xn]; exact (rbPts_eq (xn c) _).trans (toView_rb (xn c) _)
theorem payloadX_rColY (d : Unit) : (sched (F := F) m ρ).payload (rColCell (yn c)) 0 d
    = ((View.loc ((yn c : Dev nD) : Thread nD τ) (Memref.whole cc0_scratch3 : Memref sig .tc .vmem S1x256 .f32).view) ↦{fullShare} colSent (xstg m ρ) c : sProp 𝕄) := by
  rw [payload_rCol]; unfold rColPay; rw [yn_yn]; exact (cbPts_eq (yn c) _).trans (toView_cb (yn c) _)
end Tables

attribute [local sl_rounds] dutiesX_bar dutiesX_cr dutiesX_sRow dutiesX_sCol dutiesX_rRow dutiesX_rCol
  amountX_bar amountX_cr amountX_sRow amountX_sCol amountX_rRow amountX_rCol
  expectX_bar expectX_cr expectX_sRow expectX_sCol expectX_rRow expectX_rCol
  payloadX_sRow payloadX_sCol payloadX_rRow payloadX_rCol payloadX_bar payloadX_cr
attribute [local sl_rounds high] payloadX_barX payloadX_crY payloadX_rRowX payloadX_rColY
attribute [local sl_canon] dev1_eq dev2_eq dev3_eq dev4_eq

set_option maxHeartbeats 1600000 in
/-- The body in program order, once at each of the device's four mesh positions: the two signals, the edge row and column
    staged and sent after the handshakes, the stencil stored, the two halo lines added as they land, the send buffers
    taken back, the five own cells closed. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6) Kt := by
  have hmx := mxW_cases c
  have hmy := myW_cases c
  unfold mxW at hmx
  unfold myW at hmy
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  rcases hmx with hmx | hmx <;> rcases hmy with hmy | hmy

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay2 (xstg m ρ c) := if_pos hmx
    have hcol : colSent (xstg m ρ) c = k0_pay4 (k0_pay1 (xstg m ρ c)) := if_pos hmy
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay2 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay4 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol255, k0_pay13 (k0_pay9 0#32)
            ((cbM : Memref sig .tc .vmem S1x256 .f32).view.readAt (Elt F) rLine.toLoadRect (colSent (xstg m ρ) (yn c)))
            (sound_body.sl.v138 m ρ c)⟩ :: sound_body.sl.Hout_2 m ρ c))
        = out2 (xstg m ρ) c := by
      delta sound_body.sl.v138 sound_body.sl.Hout_2 sound_body.sl.v139 sound_body.sl.Hout_1
      simp only [View.readCov, View.writes_cons, View.writes_nil]
      rw [read_rb, read_cb, write_out, write_out, out0_lit (xstg m ρ) c _ _ hmx hmy, out1_fold0 (xstg m ρ) c hmx _ hmy,
        out2_fold0 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay2 (xstg m ρ c) := if_pos hmx
    have hcol : colSent (xstg m ρ) c = k0_pay5 (k0_pay1 (xstg m ρ c)) := if_neg (by rw [show myW c = 1#32 from hmy]; decide)
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay2 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay5 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol0, k0_pay14 (k0_pay9 0#32)
            ((cbM : Memref sig .tc .vmem S1x256 .f32).view.readAt (Elt F) rLine.toLoadRect (colSent (xstg m ρ) (yn c)))
            (sound_body.sl.v138_1 m ρ c)⟩ :: sound_body.sl.Hout_2_1 m ρ c))
        = out2 (xstg m ρ) c := by
      delta sound_body.sl.v138_1 sound_body.sl.Hout_2_1 sound_body.sl.v139_1 sound_body.sl.Hout_1_1
      simp only [View.readCov, View.writes_cons, View.writes_nil]
      rw [read_rb, read_cb, write_out, write_out, out0_lit (xstg m ρ) c _ _ hmx hmy, out1_fold0 (xstg m ρ) c hmx _ hmy,
        out2_fold1 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay3 (xstg m ρ c) := if_neg (by rw [show mxW c = 1#32 from hmx]; decide)
    have hcol : colSent (xstg m ρ) c = k0_pay4 (k0_pay1 (xstg m ρ c)) := if_pos hmy
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay3 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay4 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol255, k0_pay13 (k0_pay9 1#32)
            ((cbM : Memref sig .tc .vmem S1x256 .f32).view.readAt (Elt F) rLine.toLoadRect (colSent (xstg m ρ) (yn c)))
            (sound_body.sl.v138_2 m ρ c)⟩ :: sound_body.sl.Hout_2_2 m ρ c))
        = out2 (xstg m ρ) c := by
      delta sound_body.sl.v138_2 sound_body.sl.Hout_2_2 sound_body.sl.v139_2 sound_body.sl.Hout_1_2
      simp only [View.readCov, View.writes_cons, View.writes_nil]
      rw [read_rb, read_cb, write_out, write_out, out0_lit (xstg m ρ) c _ _ hmx hmy, out1_fold1 (xstg m ρ) c hmx _ hmy,
        out2_fold0 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay3 (xstg m ρ c) := if_neg (by rw [show mxW c = 1#32 from hmx]; decide)
    have hcol : colSent (xstg m ρ) c = k0_pay5 (k0_pay1 (xstg m ρ c)) := if_neg (by rw [show myW c = 1#32 from hmy]; decide)
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay3 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay5 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol0, k0_pay14 (k0_pay9 1#32)
            ((cbM : Memref sig .tc .vmem S1x256 .f32).view.readAt (Elt F) rLine.toLoadRect (colSent (xstg m ρ) (yn c)))
            (sound_body.sl.v138_3 m ρ c)⟩ :: sound_body.sl.Hout_2_3 m ρ c))
        = out2 (xstg m ρ) c := by
      delta sound_body.sl.v138_3 sound_body.sl.Hout_2_3 sound_body.sl.v139_3 sound_body.sl.Hout_1_3
      simp only [View.readCov, View.writes_cons, View.writes_nil]
      rw [read_rb, read_cb, write_out, write_out, out0_lit (xstg m ρ) c _ _ hmx hmy, out1_fold1 (xstg m ρ) c hmx _ hmy,
        out2_fold1 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdeal.Halo.body_obligation' depends on axioms: [propext, Classical.choice, Quot.sound] -/
#guard_msgs in #print axioms body_obligation

end Body

end Cert.KernelIdeal.Halo

end
-- ==== Proof.Launch.lean ====
/-
  The launch of the halo exchange on the 2 × 2 mesh. Each device is minted the ghost state of its own six cells: the
  barrier cell, the credit cell, the two send cells and the two receive cells. The invariants of all twenty-four cells
  are allocated under one update, since a cell's invariant is opened both by the device that waits on the cell and by
  the device that pays it. Each cell's one duty token goes to the device that pays the duty: across the x axis for the
  barrier cell and the row receive cell, across the y axis for the credit cell and the column receive cell, and to the
  owner itself for the two send cells. Summed over the payers, what the devices owe at launch is each device's credit on
  the four cells the others pay. From each device's body the run of the whole program follows; after it every device's
  input array is as it was and its result array holds the block its body computed.
-/
import proofs.«900192_g7700000000000193_dist_halo2d_stencil_xy_m256_n256_v7x_xy2x2_bf16_1_alg».proof.Proof.Body

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts and the cells -/

theorem ownSemFacts : Pipeline.OwnSemFacts cfg0.spec osem := by decide

theorem share_eq (c : Dev nD) (w : Fin cfg0.W) : (dats m ρ 0 c).share w = fullShare := by unfold Dat.share; split <;> rfl

omit [FloatOps F] in
/-- Distinct (device, cell number) pairs name distinct cells. -/
theorem kcell_injective : Function.Injective (kcell : Dev nD × Fin 6 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The twenty-four cells of the protocol. -/
def haloCells : Finset (GSem nD τ sig) := Finset.univ.map ⟨kcell, kcell_injective⟩

/-- Each cell's one duty token of round 0, as minted: indexed by the cell. -/
abbrev tokOf (ck : Dev nD × Fin 6) : GSem nD τ sig × ℕ × Unit := (kcell ck, 0, ())
omit [FloatOps F] in
theorem tokOf_injective : Function.Injective (tokOf : Dev nD × Fin 6 → GSem nD τ sig × ℕ × Unit) :=
  fun a b h => kcell_injective (congrArg Prod.fst h)
def haloToks : Finset (GSem nD τ sig × ℕ × Unit) := Finset.univ.map ⟨tokOf, tokOf_injective⟩

/-- The launch element: the pipeline's cells and tokens beside the protocol's. -/
def u₀ : UU :=
  (initOf (Pipeline.cells cfgs cellOf_inj) (Pipeline.launchToks cfgs cellOf_inj), initOf haloCells haloToks)

/-- The duty tokens of device `c`'s own six cells. -/
def toks (c : Dev nD) : sProp 𝕄 :=
  iprop(dutyTok ER (barCell c) 0 () ∗ dutyTok ER (crCell c) 0 () ∗ dutyTok ER (sRowCell c) 0 () ∗ dutyTok ER (sColCell c) 0 ()
    ∗ dutyTok ER (rRowCell c) 0 () ∗ dutyTok ER (rColCell c) 0 ())

/-- What the launch element deals device `c`: its six cells' round states, positions and reached-marks, and their tokens. -/
def dealt (c : Dev nD) : sProp 𝕄 :=
  iprop((bigSep Finset.univ fun k : Fin 6 => roundState ER (sched m ρ) (kcell (c, k)) 0)
    ∗ (bigSep Finset.univ fun k : Fin 6 => iprop(atPos ER (kcell (c, k)) 0 ∅ 0 ∗ reached ER (kcell (c, k)) 0)) ∗ toks c)

/-- What the global step makes of it: the ghost state the body starts from, at some names. -/
def begun (c : Dev nD) : sProp 𝕄 := iprop(∃ K, ghost m ρ K c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_halo : BI.own (ER (initOf haloCells haloToks)) ⊢ (|==> bigSep Finset.univ (dealt m ρ) : sProp 𝕄) := by
  have hX (Φ : GSem nD τ sig → sProp 𝕄) : bigSep haloCells Φ = bigSep Finset.univ fun c : Dev nD => bigSep Finset.univ fun k : Fin 6 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores at zero, and the cells' invariants allocated -/

omit [FloatOps F] in
/-- The kernel's own five semaphores at zero are the five own cells closed; -/
theorem ownSems0_eq (c : Dev nD) : (Pipeline.ownSems0 (Ix := Unit) (Name := ℕ) (U := UU) (Lvl := ℕ) (Val := Elt F) (τ := τ) osem c : sProp 𝕄)
    = closed c := by
  rw [Pipeline.ownSems0_eq_of_list c osem [0, 1, 2, 3, 4] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  unfold closed
  iintro ⟨⟨H1, H2, H3, H4, H5⟩, HB⟩
  isplitl [HB]; · iexact HB
  isplitl [H1]; · iexact H1
  isplitl [H2]; · iexact H2
  isplitl [H3]; · iexact H3
  isplitl [H4]; · iexact H4
  iexact H5

omit [FloatOps F] in
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and round 0 reached on every cell: what the devices share. -/
def records (K : Dev nD × Fin 6 → ℕ) : sProp 𝕄 :=
  iprop((bigSep Finset.univ fun ck : Dev nD × Fin 6 => cellInv ER (sched m ρ) (K ck) (kcell ck))
    ∗ bigSep Finset.univ fun ck : Dev nD × Fin 6 => reached ER (kcell ck) 0)

instance records_persistent (K : Dev nD × Fin 6 → ℕ) : BI.Persistent (records m ρ K) := by unfold records; infer_instance

omit [FloatOps F] in
theorem inv_at (K : Dev nD × Fin 6 → ℕ) (ck : Dev nD × Fin 6) :
    (bigSep Finset.univ fun ck : Dev nD × Fin 6 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 6) :
    (bigSep Finset.univ fun ck : Dev nD × Fin 6 => (reached ER (kcell ck) 0 : sProp 𝕄)) ⊢ reached ER (kcell ck) 0 :=
  bigSep_elim (Finset.mem_univ ck)

/-- What stays with device `c` alone: its positions, and the tokens of the duties it pays. -/
def linear (c : Dev nD) : sProp 𝕄 := iprop(poss c ∗ payToks c)

omit [FloatOps F] in
theorem ghost_intro (K : Dev nD × Fin 6 → ℕ) (c : Dev nD) : iprop(records m ρ K ∗ linear c) ⊢ begun m ρ c := by
  unfold records linear begun ghost invs reacheds
  iintro ⟨⟨#HI, #HR⟩, Hpos, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (xn c, 0)); iexact HI
    isplitr; · iapply (inv_at m ρ K (xn c, 4)); iexact HI
    isplitr; · iapply (inv_at m ρ K (yn c, 1)); iexact HI
    iapply (inv_at m ρ K (yn c, 5)); iexact HI
  isplitl [Hpos]; · iexact Hpos
  isplitr
  · isplitr; · iapply (reached_at (F := F) (xn c, 0)); iexact HR
    isplitr; · iapply (reached_at (F := F) (yn c, 1)); iexact HR
    isplitr; · iapply (reached_at (F := F) (xn c, 4)); iexact HR
    isplitr; · iapply (reached_at (F := F) (yn c, 5)); iexact HR
    isplitr; · iapply (reached_at (F := F) (c, 2)); iexact HR
    isplitr; · iapply (reached_at (F := F) (c, 3)); iexact HR
    isplitr; · iapply (reached_at (F := F) (c, 4)); iexact HR
    iapply (reached_at (F := F) (c, 5)); iexact HR
  iexact Htok

/-- The two neighbour maps as permutations of the devices. -/
def xnE : Dev nD ≃ Dev nD := ⟨xn, xn, xn_xn, xn_xn⟩
def ynE : Dev nD ≃ Dev nD := ⟨yn, yn, yn_yn, yn_yn⟩

omit [FloatOps F] in
/-- The tokens dealt to their payers: a barrier token and a row receive token across the x axis, a credit token and a
    column receive token across the y axis, the two send tokens staying. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xnE (fun c : Dev nD => (dutyTok ER (barCell c) 0 () : sProp 𝕄)),
    bigSep_univ_equiv ynE (fun c : Dev nD => (dutyTok ER (crCell c) 0 () : sProp 𝕄)),
    bigSep_univ_equiv xnE (fun c : Dev nD => (dutyTok ER (rRowCell c) 0 () : sProp 𝕄)),
    bigSep_univ_equiv ynE (fun c : Dev nD => (dutyTok ER (rColCell c) 0 () : sProp 𝕄))]
  iintro ⟨H0, H1, H2, H3, H4, H5⟩
  isplitl [H0]; · iexact H0
  isplitl [H1]; · iexact H1
  isplitl [H4]; · iexact H4
  isplitl [H5]; · iexact H5
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (begun m ρ) := by
  rw [bigSep_sep', bigSep_sep', ← bigSep_univ_prod (fun ck : Dev nD × Fin 6 => iprop(∃ κ : ℕ, cellInv ER (sched m ρ) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 6 => (atPos ER (kcell (c, k)) 0 ∅ 0 : sProp 𝕄)) payToks).symm).trans
      (bigSep_mono fun c _ => show _ ⊢ linear c from Entails.of_eq (by unfold linear poss; rw [bigSep_fin6])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (begun m ρ) :=
  ((bigSep_mono fun c _ => core_alloc m ρ c).trans (bigSep_fupd _ _)).trans (BI.fupd_mono (regroup m ρ))

/-! ## The launch credit -/

omit [FloatOps F] in
/-- Summed over the payers, what the devices owe at launch deals device `c` a unit on its barrier cell and on its credit
    cell and a line's credit on each of its two receive cells. -/
theorem launch_creds (c : Dev nD) : (Pipeline.launchCred O₀ c : sProp 𝕄) ⊢ creds c := by
  have e0 : (Pipeline.launchCred O₀ c : sProp 𝕄)
      = iprop(Pipeline.launchCred O₁ c ∗ Pipeline.launchCred (fun d : Dev nD => tallyAt (barCell (xn d)) () 1) c) :=
    Pipeline.launchCred_add O₁ (fun d : Dev nD => tallyAt (barCell (xn d)) () 1) c
  have e1 : (Pipeline.launchCred O₁ c : sProp 𝕄)
      = iprop(Pipeline.launchCred O₂ c ∗ Pipeline.launchCred (fun d : Dev nD => tallyAt (crCell (yn d)) () 1) c) :=
    Pipeline.launchCred_add O₂ (fun d : Dev nD => tallyAt (crCell (yn d)) () 1) c
  have e2 : (Pipeline.launchCred O₂ c : sProp 𝕄)
      = iprop(Pipeline.launchCred (fun d : Dev nD => tallyAt (rColCell (yn d)) () N) c ∗ Pipeline.launchCred (fun d : Dev nD => tallyAt (rRowCell (xn d)) () N) c) :=
    Pipeline.launchCred_add (fun d : Dev nD => tallyAt (rColCell (yn d)) () N) (fun d : Dev nD => tallyAt (rRowCell (xn d)) () N) c
  rw [e0, e1, e2]
  unfold creds
  iintro ⟨⟨⟨HrC, HrR⟩, Hcr⟩, Hbar⟩
  isplitl [Hbar]; · iapply (Pipeline.launchCred_tallyAt (.reg barS) xn xn xn_xn xn_xn () 1 c); iexact Hbar
  isplitl [Hcr]; · iapply (Pipeline.launchCred_tallyAt (.reg crS) yn yn yn_yn yn_yn () 1 c); iexact Hcr
  isplitl [HrR]; · iapply (Pipeline.launchCred_tallyAt (.dma rRowS) xn xn xn_xn xn_xn () N c); iexact HrR
  iapply (Pipeline.launchCred_tallyAt (.dma rColS) yn yn yn_yn yn_yn () N c); iexact HrC

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ begun m ρ c)
      ⊢ |={Set.univ}=> iprop(start m ρ c ∗ emp) := by
  iintro ⟨-, Hlev, Hcr, -, HG⟩
  ihave Hc := (launch_creds (F := F) c) $$ Hcr
  imodintro
  unfold start begun
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iexists f0; rw [rsPts_eq]; iexact H0
  isplitl [H1]; · iexists f1; rw [csPts_eq]; iexact H1
  isplitl [H2]; · iexists f2; rw [rbPts_eq]; iexact H2
  iexists f3; rw [cbPts_eq]; iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨⟨⟨%f0, H0⟩, ⟨%f1, H1⟩, ⟨%f2, H2⟩, ⟨%f3, H3⟩⟩, Hc⟩
  isplitr; · iempintro
  isplitl [Hc]; · iexact Hc
  isplitl [H0]; · iexists f0; rw [← rsPts_eq]; iexact H0
  isplitl [H1]; · iexists f1; rw [← csPts_eq]; iexact H1
  isplitl [H2]; · iexists f2; rw [← rbPts_eq]; iexact H2
  iexists f3; rw [← cbPts_eq]; iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays after the one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with every counter at zero: every weakly
    fair execution of the program — the four kernels signalling their two neighbours, exchanging an edge row and an edge
    column, and adding what lands — terminates, and every final state has each device's input array as it was and its
    result array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := begun m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's computed block: the one point writes the whole output staging
    buffer back over the whole array. -/
theorem finalA_out (c : Dev nD) : finalA m ρ c (1 : Fin 2) = outAt m ρ c := by
  have h := (dats (F := F) m ρ 0 c).arrAt_succ (1 : Fin 2) t₀
  rw [show (cfg0.win (1 : Fin 2)).flush t₀ = true from rfl, if_pos rfl] at h
  refine (show finalA m ρ c (1 : Fin 2) = (dats m ρ 0 c).arrAt (1 : Fin 2) (t₀.val + 1) from rfl).trans (h.trans ?_)
  exact Memref.write_access_unit_zero_univ (Elt F) main_v1 (funext fun a => Nat.zero_mul _) _ _ _

/-- The input staging block, read through the window that is the whole array, is the array. -/
theorem xstg_eq (c : Dev nD) : xstg m ρ c = m ((c : Thread nD τ).loc main_arg0) := by
  unfold xstg
  exact Memref.read_access_unit_zero (Elt F) main_arg0 (funext fun a => Nat.zero_mul _) _ _

/-- info: 'Cert.KernelIdeal.Halo.run_main' depends on axioms: [propext, Classical.choice, Quot.sound] -/
#guard_msgs in #print axioms run_main

end Cert.KernelIdeal.Halo

end
-- ==== Proof.Spec.lean ====
/-
  The five-point stencil over the whole 512 × 512 grid, as one function of the whole array: an interior point
  becomes half itself plus an eighth of each of its four neighbours (north, south, west, east, added in that order),
  a point on the rim keeps its value.
-/
import Idealize.ShloMosaic.PureOps.Ideal
import Idealize.ShloMosaic.PureOps.Ideal.Laws
import Idealize.ShloMosaic.Lib.ValueIdx

noncomputable section

namespace Cert.Spec

open Idealize.ShloMosaic

/-- The whole grid. -/
abbrev W : Shape := ⟨2, ![512, 512]⟩

/-- A grid point is interior when neither coordinate lies on the rim. -/
def Interior (i : W.Idx) : Prop := 1 ≤ (i 0).val ∧ (i 0).val ≤ 510 ∧ 1 ≤ (i 1).val ∧ (i 1).val ≤ 510

instance (i : W.Idx) : Decidable (Interior i) := by unfold Interior; infer_instance

/-- The weight of the point itself, one half, and of each neighbour, one eighth: the binary words both programs spell. -/
def half : EReal := Ideal.ofBits .f32 0x3F000000#32
def eighth : EReal := Ideal.ofBits .f32 0x3E000000#32

/-- The whole array at row `r`, column `l` given as naturals (zero outside the grid, where nothing reads it). -/
def atN (X : W.Idx → EReal) (r l : Nat) : EReal :=
  if h : r < 512 ∧ l < 512 then X (ValueIdx.ix2 ⟨r, h.1⟩ ⟨l, h.2⟩) else 0

/-- The stencil's result as one function of the whole array. -/
def G (X : W.Idx → EReal) : W.Idx → EReal := fun i =>
  if Interior i then
    half * X i + eighth * atN X ((i 0).val - 1) (i 1).val + eighth * atN X ((i 0).val + 1) (i 1).val
      + eighth * atN X (i 0).val ((i 1).val - 1) + eighth * atN X (i 0).val ((i 1).val + 1)
  else X i

end Cert.Spec

end
-- ==== Proof.KVal.lean ====
/-
  The device's result is its block of the stencil of the whole grid.

  Read at one point of the block, each stage of the device's computation is a small expression of extended reals:
  the stencil of the device's own block with zeros beyond the block's edge, kept only at points interior to the whole
  grid; then an eighth of the received edge row added on the edge row that faces the x-neighbour; then an eighth of the
  received edge column added on the edge column that faces the y-neighbour. Along each axis the two neighbours inside
  the block (zero where the block ends) together with the halo element are the two neighbours in the whole grid, and
  multiplication by the finite nonnegative constant one eighth distributes over sums of extended reals, so the device's
  grouping of the five terms equals the whole grid's.
-/
import proofs.«900192_g7700000000000193_dist_halo2d_stencil_xy_m256_n256_v7x_xy2x2_bf16_1_alg».proof.Proof.Vals
import proofs.«900192_g7700000000000193_dist_halo2d_stencil_xy_m256_n256_v7x_xy2x2_bf16_1_alg».proof.Proof.Spec
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.Halo

open Cert.KernelIdeal Cert.KernelIdeal.Gen
open Idealize.ShloMosaic Idealize.ShloMosaic.TcCoe Idealize.SL.Sem
open Idealize.ShloMosaic.ValueIdx

/-! ## Words and masks -/

theorem andi_apply {s : Shape} {w : Nat} (a b : IVec s w) (i : s.Idx) : andi a b i = IntOp.andi (a i) (b i) := rfl
theorem cmpi_apply {s : Shape} {w : Nat} (p : CmpIPredicate) (a b : IVec s w) (i : s.Idx) :
    cmpi p a b i = IntOp.cmpi p (a i) (b i) := rfl
theorem addi_apply {s : Shape} {w : Nat} (a b : IVec s w) (i : s.Idx) : addi a b i = IntOp.addi (a i) (b i) := rfl

/-- A small natural read back signed from its 32-bit word. -/
theorem toInt_small (k : Nat) (hk : k < 1024) : (BitVec.ofNat 32 k).toInt = (k : Int) := by
  have h1 : (BitVec.ofNat 32 k).toNat = k := by rw [BitVec.toNat_ofNat]; omega
  rw [BitVec.toInt_eq_toNat_of_lt (by rw [h1]; omega), h1]

/-- The global coordinate `256 * m + n` of local coordinate `n` on a device at mesh coordinate `m`, as the body's word. -/
theorem gword (n m : Nat) (hn : n < 256) (hm : m < 2) :
    IntOp.addi (BitVec.ofNat 32 n) (Scalar.muli (BitVec.ofNat 32 m) 256#32) = BitVec.ofNat 32 (256 * m + n) := by
  interval_cases m
  · show BitVec.ofNat 32 n + 0#32 * 256#32 = _
    simp
  · show BitVec.ofNat 32 n + 1#32 * 256#32 = _
    rw [show (1#32 : BitVec 32) * 256#32 = BitVec.ofNat 32 256 from by decide, ← BitVec.ofNat_add]
    congr 1; omega

/-- A select on a bit that is set exactly when `P` holds is the `if` on `P`. -/
theorem select_iff {α : Type} (c : BitVec 1) (P : Prop) [Decidable P] (h : c = 1#1 ↔ P) (a b : α) :
    Scalar.select c a b = if P then a else b := by
  unfold Scalar.select
  by_cases hp : P
  · rw [if_pos hp]; exact if_pos (h.mpr hp)
  · rw [if_neg hp]; exact if_neg (fun hc => hp (h.mp hc))

/-- The test `1 ≤ g` on a global coordinate's word. -/
theorem sge_bit (n m : Nat) (hn : n < 256) (hm : m < 2) :
    IntOp.cmpi .sge (IntOp.addi (BitVec.ofNat 32 n) (Scalar.muli (BitVec.ofNat 32 m) 256#32)) 1#32 = 1#1
      ↔ 1 ≤ 256 * m + n := by
  rw [gword n m hn hm, IntOp.cmpi_sge, toInt_small (256 * m + n) (by omega),
    show (1#32 : BitVec 32).toInt = 1 from by decide]
  omega

/-- The test `g ≤ 510` on a global coordinate's word. -/
theorem sle_bit (n m : Nat) (hn : n < 256) (hm : m < 2) :
    IntOp.cmpi .sle (IntOp.addi (BitVec.ofNat 32 n) (Scalar.muli (BitVec.ofNat 32 m) 256#32)) 510#32 = 1#1
      ↔ 256 * m + n ≤ 510 := by
  rw [gword n m hn hm, IntOp.cmpi_sle, toInt_small (256 * m + n) (by omega),
    show (510#32 : BitVec 32).toInt = 510 from by decide]
  omega

/-- The row iota and the column iota of a block read at a point. -/
theorem iota0_apply (p q : Fin 256) :
    iota .tc S256x256 32 [0] iota_S256x256_d0_w32 (ix2 p q) = BitVec.ofNat 32 p.val :=
  iota_single_apply .tc S256x256 32 (0 : Fin 2) iota_S256x256_d0_w32 (ix2 p q)
theorem iota1_apply (p q : Fin 256) :
    iota .tc S256x256 32 [1] iota_S256x256_d1_w32 (ix2 p q) = BitVec.ofNat 32 q.val :=
  iota_single_apply .tc S256x256 32 (1 : Fin 2) iota_S256x256_d1_w32 (ix2 p q)
/-- The column iota of a line and the row iota of a column. -/
theorem iotaL_apply (o : Fin 1) (q : Fin 256) :
    iota .tc S1x256 32 [1] iota_S1x256_d1_w32 (ix2 o q) = BitVec.ofNat 32 q.val :=
  iota_single_apply .tc S1x256 32 (1 : Fin 2) iota_S1x256_d1_w32 (ix2 o q)
theorem iotaC_apply (p : Fin 256) (o : Fin 1) :
    iota .tc S256x1 32 [0] iota_S256x1_d0_w32 (ix2 p o) = BitVec.ofNat 32 p.val :=
  iota_single_apply .tc S256x1 32 (0 : Fin 2) iota_S256x1_d0_w32 (ix2 p o)

/-- The device's own stencil result read at a point: the stencil `S` at points interior to the whole grid, the input elsewhere. -/
theorem pay7_apply (mx my : Nat) (hmx : mx < 2) (hmy : my < 2) (X S : S256x256.Idx → EReal) (p q : Fin 256) :
    k0_pay7 (F := Ideal) (BitVec.ofNat 32 mx) (BitVec.ofNat 32 my) X S (iota .tc S256x256 32 [0] iota_S256x256_d0_w32) 256#32 (ix2 p q)
      = if (1 ≤ 256 * mx + p.val ∧ 256 * mx + p.val ≤ 510) ∧ (1 ≤ 256 * my + q.val ∧ 256 * my + q.val ≤ 510) then S (ix2 p q) else X (ix2 p q) := by
  unfold k0_pay7
  simp only [select_apply]
  refine select_iff _ _ ?_ _ _
  simp only [andi_apply, cmpi_apply, addi_apply, broadcast_apply, IntOp.andi_eq_one]
  rw [iota0_apply p q, iota1_apply p q, sge_bit _ _ p.isLt hmx, sle_bit _ _ p.isLt hmx, sge_bit _ _ q.isLt hmy,
    sle_bit _ _ q.isLt hmy]
  tauto

/-- The column mask of a line, read at a point. -/
theorem pay8_apply (my : Nat) (hmy : my < 2) (o : Fin 1) (q : Fin 256) :
    k0_pay8 (BitVec.ofNat 32 my) (ix2 o q) = 1#1 ↔ (1 ≤ 256 * my + q.val ∧ 256 * my + q.val ≤ 510) := by
  unfold k0_pay8
  simp only [andi_apply, cmpi_apply, addi_apply, broadcast_apply, IntOp.andi_eq_one]
  rw [iotaL_apply o q, sge_bit _ _ q.isLt hmy, sle_bit _ _ q.isLt hmy]

/-- The row mask of a column, read at a point. -/
theorem pay9_apply (mx : Nat) (hmx : mx < 2) (p : Fin 256) (o : Fin 1) :
    k0_pay9 (BitVec.ofNat 32 mx) (ix2 p o) = 1#1 ↔ (1 ≤ 256 * mx + p.val ∧ 256 * mx + p.val ≤ 510) := by
  unfold k0_pay9
  simp only [andi_apply, cmpi_apply, addi_apply, broadcast_apply, IntOp.andi_eq_one]
  rw [iotaC_apply p o, sge_bit _ _ p.isLt hmx, sle_bit _ _ p.isLt hmx]

/-! ## The four shifted copies of a block -/

/-- A block read at natural coordinates (zero outside it, where nothing reads it). -/
def atB (X : S256x256.Idx → EReal) (r l : Nat) : EReal :=
  if h : r < 256 ∧ l < 256 then X (ix2 ⟨r, h.1⟩ ⟨l, h.2⟩) else 0

theorem atB_of_lt (X : S256x256.Idx → EReal) (r l : Nat) (hr : r < 256) (hl : l < 256) :
    atB X r l = X (ix2 ⟨r, hr⟩ ⟨l, hl⟩) := dif_pos ⟨hr, hl⟩

/-- The block shifted one row down with a line of `z` on top: the northern neighbour. -/
theorem north_apply (X : S256x256.Idx → EReal) (z : EReal) (p q : Fin 256) :
    concatenate S256x256 0 [⟨S1x256, broadcast S1x256 z⟩,
        ⟨S255x256, extractStridedSlice S255x256 ![0, 0] X slices_S256x256_o0_0_S255x256⟩]
        concatenates_S1x256_S255x256_S256x256_d0 (ix2 p q)
      = if 0 < p.val then atB X (p.val - 1) q.val else z := by
  by_cases hp : 0 < p.val
  · rw [if_pos hp]
    have hp1 : p.val - 1 < 255 := by omega
    refine (concatenate_pair_apply_right (t := S256x256) (s₁ := S1x256) (s₂ := S255x256) (0 : Fin 2) _ _ _ (ix2 p q) rfl rfl
      (ix2 (⟨p.val - 1, hp1⟩ : Fin 255) q : S255x256.Idx) ?_ ?_).trans ?_
    · intro b hb
      match b with
      | ⟨0, _⟩ => exact absurd rfl hb
      | ⟨1, _⟩ => rfl
    · show (p.val - 1) + 1 = p.val; omega
    · refine (extractStridedSlice_apply (s := S256x256) (t := S255x256) _ X _ _ (ix2 (⟨p.val - 1, by omega⟩ : Fin 256) q : S256x256.Idx) ?_).trans ?_
      · intro a
        match a with
        | ⟨0, _⟩ => show p.val - 1 = 0 + (p.val - 1); omega
        | ⟨1, _⟩ => show q.val = 0 + q.val; omega
      · exact (atB_of_lt X _ _ _ _).symm
  · rw [if_neg hp]
    exact concatenate_pair_apply_left (t := S256x256) (s₁ := S1x256) (s₂ := S255x256) (0 : Fin 2) _ _ _ (ix2 p q) rfl
      (ix2 (⟨0, by decide⟩ : Fin 1) q : S1x256.Idx) (by
      intro b
      match b with
      | ⟨0, _⟩ => show 0 = p.val; omega
      | ⟨1, _⟩ => rfl)

/-- The block shifted one row up with a line of `z` below: the southern neighbour. -/
theorem south_apply (X : S256x256.Idx → EReal) (z : EReal) (p q : Fin 256) :
    concatenate S256x256 0 [⟨S255x256, extractStridedSlice S255x256 ![1, 0] X slices_S256x256_o1_0_S255x256⟩,
        ⟨S1x256, broadcast S1x256 z⟩]
        concatenates_S255x256_S1x256_S256x256_d0 (ix2 p q)
      = if p.val + 1 < 256 then atB X (p.val + 1) q.val else z := by
  by_cases hp : p.val + 1 < 256
  · rw [if_pos hp]
    refine (concatenate_pair_apply_left (t := S256x256) (s₁ := S255x256) (s₂ := S1x256) (0 : Fin 2) _ _ _ (ix2 p q) rfl
      (ix2 (⟨p.val, by omega⟩ : Fin 255) q : S255x256.Idx) ?_).trans ?_
    · intro b
      match b with
      | ⟨0, _⟩ => rfl
      | ⟨1, _⟩ => rfl
    · refine (extractStridedSlice_apply (s := S256x256) (t := S255x256) _ X _ _ (ix2 (⟨p.val + 1, hp⟩ : Fin 256) q : S256x256.Idx) ?_).trans ?_
      · intro a
        match a with
        | ⟨0, _⟩ => show p.val + 1 = 1 + p.val; omega
        | ⟨1, _⟩ => show q.val = 0 + q.val; omega
      · exact (atB_of_lt X _ _ _ _).symm
  · rw [if_neg hp]
    refine concatenate_pair_apply_right (t := S256x256) (s₁ := S255x256) (s₂ := S1x256) (0 : Fin 2) _ _ _ (ix2 p q) rfl rfl
      (ix2 (⟨0, by decide⟩ : Fin 1) q : S1x256.Idx) ?_ ?_
    · intro b hb
      match b with
      | ⟨0, _⟩ => exact absurd rfl hb
      | ⟨1, _⟩ => rfl
    · show 0 + 255 = p.val; omega

/-- The block shifted one column right with a column of `z` on the left: the western neighbour. -/
theorem west_apply (X : S256x256.Idx → EReal) (z : EReal) (p q : Fin 256) :
    concatenate S256x256 1 [⟨S256x1, broadcast S256x1 z⟩,
        ⟨S256x255, extractStridedSlice S256x255 ![0, 0] X slices_S256x256_o0_0_S256x255⟩]
        concatenates_S256x1_S256x255_S256x256_d1 (ix2 p q)
      = if 0 < q.val then atB X p.val (q.val - 1) else z := by
  by_cases hq : 0 < q.val
  · rw [if_pos hq]
    have hq1 : q.val - 1 < 255 := by omega
    refine (concatenate_pair_apply_right (t := S256x256) (s₁ := S256x1) (s₂ := S256x255) (1 : Fin 2) _ _ _ (ix2 p q) rfl rfl
      (ix2 p (⟨q.val - 1, hq1⟩ : Fin 255) : S256x255.Idx) ?_ ?_).trans ?_
    · intro b hb
      match b with
      | ⟨0, _⟩ => rfl
      | ⟨1, _⟩ => exact absurd rfl hb
    · show (q.val - 1) + 1 = q.val; omega
    · refine (extractStridedSlice_apply (s := S256x256) (t := S256x255) _ X _ _ (ix2 p (⟨q.val - 1, by omega⟩ : Fin 256) : S256x256.Idx) ?_).trans ?_
      · intro a
        match a with
        | ⟨0, _⟩ => show p.val = 0 + p.val; omega
        | ⟨1, _⟩ => show q.val - 1 = 0 + (q.val - 1); omega
      · exact (atB_of_lt X _ _ _ _).symm
  · rw [if_neg hq]
    exact concatenate_pair_apply_left (t := S256x256) (s₁ := S256x1) (s₂ := S256x255) (1 : Fin 2) _ _ _ (ix2 p q) rfl
      (ix2 p (⟨0, by decide⟩ : Fin 1) : S256x1.Idx) (by
      intro b
      match b with
      | ⟨0, _⟩ => rfl
      | ⟨1, _⟩ => show 0 = q.val; omega)

/-- The block shifted one column left with a column of `z` on the right: the eastern neighbour. -/
theorem east_apply (X : S256x256.Idx → EReal) (z : EReal) (p q : Fin 256) :
    concatenate S256x256 1 [⟨S256x255, extractStridedSlice S256x255 ![0, 1] X slices_S256x256_o0_1_S256x255⟩,
        ⟨S256x1, broadcast S256x1 z⟩]
        concatenates_S256x255_S256x1_S256x256_d1 (ix2 p q)
      = if q.val + 1 < 256 then atB X p.val (q.val + 1) else z := by
  by_cases hq : q.val + 1 < 256
  · rw [if_pos hq]
    refine (concatenate_pair_apply_left (t := S256x256) (s₁ := S256x255) (s₂ := S256x1) (1 : Fin 2) _ _ _ (ix2 p q) rfl
      (ix2 p (⟨q.val, by omega⟩ : Fin 255) : S256x255.Idx) ?_).trans ?_
    · intro b
      match b with
      | ⟨0, _⟩ => rfl
      | ⟨1, _⟩ => rfl
    · refine (extractStridedSlice_apply (s := S256x256) (t := S256x255) _ X _ _ (ix2 p (⟨q.val + 1, hq⟩ : Fin 256) : S256x256.Idx) ?_).trans ?_
      · intro a
        match a with
        | ⟨0, _⟩ => show p.val = 0 + p.val; omega
        | ⟨1, _⟩ => show q.val + 1 = 1 + q.val; omega
      · exact (atB_of_lt X _ _ _ _).symm
  · rw [if_neg hq]
    refine concatenate_pair_apply_right (t := S256x256) (s₁ := S256x255) (s₂ := S256x1) (1 : Fin 2) _ _ _ (ix2 p q) rfl rfl
      (ix2 p (⟨0, by decide⟩ : Fin 1) : S256x1.Idx) ?_ ?_
    · intro b hb
      match b with
      | ⟨0, _⟩ => rfl
      | ⟨1, _⟩ => exact absurd rfl hb
    · show 0 + 255 = q.val; omega

/-! ## The payloads at a point -/

theorem ofBits_ideal (b : BitVec 32) : (Scalar.ofBits .f32 b : Ideal .f32) = Ideal.ofBits .f32 b := rfl

theorem pay1_eq (X : S256x256.Idx → EReal) : k0_pay1 (F := Ideal) X = X := by
  unfold k0_pay1; exact shapeCast_self X _

/-- The stencil of a block with zeros beyond its edge, at a point. -/
theorem pay6_apply (X : S256x256.Idx → EReal) (p q : Fin 256) :
    k0_pay6 (F := Ideal) X (ix2 p q)
      = Cert.Spec.half * X (ix2 p q) + Cert.Spec.eighth *
          ((((if 0 < p.val then atB X (p.val - 1) q.val else 0) + (if p.val + 1 < 256 then atB X (p.val + 1) q.val else 0))
            + (if 0 < q.val then atB X p.val (q.val - 1) else 0)) + (if q.val + 1 < 256 then atB X p.val (q.val + 1) else 0)) := by
  unfold k0_pay6
  simp only [addf_apply, mulf_apply, broadcast_apply]
  rw [north_apply, south_apply, west_apply, east_apply, ofBits_ideal 0x00000000#32, Ideal.ofBits_zero_f32]
  rfl

/-- The edge rows a device sends: its last and its first. -/
theorem pay2_apply (X : S256x256.Idx → EReal) (o : Fin 1) (q : Fin 256) :
    k0_pay2 (F := Ideal) X (ix2 o q) = X (ix2 ⟨255, by decide⟩ q) := by
  unfold k0_pay2
  rw [shapeCast_self, pay1_eq]
  exact extractStridedSlice_apply (s := S256x256) (t := S1x256) _ X _ _ (ix2 (⟨255, by decide⟩ : Fin 256) q : S256x256.Idx) (by
    intro a
    match a with
    | ⟨0, _⟩ => show 255 = 255 + o.val; omega
    | ⟨1, _⟩ => show q.val = 0 + q.val; omega)
theorem pay3_apply (X : S256x256.Idx → EReal) (o : Fin 1) (q : Fin 256) :
    k0_pay3 (F := Ideal) X (ix2 o q) = X (ix2 ⟨0, by decide⟩ q) := by
  unfold k0_pay3
  rw [shapeCast_self, pay1_eq]
  exact extractStridedSlice_apply (s := S256x256) (t := S1x256) _ X _ _ (ix2 (⟨0, by decide⟩ : Fin 256) q : S256x256.Idx) (by
    intro a
    match a with
    | ⟨0, _⟩ => show 0 = 0 + o.val; omega
    | ⟨1, _⟩ => show q.val = 0 + q.val; omega)

/-- The edge columns a device sends, as rows: its last and its first. -/
theorem pay4_apply (X : S256x256.Idx → EReal) (o : Fin 1) (p : Fin 256) :
    k0_pay4 (F := Ideal) X (ix2 o p) = X (ix2 p ⟨255, by decide⟩) := by
  unfold k0_pay4
  rw [shapeCast_self]
  refine (transpose_apply (s := S256x1) (t := S1x256) _ _ _ (ix2 o p) (ix2 p (⟨0, by decide⟩ : Fin 1) : S256x1.Idx) ?_).trans ?_
  · intro b
    match b with
    | ⟨0, _⟩ => show 0 = o.val; omega
    | ⟨1, _⟩ => rfl
  · exact extractStridedSlice_apply (s := S256x256) (t := S256x1) _ X _ _ (ix2 p (⟨255, by decide⟩ : Fin 256) : S256x256.Idx) (by
      intro a
      match a with
      | ⟨0, _⟩ => show p.val = 0 + p.val; omega
      | ⟨1, _⟩ => show 255 = 255 + 0; omega)
theorem pay5_apply (X : S256x256.Idx → EReal) (o : Fin 1) (p : Fin 256) :
    k0_pay5 (F := Ideal) X (ix2 o p) = X (ix2 p ⟨0, by decide⟩) := by
  unfold k0_pay5
  rw [shapeCast_self]
  refine (transpose_apply (s := S256x1) (t := S1x256) _ _ _ (ix2 o p) (ix2 p (⟨0, by decide⟩ : Fin 1) : S256x1.Idx) ?_).trans ?_
  · intro b
    match b with
    | ⟨0, _⟩ => show 0 = o.val; omega
    | ⟨1, _⟩ => rfl
  · exact extractStridedSlice_apply (s := S256x256) (t := S256x1) _ X _ _ (ix2 p (⟨0, by decide⟩ : Fin 256) : S256x256.Idx) (by
      intro a
      match a with
      | ⟨0, _⟩ => show p.val = 0 + p.val; omega
      | ⟨1, _⟩ => show 0 = 0 + 0; omega)

/-- The received column line turned back into a column. -/
theorem pay12_apply (v : S1x256.Idx → EReal) (p : Fin 256) (o : Fin 1) :
    k0_pay12 (F := Ideal) v (ix2 p o) = v (ix2 ⟨0, by decide⟩ p) := by
  unfold k0_pay12
  exact transpose_apply (s := S1x256) (t := S256x1) _ v _ (ix2 p o) (ix2 (⟨0, by decide⟩ : Fin 1) p : S1x256.Idx) (by
    intro b
    match b with
    | ⟨0, _⟩ => rfl
    | ⟨1, _⟩ => show 0 = o.val; omega)

/-- The edge row after the halo row is added: the old row plus an eighth of the received row where the column mask is set. -/
theorem pay10_apply (m : IVec S1x256 1) (R old : S1x256.Idx → EReal) (j : S1x256.Idx) :
    k0_pay10 (F := Ideal) m R old j = old j + Scalar.select (m j) (Cert.Spec.eighth * R j) 0 := by
  unfold k0_pay10
  simp only [addf_apply, mulf_apply, select_apply, broadcast_apply, shapeCast_self, ofBits_ideal, Ideal.ofBits_zero_f32]
  rfl
theorem pay11_apply (m : IVec S1x256 1) (R old : S1x256.Idx → EReal) (j : S1x256.Idx) :
    k0_pay11 (F := Ideal) m R old j = old j + Scalar.select (m j) (Cert.Spec.eighth * R j) 0 := by
  unfold k0_pay11
  simp only [addf_apply, mulf_apply, select_apply, broadcast_apply, shapeCast_self, ofBits_ideal, Ideal.ofBits_zero_f32]
  rfl

/-- The edge column after the halo column is added. -/
theorem pay13_apply (m : IVec S256x1 1) (C : S1x256.Idx → EReal) (old : S256x1.Idx → EReal) (p : Fin 256) (o : Fin 1) :
    k0_pay13 (F := Ideal) m C old (ix2 p o)
      = old (ix2 p o) + Scalar.select (m (ix2 p o)) (Cert.Spec.eighth * C (ix2 ⟨0, by decide⟩ p)) 0 := by
  unfold k0_pay13
  simp only [addf_apply, mulf_apply, select_apply, broadcast_apply, shapeCast_self, ofBits_ideal, Ideal.ofBits_zero_f32, pay12_apply]
  rfl
theorem pay14_apply (m : IVec S256x1 1) (C : S1x256.Idx → EReal) (old : S256x1.Idx → EReal) (p : Fin 256) (o : Fin 1) :
    k0_pay14 (F := Ideal) m C old (ix2 p o)
      = old (ix2 p o) + Scalar.select (m (ix2 p o)) (Cert.Spec.eighth * C (ix2 ⟨0, by decide⟩ p)) 0 := by
  unfold k0_pay14
  simp only [addf_apply, mulf_apply, select_apply, broadcast_apply, shapeCast_self, ofBits_ideal, Ideal.ofBits_zero_f32, pay12_apply]
  rfl

/-! ## A store through one row or one column of the block, and the load before it -/

/-- A store of a line through row `r` of the block changes that row and nothing else. -/
theorem write_row_apply (r : Nat) (inb : ∀ a, (![r, 0] : Fin 2 → Nat) a + S1x256.size a ≤ S256x256.size a)
    (f : S256x256.Idx → EReal) (w : S1x256.Idx → EReal) (p q : Fin 256) :
    ((oM.access (Rect.unit (s := S256x256) ![r, 0] S1x256.size inb) : View sig .tc _ _ _).write (Elt Ideal) f w Finset.univ) (ix2 p q)
      = if p.val = r then w (ix2 ⟨0, by decide⟩ q) else f (ix2 p q) := by
  refine (congrFun (View.write_whole_slice_unit (Val := Elt Ideal) cc0_stg1_0 ![r, 0] S1x256.size inb f w) (ix2 p q)).trans ?_
  unfold updateSlice
  split
  · next hin =>
    have h0 : r ≤ p.val ∧ p.val < r + 1 := hin (0 : Fin 2)
    rw [if_pos (by omega)]
    congr 1
    funext b
    apply Fin.ext
    match b with
    | ⟨0, _⟩ => show p.val - r = 0; omega
    | ⟨1, _⟩ => show q.val - 0 = q.val; omega
  · next hout =>
    rw [if_neg]
    intro hp
    refine hout fun a => ?_
    match a with
    | ⟨0, _⟩ => exact ⟨by show r ≤ p.val; omega, by show p.val < r + 1; omega⟩
    | ⟨1, _⟩ => exact ⟨Nat.zero_le _, by show q.val < 0 + 256; omega⟩

/-- A store of a column through column `l` of the block changes that column and nothing else. -/
theorem write_col_apply (l : Nat) (inb : ∀ a, (![0, l] : Fin 2 → Nat) a + S256x1.size a ≤ S256x256.size a)
    (f : S256x256.Idx → EReal) (w : S256x1.Idx → EReal) (p q : Fin 256) :
    ((oM.access (Rect.unit (s := S256x256) ![0, l] S256x1.size inb) : View sig .tc _ _ _).write (Elt Ideal) f w Finset.univ) (ix2 p q)
      = if q.val = l then w (ix2 p ⟨0, by decide⟩) else f (ix2 p q) := by
  refine (congrFun (View.write_whole_slice_unit (Val := Elt Ideal) cc0_stg1_0 ![0, l] S256x1.size inb f w) (ix2 p q)).trans ?_
  unfold updateSlice
  split
  · next hin =>
    have h1 : l ≤ q.val ∧ q.val < l + 1 := hin (1 : Fin 2)
    rw [if_pos (by omega)]
    congr 1
    funext b
    apply Fin.ext
    match b with
    | ⟨0, _⟩ => show p.val - 0 = p.val; omega
    | ⟨1, _⟩ => show q.val - l = 0; omega
  · next hout =>
    rw [if_neg]
    intro hq
    refine hout fun a => ?_
    match a with
    | ⟨0, _⟩ => exact ⟨Nat.zero_le _, by show p.val < 0 + 256; omega⟩
    | ⟨1, _⟩ => exact ⟨by show l ≤ q.val; omega, by show q.val < l + 1; omega⟩

/-- A load through row `r` of the block reads that row. -/
theorem read_row_apply (r : Nat) (hr : r < 256) (inb : ∀ a, (![r, 0] : Fin 2 → Nat) a + S1x256.size a ≤ S256x256.size a)
    (f : S256x256.Idx → EReal) (o : Fin 1) (q : Fin 256) :
    (oM : Memref sig .tc .vmem S256x256 .f32).view.readAt (Elt Ideal) (Rect.unit (s := S256x256) ![r, 0] S1x256.size inb).toLoadRect f (ix2 o q)
      = f (ix2 ⟨r, hr⟩ q) := by
  show f _ = f _
  congr 1
  funext a
  apply Fin.ext
  match a with
  | ⟨0, _⟩ => show r + 1 * o.val = r; omega
  | ⟨1, _⟩ => show 0 + 1 * q.val = q.val; omega

/-- A load through column `l` of the block reads that column. -/
theorem read_col_apply (l : Nat) (hl : l < 256) (inb : ∀ a, (![0, l] : Fin 2 → Nat) a + S256x1.size a ≤ S256x256.size a)
    (f : S256x256.Idx → EReal) (p : Fin 256) (o : Fin 1) :
    (oM : Memref sig .tc .vmem S256x256 .f32).view.readAt (Elt Ideal) (Rect.unit (s := S256x256) ![0, l] S256x1.size inb).toLoadRect f (ix2 p o)
      = f (ix2 p ⟨l, hl⟩) := by
  show f _ = f _
  congr 1
  funext a
  apply Fin.ext
  match a with
  | ⟨0, _⟩ => show 0 + 1 * p.val = p.val; omega
  | ⟨1, _⟩ => show l + 1 * o.val = l; omega

/-! ## The algebra of the join -/

/-- One eighth is a finite nonnegative number. -/
theorem eighth_coe : Cert.Spec.eighth = ((1 / 8 : ℝ) : EReal) := by
  simp [Cert.Spec.eighth, Ideal.ofBits, Ideal.ieee, -EReal.coe_mul]; norm_num
theorem eighth_nonneg : 0 ≤ Cert.Spec.eighth := by
  rw [eighth_coe]; exact EReal.coe_nonneg.mpr (by norm_num)
theorem eighth_ne_top : Cert.Spec.eighth ≠ ⊤ := by
  rw [eighth_coe]; exact EReal.coe_ne_top _

/-- Multiplication by one eighth distributes over a sum of extended reals. -/
theorem eighth_mul_add (a b : EReal) : Cert.Spec.eighth * (a + b) = Cert.Spec.eighth * a + Cert.Spec.eighth * b :=
  EReal.left_distrib_of_nonneg_of_ne_top eighth_nonneg eighth_ne_top a b

/-- The device's grouping of the five terms, with the two halo terms added afterwards, is the whole grid's. -/
theorem combine (h x n s w e hr hc N S W E : EReal)
    (hv : n + s + hr = N + S) (hh : w + e + hc = W + E) :
    h * x + Cert.Spec.eighth * (((n + s) + w) + e) + Cert.Spec.eighth * hr + Cert.Spec.eighth * hc
      = h * x + Cert.Spec.eighth * N + Cert.Spec.eighth * S + Cert.Spec.eighth * W + Cert.Spec.eighth * E := by
  have hv' : Cert.Spec.eighth * n + Cert.Spec.eighth * s + Cert.Spec.eighth * hr = Cert.Spec.eighth * N + Cert.Spec.eighth * S := by
    rw [← eighth_mul_add, ← eighth_mul_add, ← eighth_mul_add, hv]
  have hh' : Cert.Spec.eighth * w + Cert.Spec.eighth * e + Cert.Spec.eighth * hc = Cert.Spec.eighth * W + Cert.Spec.eighth * E := by
    rw [← eighth_mul_add, ← eighth_mul_add, ← eighth_mul_add, hh]
  calc h * x + Cert.Spec.eighth * (((n + s) + w) + e) + Cert.Spec.eighth * hr + Cert.Spec.eighth * hc
      = h * x + ((Cert.Spec.eighth * n + Cert.Spec.eighth * s + Cert.Spec.eighth * hr)
          + (Cert.Spec.eighth * w + Cert.Spec.eighth * e + Cert.Spec.eighth * hc)) := by
        rw [eighth_mul_add, eighth_mul_add, eighth_mul_add]; ac_rfl
    _ = h * x + ((Cert.Spec.eighth * N + Cert.Spec.eighth * S) + (Cert.Spec.eighth * W + Cert.Spec.eighth * E)) := by
        rw [hv', hh']
    _ = _ := by ac_rfl

/-- Along one axis: the two neighbours inside the block (zero where the block ends) and the halo element at the edge
    facing the other device are together the two neighbours in the whole grid, at an interior coordinate. -/
theorem axis_join (A : Nat → EReal) (m p : Nat) (hm : m < 2) (hp : p < 256) (h1 : 1 ≤ 256 * m + p) (h2 : 256 * m + p ≤ 510) :
    (if 0 < p then A (256 * m + (p - 1)) else 0) + (if p + 1 < 256 then A (256 * m + (p + 1)) else 0)
        + (if p = (if m = 0 then 255 else 0) then A (if m = 0 then 256 else 255) else 0)
      = A (256 * m + p - 1) + A (256 * m + p + 1) := by
  interval_cases m
  · have e1 : (if (0 : ℕ) = 0 then 255 else 0 : ℕ) = 255 := rfl
    have e2 : (if (0 : ℕ) = 0 then 256 else 255 : ℕ) = 256 := rfl
    rw [e1, e2]
    by_cases hp255 : p = 255
    · subst hp255; simp
    · rw [if_pos (by omega), if_pos (by omega), if_neg hp255, add_zero]
      congr 2
      all_goals omega
  · have e1 : (if (1 : ℕ) = 0 then 255 else 0 : ℕ) = 0 := rfl
    have e2 : (if (1 : ℕ) = 0 then 256 else 255 : ℕ) = 255 := rfl
    rw [e1, e2]
    by_cases hp0 : p = 0
    · subst hp0; simp [add_comm]
    · rw [if_pos (by omega), if_pos (by omega), if_neg hp0, add_zero]
      congr 2
      all_goals omega

/-! ## The device's three stages as functions of its coordinate words, its block and the two received lines -/

/-- The stencil of a block with zeros beyond its edge. -/
def sten (Xb : S256x256.Idx → EReal) (p q : Fin 256) : EReal :=
  Cert.Spec.half * Xb (ix2 p q) + Cert.Spec.eighth *
    ((((if 0 < p.val then atB Xb (p.val - 1) q.val else 0) + (if p.val + 1 < 256 then atB Xb (p.val + 1) q.val else 0))
      + (if 0 < q.val then atB Xb p.val (q.val - 1) else 0)) + (if q.val + 1 < 256 then atB Xb p.val (q.val + 1) else 0))

def o0 (mxw myw : BitVec 32) (Xb : S256x256.Idx → EReal) : S256x256.Idx → EReal :=
  k0_pay7 (F := Ideal) mxw myw (k0_pay1 Xb) (k0_pay6 (k0_pay1 Xb)) (iota .tc S256x256 32 [0] iota_S256x256_d0_w32) 256#32

def o1 (mxw myw : BitVec 32) (Xb : S256x256.Idx → EReal) (R : S1x256.Idx → EReal) : S256x256.Idx → EReal :=
  if mxw = 0#32 then
    ((oM.access rRow255 : View sig .tc _ _ _).write (Elt Ideal) (o0 mxw myw Xb)
      (k0_pay10 (k0_pay8 myw) R ((oM : Memref sig .tc .vmem S256x256 .f32).view.readAt (Elt Ideal) rRow255.toLoadRect (o0 mxw myw Xb))) Finset.univ)
  else
    ((oM.access rRow0 : View sig .tc _ _ _).write (Elt Ideal) (o0 mxw myw Xb)
      (k0_pay11 (k0_pay8 myw) R ((oM : Memref sig .tc .vmem S256x256 .f32).view.readAt (Elt Ideal) rRow0.toLoadRect (o0 mxw myw Xb))) Finset.univ)

def o2 (mxw myw : BitVec 32) (Xb : S256x256.Idx → EReal) (R C : S1x256.Idx → EReal) : S256x256.Idx → EReal :=
  if myw = 0#32 then
    ((oM.access rCol255 : View sig .tc _ _ _).write (Elt Ideal) (o1 mxw myw Xb R)
      (k0_pay13 (k0_pay9 mxw) C ((oM : Memref sig .tc .vmem S256x256 .f32).view.readAt (Elt Ideal) rCol255.toLoadRect (o1 mxw myw Xb R))) Finset.univ)
  else
    ((oM.access rCol0 : View sig .tc _ _ _).write (Elt Ideal) (o1 mxw myw Xb R)
      (k0_pay14 (k0_pay9 mxw) C ((oM : Memref sig .tc .vmem S256x256 .f32).view.readAt (Elt Ideal) rCol0.toLoadRect (o1 mxw myw Xb R))) Finset.univ)

theorem out2_eq (X : Dev nD → Blk Ideal) (c : Dev nD) :
    out2 (F := Ideal) X c = o2 (mxW c) (myW c) (X c) (rowSent X (xn c)) (colSent X (yn c)) := rfl

/-- The first stage at a point. -/
theorem o0_apply (mx my : Nat) (hmx : mx < 2) (hmy : my < 2) (Xb : S256x256.Idx → EReal) (p q : Fin 256) :
    o0 (BitVec.ofNat 32 mx) (BitVec.ofNat 32 my) Xb (ix2 p q)
      = if (1 ≤ 256 * mx + p.val ∧ 256 * mx + p.val ≤ 510) ∧ (1 ≤ 256 * my + q.val ∧ 256 * my + q.val ≤ 510) then sten Xb p q
        else Xb (ix2 p q) := by
  unfold o0
  rw [pay1_eq, pay7_apply mx my hmx hmy, pay6_apply]
  rfl

/-- The second stage at a point: the halo row's eighth is added on the edge row facing the x-neighbour, where the
    column is interior to the whole grid. -/
theorem o1_apply (mx my : Nat) (hmx : mx < 2) (hmy : my < 2) (Xb : S256x256.Idx → EReal) (R : S1x256.Idx → EReal) (p q : Fin 256) :
    o1 (BitVec.ofNat 32 mx) (BitVec.ofNat 32 my) Xb R (ix2 p q)
      = o0 (BitVec.ofNat 32 mx) (BitVec.ofNat 32 my) Xb (ix2 p q)
        + (if p.val = (if mx = 0 then 255 else 0) then
            (if (1 ≤ 256 * my + q.val ∧ 256 * my + q.val ≤ 510) then Cert.Spec.eighth * R (ix2 ⟨0, by decide⟩ q) else 0) else 0) := by
  interval_cases mx
  · have e1 : (if (0 : ℕ) = 0 then 255 else 0 : ℕ) = 255 := rfl
    rw [e1]
    unfold o1
    rw [if_pos rfl, write_row_apply 255]
    by_cases hp : p.val = 255
    · have hpe : p = ⟨255, by decide⟩ := Fin.ext hp
      subst hpe
      rw [if_pos rfl, if_pos rfl, pay10_apply, read_row_apply 255 (by decide), select_iff _ _ (pay8_apply my hmy _ q)]
    · rw [if_neg hp, if_neg hp, add_zero]
  · have e1 : (if (1 : ℕ) = 0 then 255 else 0 : ℕ) = 0 := rfl
    rw [e1]
    unfold o1
    rw [if_neg (by decide), write_row_apply 0]
    by_cases hp : p.val = 0
    · have hpe : p = ⟨0, by decide⟩ := Fin.ext hp
      subst hpe
      rw [if_pos rfl, if_pos rfl, pay11_apply, read_row_apply 0 (by decide), select_iff _ _ (pay8_apply my hmy _ q)]
    · rw [if_neg hp, if_neg hp, add_zero]

/-- The third stage at a point: the halo column's eighth is added on the edge column facing the y-neighbour, where the
    row is interior to the whole grid. -/
theorem o2_apply (mx my : Nat) (hmx : mx < 2) (hmy : my < 2) (Xb : S256x256.Idx → EReal) (R C : S1x256.Idx → EReal) (p q : Fin 256) :
    o2 (BitVec.ofNat 32 mx) (BitVec.ofNat 32 my) Xb R C (ix2 p q)
      = o1 (BitVec.ofNat 32 mx) (BitVec.ofNat 32 my) Xb R (ix2 p q)
        + (if q.val = (if my = 0 then 255 else 0) then
            (if (1 ≤ 256 * mx + p.val ∧ 256 * mx + p.val ≤ 510) then Cert.Spec.eighth * C (ix2 ⟨0, by decide⟩ p) else 0) else 0) := by
  interval_cases my
  · have e1 : (if (0 : ℕ) = 0 then 255 else 0 : ℕ) = 255 := rfl
    rw [e1]
    unfold o2
    rw [if_pos rfl, write_col_apply 255]
    by_cases hq : q.val = 255
    · have hqe : q = ⟨255, by decide⟩ := Fin.ext hq
      subst hqe
      rw [if_pos rfl, if_pos rfl, pay13_apply, read_col_apply 255 (by decide), select_iff _ _ (pay9_apply mx hmx p _)]
    · rw [if_neg hq, if_neg hq, add_zero]
  · have e1 : (if (1 : ℕ) = 0 then 255 else 0 : ℕ) = 0 := rfl
    rw [e1]
    unfold o2
    rw [if_neg (by decide), write_col_apply 0]
    by_cases hq : q.val = 0
    · have hqe : q = ⟨0, by decide⟩ := Fin.ext hq
      subst hqe
      rw [if_pos rfl, if_pos rfl, pay14_apply, read_col_apply 0 (by decide), select_iff _ _ (pay9_apply mx hmx p _)]
    · rw [if_neg hq, if_neg hq, add_zero]

/-! ## The join with the stencil of the whole grid -/

theorem atN_idx (X : Cert.Spec.W.Idx → EReal) (i : Cert.Spec.W.Idx) : Cert.Spec.atN X (i 0).val (i 1).val = X i := by
  unfold Cert.Spec.atN
  rw [dif_pos ⟨(i 0).isLt, (i 1).isLt⟩]
  exact congrArg X (eq_ix2 i).symm

theorem ite_mul_zero' (c : Prop) [Decidable c] (k a : EReal) : (if c then k * a else 0) = k * (if c then a else 0) := by
  split_ifs <;> simp

/-- A device at mesh position `(mx, my)` that holds its block of the whole grid and has received the facing edge row
    of its x-neighbour and the facing edge column of its y-neighbour ends holding its block of the whole grid's stencil. -/
theorem join (mx my : Nat) (hmx : mx < 2) (hmy : my < 2) (Xw : Cert.Spec.W.Idx → EReal)
    (Xb : S256x256.Idx → EReal) (R C : S1x256.Idx → EReal)
    (hXb : ∀ a b : Fin 256, Xb (ix2 a b) = Cert.Spec.atN Xw (256 * mx + a.val) (256 * my + b.val))
    (hR : ∀ b : Fin 256, R (ix2 ⟨0, by decide⟩ b) = Cert.Spec.atN Xw (if mx = 0 then 256 else 255) (256 * my + b.val))
    (hC : ∀ a : Fin 256, C (ix2 ⟨0, by decide⟩ a) = Cert.Spec.atN Xw (256 * mx + a.val) (if my = 0 then 256 else 255))
    (p q : Fin 256) (i : Cert.Spec.W.Idx) (hi0 : (i 0).val = 256 * mx + p.val) (hi1 : (i 1).val = 256 * my + q.val) :
    o2 (BitVec.ofNat 32 mx) (BitVec.ofNat 32 my) Xb R C (ix2 p q) = Cert.Spec.G Xw i := by
  have hB : ∀ r l : Nat, r < 256 → l < 256 → atB Xb r l = Cert.Spec.atN Xw (256 * mx + r) (256 * my + l) := by
    intro r l hr hl; rw [atB_of_lt Xb r l hr hl, hXb]
  rw [o2_apply mx my hmx hmy, o1_apply mx my hmx hmy, o0_apply mx my hmx hmy]
  unfold Cert.Spec.G Cert.Spec.Interior
  rw [← atN_idx Xw i]
  simp only [hi0, hi1]
  by_cases hint : (1 ≤ 256 * mx + p.val ∧ 256 * mx + p.val ≤ 510) ∧ (1 ≤ 256 * my + q.val ∧ 256 * my + q.val ≤ 510)
  · have hI' : 1 ≤ 256 * mx + p.val ∧ 256 * mx + p.val ≤ 510 ∧ 1 ≤ 256 * my + q.val ∧ 256 * my + q.val ≤ 510 :=
      ⟨hint.1.1, hint.1.2, hint.2.1, hint.2.2⟩
    have hI1 : 1 ≤ 256 * mx + p.val ∧ 256 * mx + p.val ≤ 510 := hint.1
    have hI2 : 1 ≤ 256 * my + q.val ∧ 256 * my + q.val ≤ 510 := hint.2
    rw [if_pos hint, if_pos hI', if_pos hI2, if_pos hI1, ite_mul_zero', ite_mul_zero', hR, hC]
    unfold sten
    rw [hXb]
    have hn : (if 0 < p.val then atB Xb (p.val - 1) q.val else 0)
        = (if 0 < p.val then Cert.Spec.atN Xw (256 * mx + (p.val - 1)) (256 * my + q.val) else 0) := by
      rw [hB _ _ (by omega) q.isLt]
    have hs : (if p.val + 1 < 256 then atB Xb (p.val + 1) q.val else 0)
        = (if p.val + 1 < 256 then Cert.Spec.atN Xw (256 * mx + (p.val + 1)) (256 * my + q.val) else 0) := by
      by_cases h : p.val + 1 < 256
      · rw [if_pos h, if_pos h, hB _ _ h q.isLt]
      · rw [if_neg h, if_neg h]
    have hw : (if 0 < q.val then atB Xb p.val (q.val - 1) else 0)
        = (if 0 < q.val then Cert.Spec.atN Xw (256 * mx + p.val) (256 * my + (q.val - 1)) else 0) := by
      rw [hB _ _ p.isLt (by omega)]
    have he : (if q.val + 1 < 256 then atB Xb p.val (q.val + 1) else 0)
        = (if q.val + 1 < 256 then Cert.Spec.atN Xw (256 * mx + p.val) (256 * my + (q.val + 1)) else 0) := by
      by_cases h : q.val + 1 < 256
      · rw [if_pos h, if_pos h, hB _ _ p.isLt h]
      · rw [if_neg h, if_neg h]
    rw [hn, hs, hw, he]
    exact combine _ _ _ _ _ _ _ _ _ _ _ _
      (axis_join (fun r => Cert.Spec.atN Xw r (256 * my + q.val)) mx p.val hmx p.isLt hint.1.1 hint.1.2)
      (axis_join (fun l => Cert.Spec.atN Xw (256 * mx + p.val) l) my q.val hmy q.isLt hint.2.1 hint.2.2)
  · have hI' : ¬(1 ≤ 256 * mx + p.val ∧ 256 * mx + p.val ≤ 510 ∧ 1 ≤ 256 * my + q.val ∧ 256 * my + q.val ≤ 510) :=
      fun h => hint ⟨⟨h.1, h.2.1⟩, h.2.2.1, h.2.2.2⟩
    rw [if_neg hint, if_neg hI']
    have hHR : (if p.val = (if mx = 0 then 255 else 0) then
          (if (1 ≤ 256 * my + q.val ∧ 256 * my + q.val ≤ 510) then Cert.Spec.eighth * R (ix2 ⟨0, by decide⟩ q) else 0) else 0) = 0 := by
      by_cases hp : p.val = (if mx = 0 then 255 else 0)
      · rw [if_pos hp, if_neg]
        intro hc
        refine hint ⟨?_, hc⟩
        split_ifs at hp <;> omega
      · rw [if_neg hp]
    have hHC : (if q.val = (if my = 0 then 255 else 0) then
          (if (1 ≤ 256 * mx + p.val ∧ 256 * mx + p.val ≤ 510) then Cert.Spec.eighth * C (ix2 ⟨0, by decide⟩ p) else 0) else 0) = 0 := by
      by_cases hq : q.val = (if my = 0 then 255 else 0)
      · rw [if_pos hq, if_neg]
        intro hc
        refine hint ⟨hc, ?_⟩
        split_ifs at hq <;> omega
      · rw [if_neg hq]
    rw [hHR, hHC, add_zero, add_zero, hXb]

/-! ## The mesh: which block a device holds and which lines it receives -/

theorem mesh0 (c : Dev nD) : ((Layout.meshBlock [2, 2] ![[0], [1]] c) (0 : Fin 2)).val = c.val / 2 := by revert c; decide
theorem mesh1 (c : Dev nD) : ((Layout.meshBlock [2, 2] ![[0], [1]] c) (1 : Fin 2)).val = c.val % 2 := by revert c; decide

/-- Device `c`'s block of the whole grid, read at a point. -/
theorem blk_apply (Xw : Cert.Spec.W.Idx → EReal) (c : Dev nD) (a b : Fin 256) :
    (Layout.blockN ⟨2, ![256, 256]⟩ ⟨2, ![512, 512]⟩ (Layout.meshBlock [2, 2] ![[0], [1]] c) Xw) (ix2 a b)
      = Cert.Spec.atN Xw (256 * (c.val / 2) + a.val) (256 * (c.val % 2) + b.val) := by
  rw [Layout.blockN_apply, ← atN_idx Xw]
  congr 1
  · show ((Layout.meshBlock [2, 2] ![[0], [1]] c) (0 : Fin 2)).val * 256 + a.val = _
    rw [mesh0]; omega
  · show ((Layout.meshBlock [2, 2] ![[0], [1]] c) (1 : Fin 2)).val * 256 + b.val = _
    rw [mesh1]; omega

/-- The line a device sends across the x axis is its edge row facing that neighbour … -/
theorem rowSent_apply (X : Dev nD → (S256x256.Idx → EReal)) (d : Dev nD) (o : Fin 1) (q : Fin 256) :
    rowSent (F := Ideal) X d (ix2 o q) = atB (X d) (if d.val / 2 = 0 then 255 else 0) q.val := by
  unfold rowSent
  rw [mxW_eq]
  have hd : d.val < 4 := d.isLt
  obtain h | h : d.val / 2 = 0 ∨ d.val / 2 = 1 := by omega
  · rw [h, if_pos rfl, if_pos rfl, pay2_apply, atB_of_lt _ 255 q.val (by decide) q.isLt]
  · rw [h, if_neg (by decide), if_neg (by decide), pay3_apply, atB_of_lt _ 0 q.val (by decide) q.isLt]

/-- … and the line it sends across the y axis its edge column facing that neighbour. -/
theorem colSent_apply (X : Dev nD → (S256x256.Idx → EReal)) (d : Dev nD) (o : Fin 1) (p : Fin 256) :
    colSent (F := Ideal) X d (ix2 o p) = atB (X d) p.val (if d.val % 2 = 0 then 255 else 0) := by
  unfold colSent
  rw [myW_eq, pay1_eq]
  have hd : d.val < 4 := d.isLt
  obtain h | h : d.val % 2 = 0 ∨ d.val % 2 = 1 := by omega
  · rw [h, if_pos rfl, if_pos rfl, pay4_apply, atB_of_lt _ p.val 255 p.isLt (by decide)]
  · rw [h, if_neg (by decide), if_neg (by decide), pay5_apply, atB_of_lt _ p.val 0 p.isLt (by decide)]

/-- Device `c` ends holding block `c` of the stencil of the whole grid, when every device starts holding its block
    of the whole grid. -/
theorem out2_block (Xw : Cert.Spec.W.Idx → EReal) (X : Dev nD → Blk Ideal)
    (hX : ∀ c, X c = Layout.blockN ⟨2, ![256, 256]⟩ ⟨2, ![512, 512]⟩ (Layout.meshBlock [2, 2] ![[0], [1]] c) Xw) (c : Dev nD) :
    out2 (F := Ideal) X c = Layout.blockN ⟨2, ![256, 256]⟩ ⟨2, ![512, 512]⟩ (Layout.meshBlock [2, 2] ![[0], [1]] c) (Cert.Spec.G Xw) := by
  funext j
  obtain ⟨p, q, rfl⟩ : ∃ (p q : Fin 256), j = ix2 p q := ⟨j 0, j 1, eq_ix2 j⟩
  have hc : c.val < 4 := c.isLt
  have hB : ∀ (d : Dev nD) (r l : Nat), r < 256 → l < 256 →
      atB (X d) r l = Cert.Spec.atN Xw (256 * (d.val / 2) + r) (256 * (d.val % 2) + l) := by
    intro d r l hr hl
    rw [atB_of_lt _ r l hr hl, hX d]
    exact blk_apply Xw d ⟨r, hr⟩ ⟨l, hl⟩
  have hx : (xn c).val = (c.val % 2 + 2) - 2 * (c.val / 2) := rfl
  have hy : (yn c).val = (2 * (c.val / 2) + 1) - c.val % 2 := rfl
  rw [out2_eq, mxW_eq, myW_eq, Layout.blockN_apply]
  refine join (c.val / 2) (c.val % 2) (by omega) (by omega) Xw (X c) (rowSent X (xn c)) (colSent X (yn c)) ?_ ?_ ?_ p q _ ?_ ?_
  · intro a b
    rw [hX c]
    exact blk_apply Xw c a b
  · intro b
    rw [rowSent_apply, hB (xn c) _ _ (by split_ifs <;> omega) b.isLt, hx]
    congr 1
    · split_ifs <;> omega
    · omega
  · intro a
    rw [colSent_apply, hB (yn c) _ _ a.isLt (by split_ifs <;> omega), hy]
    congr 1
    · omega
    · split_ifs <;> omega
  · show ((Layout.meshBlock [2, 2] ![[0], [1]] c) (0 : Fin 2)).val * 256 + p.val = _
    rw [mesh0]; omega
  · show ((Layout.meshBlock [2, 2] ![[0], [1]] c) (1 : Fin 2)).val * 256 + q.val = _
    rw [mesh1]; omega

end Cert.KernelIdeal.Halo

end
-- ==== Proof.RefValue.lean ====
/-
  The reference's result, read off its run: the stencil's function of the whole array.

  The reference scatters a 510 × 510 window of updates into the whole array at start index (1, 1), the update at
  (r, l) being half the array's element at (r + 1, l + 1) plus an eighth of each of that element's four neighbours.
  The scatter is a left fold of pointwise overwrites over the update indices; update index (r, l) lands on
  (r + 1, l + 1) and nowhere else, so an interior point reads exactly one update and a point on the rim none.
-/
import proofs.«900192_g7700000000000193_dist_halo2d_stencil_xy_m256_n256_v7x_xy2x2_bf16_1_alg».proof.Proof.Gen.ReferenceIdeal.Run
import proofs.«900192_g7700000000000193_dist_halo2d_stencil_xy_m256_n256_v7x_xy2x2_bf16_1_alg».proof.Proof.Gen.ReferenceIdeal.Read
import proofs.«900192_g7700000000000193_dist_halo2d_stencil_xy_m256_n256_v7x_xy2x2_bf16_1_alg».proof.Proof.Spec

noncomputable section

namespace Cert.RefValue

open Idealize.ShloMosaic Idealize.SL.Sem
open Cert.ReferenceIdeal Cert.ReferenceIdeal.Gen Cert.ReferenceIdeal.Read Idealize.ShloMosaic.TcCoe Idealize.ShloMosaic.StableHlo

section Fold
variable {ι κ α : Type}

/-! A left fold of steps each of which, read at one fixed index `i0`, either overwrites the value there with `u n`
    (when `hit n`) or leaves it as it was. -/

/-- If the value at `i0` is `v` and every later overwrite there writes `v`, it is `v` at the end. -/
theorem foldl_keep (st : (ι → α) → κ → (ι → α)) (i0 : ι) (hit : κ → Prop) (u : κ → α)
    (hst : ∀ r n, (hit n → st r n i0 = u n) ∧ (¬ hit n → st r n i0 = r i0)) (v : α) :
    ∀ (l : List κ) (x : ι → α), (∀ n ∈ l, hit n → u n = v) → x i0 = v → (l.foldl st x) i0 = v := by
  intro l
  induction l with
  | nil => intro x _ hx; exact hx
  | cons n l ih =>
    intro x hu hx
    rw [List.foldl_cons]
    refine ih (st x n) (fun k hk => hu k (List.mem_cons_of_mem _ hk)) ?_
    by_cases h : hit n
    · rw [(hst x n).1 h]; exact hu n List.mem_cons_self h
    · rw [(hst x n).2 h]; exact hx

/-- If no step overwrites at `i0`, the value there is the initial one. -/
theorem foldl_miss (st : (ι → α) → κ → (ι → α)) (i0 : ι) (hit : κ → Prop) (u : κ → α)
    (hst : ∀ r n, (hit n → st r n i0 = u n) ∧ (¬ hit n → st r n i0 = r i0)) :
    ∀ (l : List κ) (x : ι → α), (∀ n ∈ l, ¬ hit n) → (l.foldl st x) i0 = x i0 := by
  intro l
  induction l with
  | nil => intro x _; rfl
  | cons n l ih =>
    intro x hm
    rw [List.foldl_cons, ih (st x n) (fun k hk => hm k (List.mem_cons_of_mem _ hk))]
    exact (hst x n).2 (hm n List.mem_cons_self)

/-- If some step overwrites at `i0` and every step that does writes `v`, the value there is `v` at the end. -/
theorem foldl_hit (st : (ι → α) → κ → (ι → α)) (i0 : ι) (hit : κ → Prop) (u : κ → α)
    (hst : ∀ r n, (hit n → st r n i0 = u n) ∧ (¬ hit n → st r n i0 = r i0)) (v : α) :
    ∀ (l : List κ) (x : ι → α) (n0 : κ), n0 ∈ l → hit n0 → (∀ n ∈ l, hit n → u n = v) → (l.foldl st x) i0 = v := by
  intro l
  induction l with
  | nil => intro x n0 h0; exact absurd h0 (List.not_mem_nil)
  | cons n l ih =>
    intro x n0 h0 hh hu
    rw [List.foldl_cons]
    by_cases h : hit n
    · refine foldl_keep st i0 hit u hst v l (st x n) (fun k hk => hu k (List.mem_cons_of_mem _ hk)) ?_
      rw [(hst x n).1 h]; exact hu n List.mem_cons_self h
    · have : n0 ∈ l := by
        rcases List.mem_cons.1 h0 with e | e
        · exact absurd (e ▸ hh) h
        · exact e
      exact ih (st x n) n0 this hh (fun k hk => hu k (List.mem_cons_of_mem _ hk))

end Fold

/-- The scatter's dimension numbers. -/
abbrev D : ScatterDims S512x512 S2 S510x510 := scatter_S512x512_S2_S510x510_01_n_01_0

/-- The start index table: two ones. -/
abbrev IX : IVec S2 32 :=
  concatenate S2 0 [⟨S1, (broadcastInDim S1 ![] bcast_S_S1 (constantI S_ 32 1#32))⟩, ⟨S1, (broadcastInDim S1 ![] bcast_S_S1 (constantI S_ 32 1#32))⟩] concatenates_S1_S1_S2_d0

theorem IX_apply (k : S2.Idx) : IX k = 1#32 := by
  obtain ⟨a, rfl⟩ : ∃ a, k = ValueIdx.ix1 a := ⟨k 0, ValueIdx.eq_ix1 k⟩
  match a with
  | ⟨0, _⟩ => rfl
  | ⟨1, _⟩ => rfl

theorem start_eq (j : S510x510.Idx) (a : Fin 2) : D.start j IX a = 1 := by
  unfold ScatterDims.start
  have ha : a ∈ D.scatterDimsToOperandDims := by
    have h : ∀ b : Fin 2, b ∈ ([0, 1] : List (Fin 2)) := by decide
    exact h a
  rw [dif_pos ha, IX_apply]
  rfl

theorem window_eq (j : S510x510.Idx) (a : Fin 2) : D.window j a = (j a).val := by
  match a with
  | ⟨0, _⟩ => rfl
  | ⟨1, _⟩ => rfl

/-- Update index `j` lands one row down and one column right of its own position: never dropped. -/
theorem resultIdx_eq (j : S510x510.Idx) : D.resultIdx? j IX = some (idx_main_v0 j) := by
  have H : ∀ a : Fin 2, D.start j IX a + D.window j a = ((1 + (j a).val : Nat) : Int) := fun a => by
    rw [start_eq, window_eq]; push_cast; rfl
  have hb : ∀ a : Fin 2, 1 + (j a).val < S512x512.size a := fun a => by
    match a with
    | ⟨0, _⟩ => have h0 : (j 0).val < 510 := (j 0).isLt; show 1 + (j 0).val < 512; omega
    | ⟨1, _⟩ => have h1 : (j 1).val < 510 := (j 1).isLt; show 1 + (j 1).val < 512; omega
  unfold ScatterDims.resultIdx?
  rw [dif_pos (fun a => by rw [H a]; exact ⟨Int.natCast_nonneg _, by exact_mod_cast hb a⟩)]
  refine congrArg some (funext fun a => Fin.ext ?_)
  show (D.start j IX a + D.window j a).toNat = (idx_main_v0 j a).val
  rw [H a, Int.toNat_natCast]
  match a with
  | ⟨0, _⟩ => rfl
  | ⟨1, _⟩ => rfl

/-- A scatter whose body returns the update, read at an index that exactly one update index lands on: that update's element. -/
theorem scatter_set_hit {s si u : Shape} {w : Nat} {α : Type} (d : ScatterDims s si u) (x : s.Idx → α) (idx : IVec si w)
    (upd : u.Idx → α) (i0 : s.Idx) (j0 : u.Idx) (h0 : d.resultIdx? j0 idx = some i0)
    (hu : ∀ j, d.resultIdx? j idx = some i0 → j = j0) :
    Host.scatter d (fun _ b => b) x idx upd i0 = upd j0 := by
  unfold Host.scatter
  refine foldl_hit _ i0 (fun n => d.resultIdx? (u.rowMajor.symm n) idx = some i0) (fun n => upd (u.rowMajor.symm n)) ?_
    (upd j0) _ x (u.rowMajor j0) (List.mem_finRange _) ?_ ?_
  · intro r n
    constructor
    · intro h
      simp only [h, ↓reduceIte]
    · intro h
      cases hr : d.resultIdx? (u.rowMajor.symm n) idx with
      | none => simp only [hr]
      | some i =>
        simp only [hr]
        exact if_neg (fun e => h (by rw [hr, e]))
  · show d.resultIdx? (u.rowMajor.symm (u.rowMajor j0)) idx = some i0
    rw [Equiv.symm_apply_apply]; exact h0
  · intro n _ hn
    show upd (u.rowMajor.symm n) = upd j0
    rw [hu _ hn]

/-- The same scatter read at an index no update index lands on: the operand's element. -/
theorem scatter_set_miss {s si u : Shape} {w : Nat} {α : Type} (d : ScatterDims s si u) (x : s.Idx → α) (idx : IVec si w)
    (upd : u.Idx → α) (i0 : s.Idx) (hm : ∀ j, d.resultIdx? j idx ≠ some i0) :
    Host.scatter d (fun _ b => b) x idx upd i0 = x i0 := by
  unfold Host.scatter
  refine foldl_miss _ i0 (fun n => d.resultIdx? (u.rowMajor.symm n) idx = some i0) (fun n => upd (u.rowMajor.symm n)) ?_
    _ x (fun n _ => hm _)
  intro r n
  constructor
  · intro h
    simp only [h, ↓reduceIte]
  · intro h
    cases hr : d.resultIdx? (u.rowMajor.symm n) idx with
    | none => simp only [hr]
    | some i =>
      simp only [hr]
      exact if_neg (fun e => h (by rw [hr, e]))

/-- The whole array at naturals that are the coordinates of an index is the array at that index. -/
theorem atN_eq (X : Cert.Spec.W.Idx → EReal) (r l : Nat) (k : Cert.Spec.W.Idx) (h0 : (k 0).val = r) (h1 : (k 1).val = l) :
    Cert.Spec.atN X r l = X k := by
  have hr : r < 512 := by rw [← h0]; exact ValueIdx.idx2_lt0 k
  have hl : l < 512 := by rw [← h1]; exact ValueIdx.idx2_lt1 k
  unfold Cert.Spec.atN
  rw [dif_pos ⟨hr, hl⟩]
  refine congrArg X (funext fun a => ?_)
  match a with
  | ⟨0, _⟩ => exact Fin.ext h0.symm
  | ⟨1, _⟩ => exact Fin.ext h1.symm

/-- The update index that lands on an interior point: one row up, one column left. -/
def pre (i : Cert.Spec.W.Idx) (h : Cert.Spec.Interior i) : S510x510.Idx :=
  ValueIdx.ix2 ⟨(i 0).val - 1, by have := h.1; have := h.2.1; omega⟩ ⟨(i 1).val - 1, by have := h.2.2.1; have := h.2.2.2; omega⟩

theorem idx_pre (i : Cert.Spec.W.Idx) (h : Cert.Spec.Interior i) : idx_main_v0 (pre i h) = i := by
  funext a
  match a with
  | ⟨0, _⟩ => exact Fin.ext (by have := h.1; show 1 + ((i 0).val - 1) = (i 0).val; omega)
  | ⟨1, _⟩ => exact Fin.ext (by have := h.2.2.1; show 1 + ((i 1).val - 1) = (i 1).val; omega)

/-- The reference's result is the stencil's function of its argument. -/
theorem result_eq (x0 : (⟨S512x512, .f32⟩ : BufTy).Contents (Elt Ideal)) :
    val_main_v22 (F := Ideal) x0 = Cert.Spec.G x0 := by
  funext i
  show Host.scatter D (fun _ b => b) x0 IX (val_main_v18 (F := Ideal) x0) i = Cert.Spec.G x0 i
  by_cases hI : Cert.Spec.Interior i
  · rw [show Cert.Spec.G x0 i = _ from if_pos hI]
    have hu : ∀ j, D.resultIdx? j IX = some i → j = pre i hI := fun j e => by
      rw [resultIdx_eq] at e
      have e' : idx_main_v0 j = i := Option.some.inj e
      have e0 : 1 + (j 0).val = (i 0).val := congrArg (fun k : S512x512.Idx => (k 0).val) e'
      have e1 : 1 + (j 1).val = (i 1).val := congrArg (fun k : S512x512.Idx => (k 1).val) e'
      funext a
      match a with
      | ⟨0, _⟩ => exact Fin.ext (by show (j 0).val = (i 0).val - 1; omega)
      | ⟨1, _⟩ => exact Fin.ext (by show (j 1).val = (i 1).val - 1; omega)
    rw [scatter_set_hit D x0 IX _ i (pre i hI) ((resultIdx_eq _).trans (congrArg some (idx_pre i hI))) hu]
    have hN : Cert.Spec.atN x0 ((i 0).val - 1) (i 1).val = x0 (idx_main_v3 (pre i hI)) :=
      atN_eq x0 _ _ (idx_main_v3 (pre i hI)) rfl (by have := hI.2.2.1; show 1 + ((i 1).val - 1) = (i 1).val; omega)
    have hS : Cert.Spec.atN x0 ((i 0).val + 1) (i 1).val = x0 (idx_main_v7 (pre i hI)) :=
      atN_eq x0 _ _ (idx_main_v7 (pre i hI)) (by have := hI.1; show 2 + ((i 0).val - 1) = (i 0).val + 1; omega)
        (by have := hI.2.2.1; show 1 + ((i 1).val - 1) = (i 1).val; omega)
    have hW : Cert.Spec.atN x0 (i 0).val ((i 1).val - 1) = x0 (idx_main_v11 (pre i hI)) :=
      atN_eq x0 _ _ (idx_main_v11 (pre i hI)) (by have := hI.1; show 1 + ((i 0).val - 1) = (i 0).val; omega) rfl
    have hE : Cert.Spec.atN x0 (i 0).val ((i 1).val + 1) = x0 (idx_main_v15 (pre i hI)) :=
      atN_eq x0 _ _ (idx_main_v15 (pre i hI)) (by have := hI.1; show 1 + ((i 0).val - 1) = (i 0).val; omega)
        (by have := hI.2.2.1; show 2 + ((i 1).val - 1) = (i 1).val + 1; omega)
    rw [hN, hS, hW, hE]
    rw [val_main_v18_apply, val_main_v14_apply, val_main_v10_apply, val_main_v6_apply, val_main_v2_apply,
      val_main_v5_apply, val_main_v9_apply, val_main_v13_apply, val_main_v17_apply,
      val_main_v1_apply, val_main_v4_apply, val_main_v8_apply, val_main_v12_apply, val_main_v16_apply,
      val_main_cst_apply, val_main_cst_0_apply, val_main_cst_1_apply, val_main_cst_2_apply, val_main_cst_3_apply,
      val_main_v0_apply, val_main_v3_apply, val_main_v7_apply, val_main_v11_apply, val_main_v15_apply, idx_pre i hI]
    rfl
  · rw [show Cert.Spec.G x0 i = _ from if_neg hI]
    refine scatter_set_miss D x0 IX _ i (fun j e => hI ?_)
    rw [resultIdx_eq] at e
    have e' : idx_main_v0 j = i := Option.some.inj e
    have e0 : 1 + (j 0).val = (i 0).val := congrArg (fun k : S512x512.Idx => (k 0).val) e'
    have e1 : 1 + (j 1).val = (i 1).val := congrArg (fun k : S512x512.Idx => (k 1).val) e'
    have h0 : (j 0).val < 510 := ValueIdx.idx2_lt0 j
    have h1 : (j 1).val < 510 := ValueIdx.idx2_lt1 j
    exact ⟨by omega, by omega, by omega, by omega⟩

/-- The reference's run, read: every device ends with its result at the stencil of its argument, the argument unchanged. -/
theorem run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v22) = Cert.Spec.G (m' ((c.tc : Thread nD τ).loc main_arg0))
      ∧ r.2.mem ((c.tc : Thread nD τ).loc main_arg0) = m' ((c.tc : Thread nD τ).loc main_arg0) :=
  (θ_run defs _ _).mono (fun _ h c => ⟨(h c).1.trans ((val_main_v22_eq _).trans (result_eq _)), (h c).2⟩)
    (Cert.ReferenceIdeal.Value.run m' ρ')

end Cert.RefValue

end
-- ==== Proof.Bits.Vals.lean ====
/-
  What each device computes, as pure terms of the devices' input blocks.
  A device at mesh position (mx, my) holds block (mx, my) of the grid. It sends its edge row that faces its
  x-neighbour (its last row if mx = 0, its first if mx = 1) and its edge column that faces its y-neighbour (transposed
  to a row), applies the stencil to its own block with zeros beyond the block's edge, keeping rim points of the whole
  grid, and then adds an eighth of the received row to its facing edge row and an eighth of the received column to
  its facing edge column, each masked to the interior of the whole grid.
-/
import proofs.«900192_g7700000000000193_dist_halo2d_stencil_xy_m256_n256_v7x_xy2x2_bf16_1_alg».proof.Proof.Gen.Kernel.Skeleton
import proofs.«900192_g7700000000000193_dist_halo2d_stencil_xy_m256_n256_v7x_xy2x2_bf16_1_alg».proof.Proof.Gen.Kernel.Launch

noncomputable section

namespace Cert.Kernel.Halo

open Cert.Kernel Cert.Kernel.Gen
open Idealize.ShloMosaic Idealize.ShloMosaic.TcCoe Idealize.SL.Sem

variable {F : FTy → Type} [FloatOps F]

/-! ## The mesh: neighbours and coordinates -/

/-- The device across the x axis (the other row of the mesh, same column); -/
def xn (c : Dev nD) : Dev nD := ⟨(c.val % 2 + 2) - 2 * (c.val / 2), by have h : c.val < 4 := c.isLt; show _ < 4; omega⟩
/-- the device across the y axis (same row of the mesh, the other column). -/
def yn (c : Dev nD) : Dev nD := ⟨(2 * (c.val / 2) + 1) - c.val % 2, by have h : c.val < 4 := c.isLt; show _ < 4; omega⟩

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem xn_ne_yn (c : Dev nD) : xn c ≠ yn c := by revert c; decide

/-- The four device-id chains of the body name these two neighbours. -/
theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem dev3_eq (c : Dev nD) : (⟨k0_dev3 c, k0_dev3_lt c⟩ : Dev nD) = xn c := Fin.ext (k0_dev3_eq c)
theorem dev4_eq (c : Dev nD) : (⟨k0_dev4 c, k0_dev4_lt c⟩ : Dev nD) = yn c := Fin.ext (k0_dev4_eq c)

/-- The device's x coordinate and y coordinate as the words the body computes them. -/
def mxW (c : Dev nD) : BitVec 32 := Scalar.remsi (Scalar.divsi (Dev.word c) 2#32) 2#32
def myW (c : Dev nD) : BitVec 32 := Scalar.remsi (Scalar.divsi (Dev.word c) 1#32) 2#32

theorem mxW_eq (c : Dev nD) : mxW c = BitVec.ofNat 32 (c.val / 2) := by revert c; decide +kernel
theorem myW_eq (c : Dev nD) : myW c = BitVec.ofNat 32 (c.val % 2) := by revert c; decide +kernel
theorem mxW_cases (c : Dev nD) : mxW c = 0#32 ∨ mxW c = 1#32 := by revert c; decide +kernel
theorem myW_cases (c : Dev nD) : myW c = 0#32 ∨ myW c = 1#32 := by revert c; decide +kernel

/-! ## The buffers and the rectangles the body accesses -/

abbrev xM : Memref sig .tc .vmem S256x256 .f32 := Memref.whole cc0_stg0_0
abbrev oM : Memref sig .tc .vmem S256x256 .f32 := Memref.whole cc0_stg1_0
abbrev rsM : Memref sig .tc .vmem S1x256 .f32 := Memref.whole cc0_scratch0
abbrev csM : Memref sig .tc .vmem S1x256 .f32 := Memref.whole cc0_scratch1
abbrev rbM : Memref sig .tc .vmem S1x256 .f32 := Memref.whole cc0_scratch2
abbrev cbM : Memref sig .tc .vmem S1x256 .f32 := Memref.whole cc0_scratch3

abbrev rAll : Rect S256x256 := Rect.unit (s := S256x256) ![0, 0] S256x256.size inb_S256x256_S256x256_0_0
abbrev rLine : Rect S1x256 := Rect.unit (s := S1x256) ![0, 0] S1x256.size inb_S1x256_S1x256_0_0
abbrev rRow255 : Rect S256x256 := Rect.unit (s := S256x256) ![255, 0] S1x256.size inb_S256x256_S1x256_255_0
abbrev rRow0 : Rect S256x256 := Rect.unit (s := S256x256) ![0, 0] S1x256.size inb_S256x256_S1x256_0_0
abbrev rCol255 : Rect S256x256 := Rect.unit (s := S256x256) ![0, 255] S256x1.size inb_S256x256_S256x1_0_255
abbrev rCol0 : Rect S256x256 := Rect.unit (s := S256x256) ![0, 0] S256x1.size inb_S256x256_S256x1_0_0

/-- A block's contents; a line's (one row of 256). -/
abbrev Blk (F : FTy → Type) : Type := (cc0_stg1_0 : Ref sig .tc).ty.Contents (Elt F)
abbrev Line (F : FTy → Type) : Type := (cc0_scratch0 : Ref sig .tc).ty.Contents (Elt F)

/-! ## The values -/

section Vals
variable (X : Dev nD → Blk F)

/-- The edge row a device sends across the x axis: its last row at mx = 0, its first at mx = 1. -/
def rowSent (c : Dev nD) : Line F := if mxW c = 0#32 then k0_pay2 (X c) else k0_pay3 (X c)
/-- The edge column a device sends across the y axis, as a row: its last column at my = 0, its first at my = 1. -/
def colSent (c : Dev nD) : Line F := if myW c = 0#32 then k0_pay4 (k0_pay1 (X c)) else k0_pay5 (k0_pay1 (X c))

/-- The stencil on the device's own block, zeros beyond the block, rim points of the whole grid kept. -/
def out0 (c : Dev nD) : Blk F :=
  k0_pay7 (mxW c) (myW c) (k0_pay1 (X c)) (k0_pay6 (k0_pay1 (X c))) (iota .tc S256x256 32 [0] iota_S256x256_d0_w32) 256#32

/-- After the row from across the x axis has been added to the facing edge row. -/
def out1 (c : Dev nD) : Blk F :=
  if mxW c = 0#32 then
    ((oM.access rRow255 : View sig .tc _ _ _).write (Elt F) (out0 X c)
      (k0_pay10 (k0_pay8 (myW c)) (rowSent X (xn c)) ((oM : Memref sig .tc .vmem S256x256 .f32).view.readAt (Elt F) rRow255.toLoadRect (out0 X c))) Finset.univ)
  else
    ((oM.access rRow0 : View sig .tc _ _ _).write (Elt F) (out0 X c)
      (k0_pay11 (k0_pay8 (myW c)) (rowSent X (xn c)) ((oM : Memref sig .tc .vmem S256x256 .f32).view.readAt (Elt F) rRow0.toLoadRect (out0 X c))) Finset.univ)

/-- After the column from across the y axis has been added to the facing edge column: the device's result. -/
def out2 (c : Dev nD) : Blk F :=
  if myW c = 0#32 then
    ((oM.access rCol255 : View sig .tc _ _ _).write (Elt F) (out1 X c)
      (k0_pay13 (k0_pay9 (mxW c)) (colSent X (yn c)) ((oM : Memref sig .tc .vmem S256x256 .f32).view.readAt (Elt F) rCol255.toLoadRect (out1 X c))) Finset.univ)
  else
    ((oM.access rCol0 : View sig .tc _ _ _).write (Elt F) (out1 X c)
      (k0_pay14 (k0_pay9 (mxW c)) (colSent X (yn c)) ((oM : Memref sig .tc .vmem S256x256 .f32).view.readAt (Elt F) rCol0.toLoadRect (out1 X c))) Finset.univ)

end Vals

end Cert.Kernel.Halo

end
-- ==== Proof.Bits.Proto.lean ====
/-
  The halo exchange's protocol on the 2 × 2 mesh, one round per semaphore.
  Each device has six cells: the barrier semaphore (paid one unit by the device across the x axis, who hands over its
  row landing buffer), the credit semaphore (paid one unit by the device across the y axis, who hands over its column
  landing buffer), the two send semaphores (paid by the device's own two copies, returning the two send buffers) and the
  two receive semaphores (paid by the neighbours' copies, landing the neighbour's edge row and edge column).
-/
import proofs.«900192_g7700000000000193_dist_halo2d_stencil_xy_m256_n256_v7x_xy2x2_bf16_1_alg».proof.Proof.Bits.Vals
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (every round has one duty) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The semaphores and cells -/

abbrev barS : Sem sig := (SemArray.scalar (sig.barrier 0 rfl) : Sems sig S_).sem
abbrev crS : Sem sig := (cc0_scratch6 : Sems sig S_).sem
abbrev sRowS : DmaSem sig := ((cc0_scratch4.slice (Rect.unit (s := S2) ![0] S1.size inb_S2_S1_0)).squeeze S_ squeezes_S1_S_ : DmaSems sig S_).sem
abbrev sColS : DmaSem sig := ((cc0_scratch4.slice (Rect.unit (s := S2) ![1] S1.size inb_S2_S1_1)).squeeze S_ squeezes_S1_S_ : DmaSems sig S_).sem
abbrev rRowS : DmaSem sig := ((cc0_scratch5.slice (Rect.unit (s := S2) ![0] S1.size inb_S2_S1_0)).squeeze S_ squeezes_S1_S_ : DmaSems sig S_).sem
abbrev rColS : DmaSem sig := ((cc0_scratch5.slice (Rect.unit (s := S2) ![1] S1.size inb_S2_S1_1)).squeeze S_ squeezes_S1_S_ : DmaSems sig S_).sem

abbrev barCell (c : Dev nD) : GSem nD τ sig := ((c : Thread nD τ), .reg barS)
abbrev crCell (c : Dev nD) : GSem nD τ sig := ((c : Thread nD τ), .reg crS)
abbrev sRowCell (c : Dev nD) : GSem nD τ sig := ((c : Thread nD τ), .dma sRowS)
abbrev sColCell (c : Dev nD) : GSem nD τ sig := ((c : Thread nD τ), .dma sColS)
abbrev rRowCell (c : Dev nD) : GSem nD τ sig := ((c : Thread nD τ), .dma rRowS)
abbrev rColCell (c : Dev nD) : GSem nD τ sig := ((c : Thread nD τ), .dma rColS)

/-- The kernel's own (scoped) semaphores, as the launch indexes them; -/
abbrev osem : Fin 5 → SemLoc sig := fun | 0 => .reg crS | 1 => .dma sRowS | 2 => .dma sColS | 3 => .dma rRowS | 4 => .dma rColS
/-- all six of the protocol's, the barrier first. -/
abbrev csem : Fin 6 → SemLoc sig := fun | 0 => .reg barS | 1 => .reg crS | 2 => .dma sRowS | 3 => .dma sColS | 4 => .dma rRowS | 5 => .dma rColS
abbrev kcell (ck : Dev nD × Fin 6) : GSem nD τ sig := ((ck.1 : Thread nD τ), csem ck.2)

abbrev N : ℕ := (rbM : Memref sig .tc .vmem S1x256 .f32).view.dmaCredit
theorem N_pos : 0 < N := View.dmaCredit_pos _ (by decide)

/-! ## Contents -/

/-- A device's input block as its staging buffer holds it. -/
def xstg (c : Dev nD) : Blk F :=
  (win0_0.blk (0 : Fin 1)).view.read (Elt F) ((s₀ m ρ).mem ((c : Thread nD τ).loc main_arg0))

/-! ## The points-to facts of the four scratch lines and of the input block -/

def rsPts (c : Dev nD) (f : Buf (Elt F) ((rsM : Memref sig .tc .vmem S1x256 .f32).view.loc (c : Thread nD τ))) : sProp 𝕄 :=
  (rsM : Memref sig .tc .vmem S1x256 .f32).view.loc (c : Thread nD τ) ↦[(rsM : Memref sig .tc .vmem S1x256 .f32).view.set]{fullShare} f
omit [FloatOps F] in
instance rsPts_storable (c : Dev nD) (f) : BI.Storable (upEmb : UEmb _ 𝕄) (rsPts (F := F) c f) := by unfold rsPts; infer_instance
omit [FloatOps F] in
theorem rsPts_eq (c : Dev nD) (f : Buf (Elt F) ((c : Thread nD τ).loc cc0_scratch0)) :
    rsPts c f = (((c : Thread nD τ).loc cc0_scratch0) ↦{fullShare} f : sProp 𝕄) := by unfold rsPts; rw [View.set_whole]

def csPts (c : Dev nD) (f : Buf (Elt F) ((csM : Memref sig .tc .vmem S1x256 .f32).view.loc (c : Thread nD τ))) : sProp 𝕄 :=
  (csM : Memref sig .tc .vmem S1x256 .f32).view.loc (c : Thread nD τ) ↦[(csM : Memref sig .tc .vmem S1x256 .f32).view.set]{fullShare} f
omit [FloatOps F] in
instance csPts_storable (c : Dev nD) (f) : BI.Storable (upEmb : UEmb _ 𝕄) (csPts (F := F) c f) := by unfold csPts; infer_instance
omit [FloatOps F] in
theorem csPts_eq (c : Dev nD) (f : Buf (Elt F) ((c : Thread nD τ).loc cc0_scratch1)) :
    csPts c f = (((c : Thread nD τ).loc cc0_scratch1) ↦{fullShare} f : sProp 𝕄) := by unfold csPts; rw [View.set_whole]

def rbPts (c : Dev nD) (f : Buf (Elt F) ((rbM : Memref sig .tc .vmem S1x256 .f32).view.loc (c : Thread nD τ))) : sProp 𝕄 :=
  (rbM : Memref sig .tc .vmem S1x256 .f32).view.loc (c : Thread nD τ) ↦[(rbM : Memref sig .tc .vmem S1x256 .f32).view.set]{fullShare} f
omit [FloatOps F] in
instance rbPts_storable (c : Dev nD) (f) : BI.Storable (upEmb : UEmb _ 𝕄) (rbPts (F := F) c f) := by unfold rbPts; infer_instance
omit [FloatOps F] in
theorem rbPts_eq (c : Dev nD) (f : Buf (Elt F) ((c : Thread nD τ).loc cc0_scratch2)) :
    rbPts c f = (((c : Thread nD τ).loc cc0_scratch2) ↦{fullShare} f : sProp 𝕄) := by unfold rbPts; rw [View.set_whole]

def cbPts (c : Dev nD) (f : Buf (Elt F) ((cbM : Memref sig .tc .vmem S1x256 .f32).view.loc (c : Thread nD τ))) : sProp 𝕄 :=
  (cbM : Memref sig .tc .vmem S1x256 .f32).view.loc (c : Thread nD τ) ↦[(cbM : Memref sig .tc .vmem S1x256 .f32).view.set]{fullShare} f
omit [FloatOps F] in
instance cbPts_storable (c : Dev nD) (f) : BI.Storable (upEmb : UEmb _ 𝕄) (cbPts (F := F) c f) := by unfold cbPts; infer_instance
omit [FloatOps F] in
theorem cbPts_eq (c : Dev nD) (f : Buf (Elt F) ((c : Thread nD τ).loc cc0_scratch3)) :
    cbPts c f = (((c : Thread nD τ).loc cc0_scratch3) ↦{fullShare} f : sProp 𝕄) := by unfold cbPts; rw [View.set_whole]

def xPts (c : Dev nD) : sProp 𝕄 :=
  (xM : Memref sig .tc .vmem S256x256 .f32).view.loc (c : Thread nD τ) ↦[(xM : Memref sig .tc .vmem S256x256 .f32).view.set]{fullShare} xstg m ρ c
omit [FloatOps F] in
theorem xPts_eq (c : Dev nD) : xPts m ρ c = (((c : Thread nD τ).loc cc0_stg0_0) ↦{fullShare} xstg m ρ c : sProp 𝕄) := by
  unfold xPts; rw [View.set_whole]

/-- A whole line written over a whole line is the line written. -/
theorem line_landed (c : Dev nD) (fd : Buf (Elt F) ((rbM : Memref sig .tc .vmem S1x256 .f32).view.loc (c : Thread nD τ))) (fs : Line F) :
    (rbM : Memref sig .tc .vmem S1x256 .f32).view.write (Elt F) fd ((rsM : Memref sig .tc .vmem S1x256 .f32).view.read (Elt F) fs) Finset.univ = fs := by
  show (View.whole cc0_scratch2).write (Elt F) fd ((View.whole cc0_scratch0).read (Elt F) fs) Finset.univ = fs
  rw [View.read_whole]
  exact View.write_whole_univ _ _ _
theorem col_landed (c : Dev nD) (fd : Buf (Elt F) ((cbM : Memref sig .tc .vmem S1x256 .f32).view.loc (c : Thread nD τ))) (fs : Line F) :
    (cbM : Memref sig .tc .vmem S1x256 .f32).view.write (Elt F) fd ((csM : Memref sig .tc .vmem S1x256 .f32).view.read (Elt F) fs) Finset.univ = fs := by
  show (View.whole cc0_scratch3).write (Elt F) fd ((View.whole cc0_scratch1).read (Elt F) fs) Finset.univ = fs
  rw [View.read_whole]
  exact View.write_whole_univ _ _ _

/-! ## The schedule -/

/-- What the x-neighbour's signal hands device `c`: the neighbour's row landing buffer, and that the neighbour's row
    receive cell is at round 0 (what the copy into it needs). Likewise across the y axis with the column buffer. -/
def barPay (c : Dev nD) : sProp 𝕄 := iprop((∃ f, rbPts (xn c) f) ∗ reached ER (rRowCell (xn c)) 0)
def crPay (c : Dev nD) : sProp 𝕄 := iprop((∃ f, cbPts (yn c) f) ∗ reached ER (rColCell (yn c)) 0)
/-- A send cell returns the send buffer at what was sent; a receive cell lands the neighbour's line. -/
def sRowPay (c : Dev nD) : sProp 𝕄 := rsPts c (rowSent (xstg m ρ) c)
def sColPay (c : Dev nD) : sProp 𝕄 := csPts c (colSent (xstg m ρ) c)
def rRowPay (c : Dev nD) : sProp 𝕄 := rbPts c (rowSent (xstg m ρ) (xn c))
def rColPay (c : Dev nD) : sProp 𝕄 := cbPts c (colSent (xstg m ρ) (yn c))

abbrev IsSig (s : SemLoc sig) : Prop := s = .reg barS ∨ s = .reg crS
abbrev IsXfer (s : SemLoc sig) : Prop := s = .dma sRowS ∨ s = .dma sColS ∨ s = .dma rRowS ∨ s = .dma rColS

/-- One round, round 0, one duty a cell: a unit on the two signalled cells, the line's credit on the four copy cells. -/
def sched : Rounds.Schedule (GSem nD τ sig) Unit 𝕄 where
  duties g r := if r = 0 ∧ g.1.2 = .tc ∧ (IsSig g.2 ∨ IsXfer g.2) then {()} else ∅
  unitless _ := False
  amount g _ _ := if IsSig g.2 then 1 else N
  payload g _ _ :=
    if g.2 = .reg barS then barPay g.1.1
    else if g.2 = .reg crS then crPay g.1.1
    else if g.2 = .dma sRowS then sRowPay m ρ g.1.1
    else if g.2 = .dma sColS then sColPay m ρ g.1.1
    else if g.2 = .dma rRowS then rRowPay m ρ g.1.1
    else if g.2 = .dma rColS then rColPay m ρ g.1.1
    else iprop(emp)
  amount_pos g _ _ _ := by
    by_cases h : IsSig g.2
    · rw [if_pos h]; exact Nat.one_pos
    · rw [if_neg h]; exact N_pos

instance sched_payload_storable (g : GSem nD τ sig) (r : ℕ) (d : Unit) :
    BI.Storable (upEmb : UEmb _ 𝕄) ((sched (F := F) m ρ).payload g r d) := by
  show BI.Storable upEmb (if g.2 = .reg barS then barPay g.1.1
    else if g.2 = .reg crS then crPay g.1.1
    else if g.2 = .dma sRowS then sRowPay m ρ g.1.1
    else if g.2 = .dma sColS then sColPay m ρ g.1.1
    else if g.2 = .dma rRowS then rRowPay m ρ g.1.1
    else if g.2 = .dma rColS then rColPay m ρ g.1.1
    else iprop(emp))
  unfold barPay crPay sRowPay sColPay rRowPay rColPay
  (repeat' split) <;> infer_instance

section Sched
variable (c : Dev nD)

omit [FloatOps F] in
theorem duties_cell (k : Fin 6) : (sched (F := F) m ρ).duties (kcell (c, k)) 0 = {()} := by
  dsimp only [sched]; refine if_pos ⟨rfl, rfl, ?_⟩; revert k; decide
omit [FloatOps F] in
theorem duties_later (g : GSem nD τ sig) : ∀ r, 1 ≤ r → (sched (F := F) m ρ).duties g r = ∅ :=
  fun r hr => by dsimp only [sched]; rw [if_neg fun h => by omega]
omit [FloatOps F] in
theorem mem_duties (k : Fin 6) : () ∈ (sched (F := F) m ρ).duties (kcell (c, k)) 0 := by
  rw [duties_cell]; exact Finset.mem_singleton_self _

omit [FloatOps F] in
theorem amount_sig (k : Fin 6) (hk : k.val < 2) (d : Unit) : (sched (F := F) m ρ).amount (kcell (c, k)) 0 d = 1 := by
  dsimp only [sched]; refine if_pos ?_; revert k; decide
omit [FloatOps F] in
theorem amount_xfer (k : Fin 6) (hk : 2 ≤ k.val) (d : Unit) : (sched (F := F) m ρ).amount (kcell (c, k)) 0 d = N := by
  dsimp only [sched]; refine if_neg ?_; revert k; decide

omit [FloatOps F] in
theorem expect_sig (k : Fin 6) (hk : k.val < 2) : (sched (F := F) m ρ).expect (kcell (c, k)) 0 = 1 := by
  unfold Schedule.expect Schedule.amountOf; rw [duties_cell, Finset.sum_singleton, amount_sig m ρ c k hk]
omit [FloatOps F] in
theorem expect_xfer (k : Fin 6) (hk : 2 ≤ k.val) : (sched (F := F) m ρ).expect (kcell (c, k)) 0 = N := by
  unfold Schedule.expect Schedule.amountOf; rw [duties_cell, Finset.sum_singleton, amount_xfer m ρ c k hk]

omit [FloatOps F] in
theorem payload_bar (d : Unit) : (sched (F := F) m ρ).payload (barCell c) 0 d = barPay c := by dsimp only [sched]; rw [if_pos rfl]
omit [FloatOps F] in
theorem payload_cr (d : Unit) : (sched (F := F) m ρ).payload (crCell c) 0 d = crPay c := by
  dsimp only [sched]; rw [if_neg (by decide), if_pos rfl]
omit [FloatOps F] in
theorem payload_sRow (d : Unit) : (sched (F := F) m ρ).payload (sRowCell c) 0 d = sRowPay m ρ c := by
  dsimp only [sched]; rw [if_neg (by decide), if_neg (by decide), if_pos rfl]
omit [FloatOps F] in
theorem payload_sCol (d : Unit) : (sched (F := F) m ρ).payload (sColCell c) 0 d = sColPay m ρ c := by
  dsimp only [sched]; rw [if_neg (by decide), if_neg (by decide), if_neg (by decide), if_pos rfl]
omit [FloatOps F] in
theorem payload_rRow (d : Unit) : (sched (F := F) m ρ).payload (rRowCell c) 0 d = rRowPay m ρ c := by
  dsimp only [sched]; rw [if_neg (by decide), if_neg (by decide), if_neg (by decide), if_neg (by decide), if_pos rfl]
omit [FloatOps F] in
theorem payload_rCol (d : Unit) : (sched (F := F) m ρ).payload (rColCell c) 0 d = rColPay m ρ c := by
  dsimp only [sched]; rw [if_neg (by decide), if_neg (by decide), if_neg (by decide), if_neg (by decide), if_neg (by decide), if_pos rfl]

omit [FloatOps F] in
/-- The rest of a cell's one-duty round, no duty taken, is the duty's payload. -/
theorem rest_cell (k : Fin 6) :
    bigSep ((sched (F := F) m ρ).duties (kcell (c, k)) 0 \ ∅) (fun d => (sched (F := F) m ρ).payload (kcell (c, k)) 0 d)
      = (sched (F := F) m ρ).payload (kcell (c, k)) 0 () := by
  rw [Finset.sdiff_empty, duties_cell, bigSep_singleton]

end Sched

/-! ## What each device owes at launch; the levels -/

/-- Device `c` owes the x-neighbour's barrier cell and the y-neighbour's credit cell a unit each, and their row and
    column receive cells the line's credit — summed so that each payment peels the last summand. -/
def O₂ (c : Dev nD) : CellTallies nD τ sig Unit := tallyAt (rColCell (yn c)) () N + tallyAt (rRowCell (xn c)) () N
def O₁ (c : Dev nD) : CellTallies nD τ sig Unit := O₂ c + tallyAt (crCell (yn c)) () 1
def O₀ (c : Dev nD) : CellTallies nD τ sig Unit := O₁ c + tallyAt (barCell (xn c)) () 1

def L (g : GSem nD τ sig) : Finset Unit := if g.1.2 = .tc then {()} else ∅
/-- The two signalled cells at 1, the two receive cells at 2, everything else (staging, send) at 0. -/
def lv (g : GSem nD τ sig) (_ : Unit) : ℕ := if IsSig g.2 then 1 else if g.2 = .dma rRowS ∨ g.2 = .dma rColS then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = rColCell (yn c) ∨ g = rRowCell (xn c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rColCell (yn c) ∨ g = rRowCell (xn c) ∨ g = crCell (yn c) ∨ g = barCell (xn c) := by
  unfold O₀ O₁ O₂ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

theorem lv_sig (c : Dev nD) (k : Fin 6) (hk : k.val < 2) (u : Unit) : lv (kcell (c, k)) u = 1 := by
  dsimp only [lv]; refine if_pos ?_; revert k; decide
theorem lv_rRow (c : Dev nD) (u : Unit) : lv (rRowCell c) u = 2 := by
  dsimp only [lv]; rw [if_neg (by decide), if_pos (Or.inl rfl)]
theorem lv_rCol (c : Dev nD) (u : Unit) : lv (rColCell c) u = 2 := by
  dsimp only [lv]; rw [if_neg (by decide), if_pos (Or.inr rfl)]

omit [FloatOps F] in
/-- A wait on a staging or send semaphore (level 0), owing all of the launch debt or nothing. -/
theorem mayWait_stage (c : Dev nD) (q : DmaSem sig) (hq : SemLoc.dma q ≠ .dma rRowS ∧ SemLoc.dma q ≠ .dma rColS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by
        rw [Finset.mem_singleton.mp hp]; dsimp only [lv]
        rw [if_neg (fun h => by rcases h with h | h <;> cases h), if_neg (fun h => by rcases h with h | h; exact hq.1 h; exact hq.2 h)])
      (fun g u hg => by
        rcases O₀_pos hg with rfl | rfl | rfl | rfl
        · rw [lv_rCol]; decide
        · rw [lv_rRow]; decide
        · rw [lv_sig (yn c) 1 (by decide)]; decide
        · rw [lv_sig (xn c) 0 (by decide)]; decide)
  · rw [MayWait_zero]; iintro -; iempintro

omit [FloatOps F] in
/-- At its barrier wait a device owes the two receive credits only: both above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; exact le_of_eq (lv_sig c 0 (by decide) ()))
    (fun g u hg => by
      rcases O₂_pos hg with rfl | rfl
      · rw [lv_rCol]; decide
      · rw [lv_rRow]; decide)

omit [FloatOps F] in
/-- At its credit wait a device owes the column receive credit only. -/
theorem mayWait_cr (c : Dev nD) :
    (levAts L lv : sProp 𝕄) ⊢ MayWait (c : Thread nD τ) (.reg crS) () (tallyAt (rColCell (yn c)) () N) :=
  MayOwe.of_cut (L := L) (lev := lv) 1 (fun p hp => by rw [Finset.mem_singleton.mp hp, L_tc]; exact Finset.mem_singleton_self _)
    (fun g u hg => by
      rw [tallyAt_apply] at hg
      by_cases h : g = rColCell (yn c) ∧ u = ()
      · rw [h.1, L_tc]; exact Finset.mem_singleton_self _
      · rw [if_neg h] at hg; exact absurd hg (Nat.lt_irrefl 0))
    (fun p hp => by rw [Finset.mem_singleton.mp hp]; exact le_of_eq (lv_sig c 1 (by decide) ()))
    (fun g u hg => by
      rw [tallyAt_apply] at hg
      by_cases h : g = rColCell (yn c) ∧ u = ()
      · rw [h.1, lv_rCol]; decide
      · rw [if_neg h] at hg; exact absurd hg (Nat.lt_irrefl 0))

end Cert.Kernel.Halo

end
-- ==== Proof.Bits.Data.lean ====
/-
  The proof data of the one-point pipeline on each device: what the staging buffers hold before and after the body,
  the ghost state a device starts from, and what it owes.
-/
import proofs.«900192_g7700000000000193_dist_halo2d_stencil_xy_m256_n256_v7x_xy2x2_bf16_1_alg».proof.Proof.Bits.Proto

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The device's result: the stencil of its block with both halo lines added. -/
def outAt (c : Dev nD) : Blk F := out2 (xstg m ρ) c

/-- The cells' invariants device `c`'s body opens, at the names `K` the launch allocated them: its own six, the
    x-neighbour's barrier and row receive cells, the y-neighbour's credit and column receive cells. -/
def invs (K : Dev nD × Fin 6 → ℕ) (c : Dev nD) : sProp 𝕄 :=
  iprop(cellInv ER (sched m ρ) (K (c, 0)) (barCell c) ∗ cellInv ER (sched m ρ) (K (c, 1)) (crCell c)
    ∗ cellInv ER (sched m ρ) (K (c, 2)) (sRowCell c) ∗ cellInv ER (sched m ρ) (K (c, 3)) (sColCell c)
    ∗ cellInv ER (sched m ρ) (K (c, 4)) (rRowCell c) ∗ cellInv ER (sched m ρ) (K (c, 5)) (rColCell c)
    ∗ cellInv ER (sched m ρ) (K (xn c, 0)) (barCell (xn c)) ∗ cellInv ER (sched m ρ) (K (xn c, 4)) (rRowCell (xn c))
    ∗ cellInv ER (sched m ρ) (K (yn c, 1)) (crCell (yn c)) ∗ cellInv ER (sched m ρ) (K (yn c, 5)) (rColCell (yn c)))

instance invs_persistent (K : Dev nD × Fin 6 → ℕ) (c : Dev nD) : BI.Persistent (invs m ρ K c) := by unfold invs; infer_instance

/-- The positions of the device's own six cells at the start of round 0. -/
def poss (c : Dev nD) : sProp 𝕄 :=
  iprop(atPos ER (barCell c) 0 ∅ 0 ∗ atPos ER (crCell c) 0 ∅ 0 ∗ atPos ER (sRowCell c) 0 ∅ 0 ∗ atPos ER (sColCell c) 0 ∅ 0
    ∗ atPos ER (rRowCell c) 0 ∅ 0 ∗ atPos ER (rColCell c) 0 ∅ 0)
/-- Round 0 reached on the cells it pays and on its own copy cells. -/
def reacheds (c : Dev nD) : sProp 𝕄 :=
  iprop(reached ER (barCell (xn c)) 0 ∗ reached ER (crCell (yn c)) 0 ∗ reached ER (rRowCell (xn c)) 0 ∗ reached ER (rColCell (yn c)) 0
    ∗ reached ER (sRowCell c) 0 ∗ reached ER (sColCell c) 0 ∗ reached ER (rRowCell c) 0 ∗ reached ER (rColCell c) 0)
/-- The tokens of the six duties the device pays. -/
def payToks (c : Dev nD) : sProp 𝕄 :=
  iprop(dutyTok ER (barCell (xn c)) 0 () ∗ dutyTok ER (crCell (yn c)) 0 () ∗ dutyTok ER (rRowCell (xn c)) 0 () ∗ dutyTok ER (rColCell (yn c)) 0 ()
    ∗ dutyTok ER (sRowCell c) 0 () ∗ dutyTok ER (sColCell c) 0 ())

/-- The protocol's ghost state device `c` starts from. -/
def ghost (K : Dev nD × Fin 6 → ℕ) (c : Dev nD) : sProp 𝕄 :=
  iprop(invs m ρ K c ∗ poss c ∗ reacheds c ∗ payToks c)

/-- The credit dealt at launch on the four cells others pay. -/
def creds (c : Dev nD) : sProp 𝕄 :=
  iprop(cred (tallyAt (barCell c) () 1) ∗ cred (tallyAt (crCell c) () 1) ∗ cred (tallyAt (rRowCell c) () N) ∗ cred (tallyAt (rColCell c) () N))

/-- What device `c`'s body starts from besides its buffers. -/
def start (c : Dev nD) : sProp 𝕄 :=
  iprop((∃ K, ghost m ρ K c) ∗ creds c ∗ levAts L lv)

/-- The four scratch lines at some contents. -/
def scratch (c : Dev nD) : sProp 𝕄 :=
  iprop((∃ f, rsPts c f) ∗ (∃ f, csPts c f) ∗ (∃ f, rbPts c f) ∗ (∃ f, cbPts c f))

/-- The five own cells closed, their counters at zero. -/
def closed (c : Dev nD) : sProp 𝕄 :=
  iprop(semVal (crCell c) 0 ∗ semVal (sRowCell c) 0 ∗ semVal (sColCell c) 0 ∗ semVal (rRowCell c) 0 ∗ semVal (rColCell c) 0)

def Φ₀ (c : Dev nD) : sProp 𝕄 := iprop(start m ρ c ∗ scratch c)
def Φ₁ (c : Dev nD) : sProp 𝕄 := iprop(scratch c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the ghost state's names fixed. -/
def bodyPre (K : Dev nD × Fin 6 → ℕ) (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body ends with. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.Halo

end
-- ==== Proof.Bits.Body.lean ====
/-
  One device's body, stepped once at a symbolic device: the two signals, the edge row and column staged and sent
  after the handshakes, the stencil stored, the two halo lines added as they land, the send buffers taken back.
-/
import proofs.«900192_g7700000000000193_dist_halo2d_stencil_xy_m256_n256_v7x_xy2x2_bf16_1_alg».proof.Proof.Bits.Data

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 6 → ℕ)

omit [FloatOps F] in
theorem hz : (![0, 0] : Fin 2 → Nat) = fun _ => 0 := funext fun a => by fin_cases a <;> rfl

theorem cnd00 : (Scalar.cmpi CmpIPredicate.ne (Scalar.extui (Scalar.cmpi CmpIPredicate.eq (0#32 : BitVec 32) 0#32) : BitVec 32) 0#32 = 1#1) = True := eq_true (by decide)
theorem cnd01 : (Scalar.cmpi CmpIPredicate.ne (Scalar.extui (Scalar.cmpi CmpIPredicate.eq (0#32 : BitVec 32) 1#32) : BitVec 32) 0#32 = 1#1) = False := eq_false (by decide)
theorem cnd10 : (Scalar.cmpi CmpIPredicate.ne (Scalar.extui (Scalar.cmpi CmpIPredicate.eq (1#32 : BitVec 32) 0#32) : BitVec 32) 0#32 = 1#1) = False := eq_false (by decide)
theorem cnd11 : (Scalar.cmpi CmpIPredicate.ne (Scalar.extui (Scalar.cmpi CmpIPredicate.eq (1#32 : BitVec 32) 1#32) : BitVec 32) 0#32 = 1#1) = True := eq_true (by decide)

omit [FloatOps F] in
theorem read_x (f : Blk F) : (xM : Memref sig .tc .vmem S256x256 .f32).view.readAt (Elt F) rAll.toLoadRect f = f :=
  Memref.readAt_unit_zero (Elt F) cc0_stg0_0 hz _ f
omit [FloatOps F] in
theorem read_rb (f : Line F) : (rbM : Memref sig .tc .vmem S1x256 .f32).view.readAt (Elt F) rLine.toLoadRect f = f :=
  Memref.readAt_unit_zero (Elt F) cc0_scratch2 hz _ f
omit [FloatOps F] in
theorem read_cb (f : Line F) : (cbM : Memref sig .tc .vmem S1x256 .f32).view.readAt (Elt F) rLine.toLoadRect f = f :=
  Memref.readAt_unit_zero (Elt F) cc0_scratch3 hz _ f
omit [FloatOps F] in
theorem write_rs (f w : Line F) :
    ((rsM : Memref sig .tc .vmem S1x256 .f32).access rLine : View sig .tc _ _ _).write (Elt F) f w Finset.univ = w :=
  Memref.write_access_unit_zero_univ (Elt F) cc0_scratch0 hz _ f w
omit [FloatOps F] in
theorem write_cs (f w : Line F) :
    ((csM : Memref sig .tc .vmem S1x256 .f32).access rLine : View sig .tc _ _ _).write (Elt F) f w Finset.univ = w :=
  Memref.write_access_unit_zero_univ (Elt F) cc0_scratch1 hz _ f w
omit [FloatOps F] in
theorem write_out (f w : Blk F) :
    ((oM : Memref sig .tc .vmem S256x256 .f32).access rAll : View sig .tc _ _ _).write (Elt F) f w Finset.univ = w :=
  Memref.write_access_unit_zero_univ (Elt F) cc0_stg1_0 hz _ f w

/-- The row copy at the protocol's cells, addressed to `n = xn c`. -/
theorem wp_send_row (c n : Dev nD) (hn : n = xn c) {hsc : (rbM : Memref sig (Dev.tc n : Thread nD τ).2.kind .vmem S1x256 .f32).view.ref.isScScratch = false}
    {hsrc : (rsM : Memref sig .tc .vmem S1x256 .f32).view.WordExact} {hdst : (rbM : Memref sig .tc .vmem S1x256 .f32).view.WordExact}
    {hsem : DmaTarget.Typed .vmem (.dma rRowS) (.remote (Dev.tc n : Thread nD τ) (rbM : Memref sig .tc .vmem S1x256 .f32) (.dma sRowS) hsc)}
    {α : Type} {Q : α → sProp 𝕄} {k : PUnit → Prog (TpuEff nD τ sig (Elt F) Λ₀ .tc) α}
    (fn : Buf (Elt F) ((rbM : Memref sig .tc .vmem S1x256 .f32).view.loc (xn c : Thread nD τ))) (W : Waits sig Unit) (O : CellTallies nD τ sig Unit) :
    iprop(cellInv ER (sched m ρ) (K (c, 2)) (sRowCell c) ∗ cellInv ER (sched m ρ) (K (xn c, 4)) (rRowCell (xn c))
        ∗ rsPts c (rowSent (xstg m ρ) c) ∗ rbPts (xn c) fn
        ∗ owes (c : Thread nD τ) (O + tallyAt (rRowCell (xn c)) () N) W
        ∗ dutyTok ER (sRowCell c) 0 () ∗ reached ER (sRowCell c) 0
        ∗ dutyTok ER (rRowCell (xn c)) 0 () ∗ reached ER (rRowCell (xn c)) 0)
      ⊢ iprop(((cred (tallyAt (sRowCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rsM (.remote (Dev.tc n : Thread nD τ) rbM (.dma sRowS) hsc) (.dma rRowS) hsrc hdst hsem) k) Q) := by
  subst hn
  unfold rsPts rbPts
  exact Rounds.wp_send_pointsTo 𝒱₀ ER (sched m ρ) (c : Thread nD τ) none (κ₁ := K (c, 2)) (κ₂ := K (xn c, 4))
    (r₁ := 0) (r₂ := 0) (d₁ := ()) (d₂ := ()) (fd := fn)
    (mem_duties m ρ c 2) (mem_duties m ρ (xn c) 4)
    () () N rfl (amount_xfer m ρ c 2 (by decide) ()) (amount_xfer m ρ (xn c) 4 (by decide) ()) O rfl (W := W)
    (by rw [payload_sRow]; unfold sRowPay rsPts; exact BI.Entails.refl _)
    (by rw [payload_rRow]; unfold rRowPay rbPts; rw [line_landed, xn_xn])

/-- The column copy at the protocol's cells, addressed to `n = yn c`. -/
theorem wp_send_col (c n : Dev nD) (hn : n = yn c) {hsc : (cbM : Memref sig (Dev.tc n : Thread nD τ).2.kind .vmem S1x256 .f32).view.ref.isScScratch = false}
    {hsrc : (csM : Memref sig .tc .vmem S1x256 .f32).view.WordExact} {hdst : (cbM : Memref sig .tc .vmem S1x256 .f32).view.WordExact}
    {hsem : DmaTarget.Typed .vmem (.dma rColS) (.remote (Dev.tc n : Thread nD τ) (cbM : Memref sig .tc .vmem S1x256 .f32) (.dma sColS) hsc)}
    {α : Type} {Q : α → sProp 𝕄} {k : PUnit → Prog (TpuEff nD τ sig (Elt F) Λ₀ .tc) α}
    (fn : Buf (Elt F) ((cbM : Memref sig .tc .vmem S1x256 .f32).view.loc (yn c : Thread nD τ))) (W : Waits sig Unit) :
    iprop(cellInv ER (sched m ρ) (K (c, 3)) (sColCell c) ∗ cellInv ER (sched m ρ) (K (yn c, 5)) (rColCell (yn c))
        ∗ csPts c (colSent (xstg m ρ) c) ∗ cbPts (yn c) fn
        ∗ owes (c : Thread nD τ) (tallyAt (rColCell (yn c)) () N) W
        ∗ dutyTok ER (sColCell c) 0 () ∗ reached ER (sColCell c) 0
        ∗ dutyTok ER (rColCell (yn c)) 0 () ∗ reached ER (rColCell (yn c)) 0)
      ⊢ iprop(((cred (tallyAt (sColCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma csM (.remote (Dev.tc n : Thread nD τ) cbM (.dma sColS) hsc) (.dma rColS) hsrc hdst hsem) k) Q) := by
  subst hn
  unfold csPts cbPts
  exact Rounds.wp_send_pointsTo 𝒱₀ ER (sched m ρ) (c : Thread nD τ) none (κ₁ := K (c, 3)) (κ₂ := K (yn c, 5))
    (r₁ := 0) (r₂ := 0) (d₁ := ()) (d₂ := ()) (fd := fn)
    (mem_duties m ρ c 3) (mem_duties m ρ (yn c) 5)
    () () N rfl (amount_xfer m ρ c 3 (by decide) ()) (amount_xfer m ρ (yn c) 5 (by decide) ()) 0 (zero_add _).symm (W := W)
    (by rw [payload_sCol]; unfold sColPay csPts; exact BI.Entails.refl _)
    (by rw [payload_rCol]; unfold rColPay cbPts; rw [col_landed, yn_yn])

/-! The stored values, folded back into the values' definitions at the words of the device's position. -/
section Fold
variable (X : Dev nD → Blk F) (c : Dev nD)
theorem out0_lit (a b : BitVec 32) (ha : mxW c = a) (hb : myW c = b) :
    k0_pay7 a b (k0_pay1 (X c)) (k0_pay6 (k0_pay1 (X c))) (iota .tc S256x256 32 [0] iota_S256x256_d0_w32) 256#32 = out0 X c := by
  subst ha hb; rfl
theorem out1_fold0 (ha : mxW c = 0#32) (b : BitVec 32) (hb : myW c = b) :
    ((oM.access rRow255 : View sig .tc _ _ _).write (Elt F) (out0 X c)
      (k0_pay10 (k0_pay8 b) (rowSent X (xn c)) ((oM : Memref sig .tc .vmem S256x256 .f32).view.readAt (Elt F) rRow255.toLoadRect (out0 X c))) Finset.univ) = out1 X c := by
  subst hb; unfold out1; rw [if_pos ha]
theorem out1_fold1 (ha : mxW c = 1#32) (b : BitVec 32) (hb : myW c = b) :
    ((oM.access rRow0 : View sig .tc _ _ _).write (Elt F) (out0 X c)
      (k0_pay11 (k0_pay8 b) (rowSent X (xn c)) ((oM : Memref sig .tc .vmem S256x256 .f32).view.readAt (Elt F) rRow0.toLoadRect (out0 X c))) Finset.univ) = out1 X c := by
  subst hb; unfold out1; rw [if_neg (by rw [ha]; decide)]
theorem out2_fold0 (a : BitVec 32) (ha : mxW c = a) (hb : myW c = 0#32) :
    ((oM.access rCol255 : View sig .tc _ _ _).write (Elt F) (out1 X c)
      (k0_pay13 (k0_pay9 a) (colSent X (yn c)) ((oM : Memref sig .tc .vmem S256x256 .f32).view.readAt (Elt F) rCol255.toLoadRect (out1 X c))) Finset.univ) = out2 X c := by
  subst ha; unfold out2; rw [if_pos hb]
theorem out2_fold1 (a : BitVec 32) (ha : mxW c = a) (hb : myW c = 1#32) :
    ((oM.access rCol0 : View sig .tc _ _ _).write (Elt F) (out1 X c)
      (k0_pay14 (k0_pay9 a) (colSent X (yn c)) ((oM : Memref sig .tc .vmem S256x256 .f32).view.readAt (Elt F) rCol0.toLoadRect (out1 X c))) Finset.univ) = out2 X c := by
  subst ha; unfold out2; rw [if_neg (by rw [hb]; decide)]
end Fold

open Idealize.ShloMosaic.Tactic

/-! A buffer held whole, stated through its memref's view: the same assertion. -/
section ToView
variable (c : Dev nD)
omit [FloatOps F] in theorem toView_x (f : Buf (Elt F) ((c : Thread nD τ).loc cc0_stg0_0)) :
    ((((c : Thread nD τ).loc cc0_stg0_0) ↦{fullShare} f : sProp 𝕄)) = ((View.loc (c : Thread nD τ) (Memref.whole cc0_stg0_0 : Memref sig .tc .vmem S256x256 .f32).view) ↦{fullShare} f) := rfl
omit [FloatOps F] in theorem toView_o (f : Buf (Elt F) ((c : Thread nD τ).loc cc0_stg1_0)) :
    ((((c : Thread nD τ).loc cc0_stg1_0) ↦{fullShare} f : sProp 𝕄)) = ((View.loc (c : Thread nD τ) (Memref.whole cc0_stg1_0 : Memref sig .tc .vmem S256x256 .f32).view) ↦{fullShare} f) := rfl
omit [FloatOps F] in theorem toView_rs (f : Buf (Elt F) ((c : Thread nD τ).loc cc0_scratch0)) :
    ((((c : Thread nD τ).loc cc0_scratch0) ↦{fullShare} f : sProp 𝕄)) = ((View.loc (c : Thread nD τ) (Memref.whole cc0_scratch0 : Memref sig .tc .vmem S1x256 .f32).view) ↦{fullShare} f) := rfl
omit [FloatOps F] in theorem toView_cs (f : Buf (Elt F) ((c : Thread nD τ).loc cc0_scratch1)) :
    ((((c : Thread nD τ).loc cc0_scratch1) ↦{fullShare} f : sProp 𝕄)) = ((View.loc (c : Thread nD τ) (Memref.whole cc0_scratch1 : Memref sig .tc .vmem S1x256 .f32).view) ↦{fullShare} f) := rfl
omit [FloatOps F] in theorem toView_rb (f : Buf (Elt F) ((c : Thread nD τ).loc cc0_scratch2)) :
    ((((c : Thread nD τ).loc cc0_scratch2) ↦{fullShare} f : sProp 𝕄)) = ((View.loc (c : Thread nD τ) (Memref.whole cc0_scratch2 : Memref sig .tc .vmem S1x256 .f32).view) ↦{fullShare} f) := rfl
omit [FloatOps F] in theorem toView_cb (f : Buf (Elt F) ((c : Thread nD τ).loc cc0_scratch3)) :
    ((((c : Thread nD τ).loc cc0_scratch3) ↦{fullShare} f : sProp 𝕄)) = ((View.loc (c : Thread nD τ) (Memref.whole cc0_scratch3 : Memref sig .tc .vmem S1x256 .f32).view) ↦{fullShare} f) := rfl
end ToView

/-! The schedule read cell by cell: each cell's one duty of round 0, its amount, the units round 0 expects, and what the
    duty hands over, spelt as the buffer it is. At a neighbour's cell the hand-over names this device's own buffers
    (the neighbour's neighbour is the device itself). -/
section Tables
variable (c : Dev nD)
omit [FloatOps F] in theorem dutiesX_bar : (sched (F := F) m ρ).duties (barCell c) 0 = {()} := duties_cell m ρ c 0
omit [FloatOps F] in theorem dutiesX_cr : (sched (F := F) m ρ).duties (crCell c) 0 = {()} := duties_cell m ρ c 1
omit [FloatOps F] in theorem dutiesX_sRow : (sched (F := F) m ρ).duties (sRowCell c) 0 = {()} := duties_cell m ρ c 2
omit [FloatOps F] in theorem dutiesX_sCol : (sched (F := F) m ρ).duties (sColCell c) 0 = {()} := duties_cell m ρ c 3
omit [FloatOps F] in theorem dutiesX_rRow : (sched (F := F) m ρ).duties (rRowCell c) 0 = {()} := duties_cell m ρ c 4
omit [FloatOps F] in theorem dutiesX_rCol : (sched (F := F) m ρ).duties (rColCell c) 0 = {()} := duties_cell m ρ c 5
omit [FloatOps F] in theorem amountX_bar (d : Unit) : (sched (F := F) m ρ).amount (barCell c) 0 d = 1 := amount_sig m ρ c 0 (by decide) d
omit [FloatOps F] in theorem amountX_cr (d : Unit) : (sched (F := F) m ρ).amount (crCell c) 0 d = 1 := amount_sig m ρ c 1 (by decide) d
omit [FloatOps F] in theorem amountX_sRow (d : Unit) : (sched (F := F) m ρ).amount (sRowCell c) 0 d = N := amount_xfer m ρ c 2 (by decide) d
omit [FloatOps F] in theorem amountX_sCol (d : Unit) : (sched (F := F) m ρ).amount (sColCell c) 0 d = N := amount_xfer m ρ c 3 (by decide) d
omit [FloatOps F] in theorem amountX_rRow (d : Unit) : (sched (F := F) m ρ).amount (rRowCell c) 0 d = N := amount_xfer m ρ c 4 (by decide) d
omit [FloatOps F] in theorem amountX_rCol (d : Unit) : (sched (F := F) m ρ).amount (rColCell c) 0 d = N := amount_xfer m ρ c 5 (by decide) d
omit [FloatOps F] in theorem expectX_bar : (sched (F := F) m ρ).expect (barCell c) 0 = 1 := expect_sig m ρ c 0 (by decide)
omit [FloatOps F] in theorem expectX_cr : (sched (F := F) m ρ).expect (crCell c) 0 = 1 := expect_sig m ρ c 1 (by decide)
omit [FloatOps F] in theorem expectX_sRow : (sched (F := F) m ρ).expect (sRowCell c) 0 = N := expect_xfer m ρ c 2 (by decide)
omit [FloatOps F] in theorem expectX_sCol : (sched (F := F) m ρ).expect (sColCell c) 0 = N := expect_xfer m ρ c 3 (by decide)
omit [FloatOps F] in theorem expectX_rRow : (sched (F := F) m ρ).expect (rRowCell c) 0 = N := expect_xfer m ρ c 4 (by decide)
omit [FloatOps F] in theorem expectX_rCol : (sched (F := F) m ρ).expect (rColCell c) 0 = N := expect_xfer m ρ c 5 (by decide)
theorem payloadX_sRow (d : Unit) : (sched (F := F) m ρ).payload (sRowCell c) 0 d
    = ((View.loc (c : Thread nD τ) (Memref.whole cc0_scratch0 : Memref sig .tc .vmem S1x256 .f32).view) ↦{fullShare} rowSent (xstg m ρ) c : sProp 𝕄) := by
  rw [payload_sRow]; unfold sRowPay; exact (rsPts_eq c _).trans (toView_rs c _)
theorem payloadX_sCol (d : Unit) : (sched (F := F) m ρ).payload (sColCell c) 0 d
    = ((View.loc (c : Thread nD τ) (Memref.whole cc0_scratch1 : Memref sig .tc .vmem S1x256 .f32).view) ↦{fullShare} colSent (xstg m ρ) c : sProp 𝕄) := by
  rw [payload_sCol]; unfold sColPay; exact (csPts_eq c _).trans (toView_cs c _)
theorem payloadX_rRow (d : Unit) : (sched (F := F) m ρ).payload (rRowCell c) 0 d
    = ((View.loc (c : Thread nD τ) (Memref.whole cc0_scratch2 : Memref sig .tc .vmem S1x256 .f32).view) ↦{fullShare} rowSent (xstg m ρ) (xn c) : sProp 𝕄) := by
  rw [payload_rRow]; unfold rRowPay; exact (rbPts_eq c _).trans (toView_rb c _)
theorem payloadX_rCol (d : Unit) : (sched (F := F) m ρ).payload (rColCell c) 0 d
    = ((View.loc (c : Thread nD τ) (Memref.whole cc0_scratch3 : Memref sig .tc .vmem S1x256 .f32).view) ↦{fullShare} colSent (xstg m ρ) (yn c) : sProp 𝕄) := by
  rw [payload_rCol]; unfold rColPay; exact (cbPts_eq c _).trans (toView_cb c _)
theorem payloadX_barX (d : Unit) : (sched (F := F) m ρ).payload (barCell (xn c)) 0 d
    = iprop((∃ f, ((View.loc (c : Thread nD τ) (Memref.whole cc0_scratch2 : Memref sig .tc .vmem S1x256 .f32).view) ↦{fullShare} f : sProp 𝕄)) ∗ reached ER (rRowCell c) 0) := by
  rw [payload_bar]; unfold barPay; rw [xn_xn]; simp only [rbPts_eq]; first | rfl | done
theorem payloadX_crY (d : Unit) : (sched (F := F) m ρ).payload (crCell (yn c)) 0 d
    = iprop((∃ f, ((View.loc (c : Thread nD τ) (Memref.whole cc0_scratch3 : Memref sig .tc .vmem S1x256 .f32).view) ↦{fullShare} f : sProp 𝕄)) ∗ reached ER (rColCell c) 0) := by
  rw [payload_cr]; unfold crPay; rw [yn_yn]; simp only [cbPts_eq]; first | rfl | done
theorem payloadX_bar (d : Unit) : (sched (F := F) m ρ).payload (barCell c) 0 d
    = iprop((∃ f, ((View.loc ((xn c : Dev nD) : Thread nD τ) (Memref.whole cc0_scratch2 : Memref sig .tc .vmem S1x256 .f32).view) ↦{fullShare} f : sProp 𝕄)) ∗ reached ER (rRowCell (xn c)) 0) := by
  rw [payload_bar]; unfold barPay; simp only [rbPts_eq]; first | rfl | done
theorem payloadX_cr (d : Unit) : (sched (F := F) m ρ).payload (crCell c) 0 d
    = iprop((∃ f, ((View.loc ((yn c : Dev nD) : Thread nD τ) (Memref.whole cc0_scratch3 : Memref sig .tc .vmem S1x256 .f32).view) ↦{fullShare} f : sProp 𝕄)) ∗ reached ER (rColCell (yn c)) 0) := by
  rw [payload_cr]; unfold crPay; simp only [cbPts_eq]; first | rfl | done
theorem payloadX_rRowX (d : Unit) : (sched (F := F) m ρ).payload (rRowCell (xn c)) 0 d
    = ((View.loc ((xn c : Dev nD) : Thread nD τ) (Memref.whole cc0_scratch2 : Memref sig .tc .vmem S1x256 .f32).view) ↦{fullShare} rowSent (xstg m ρ) c : sProp 𝕄) := by
  rw [payload_rRow]; unfold rRowPay; rw [xn_xn]; exact (rbPts_eq (xn c) _).trans (toView_rb (xn c) _)
theorem payloadX_rColY (d : Unit) : (sched (F := F) m ρ).payload (rColCell (yn c)) 0 d
    = ((View.loc ((yn c : Dev nD) : Thread nD τ) (Memref.whole cc0_scratch3 : Memref sig .tc .vmem S1x256 .f32).view) ↦{fullShare} colSent (xstg m ρ) c : sProp 𝕄) := by
  rw [payload_rCol]; unfold rColPay; rw [yn_yn]; exact (cbPts_eq (yn c) _).trans (toView_cb (yn c) _)
end Tables

attribute [local sl_rounds] dutiesX_bar dutiesX_cr dutiesX_sRow dutiesX_sCol dutiesX_rRow dutiesX_rCol
  amountX_bar amountX_cr amountX_sRow amountX_sCol amountX_rRow amountX_rCol
  expectX_bar expectX_cr expectX_sRow expectX_sCol expectX_rRow expectX_rCol
  payloadX_sRow payloadX_sCol payloadX_rRow payloadX_rCol payloadX_bar payloadX_cr
attribute [local sl_rounds high] payloadX_barX payloadX_crY payloadX_rRowX payloadX_rColY
attribute [local sl_canon] dev1_eq dev2_eq dev3_eq dev4_eq

set_option maxHeartbeats 1600000 in
/-- The body in program order, once at each of the device's four mesh positions: the two signals, the edge row and column
    staged and sent after the handshakes, the stencil stored, the two halo lines added as they land, the send buffers
    taken back, the five own cells closed. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6) Kt := by
  have hmx := mxW_cases c
  have hmy := myW_cases c
  unfold mxW at hmx
  unfold myW at hmy
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  rcases hmx with hmx | hmx <;> rcases hmy with hmy | hmy

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay2 (xstg m ρ c) := if_pos hmx
    have hcol : colSent (xstg m ρ) c = k0_pay4 (k0_pay1 (xstg m ρ c)) := if_pos hmy
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay2 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay4 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol255, k0_pay13 (k0_pay9 0#32)
            ((cbM : Memref sig .tc .vmem S1x256 .f32).view.readAt (Elt F) rLine.toLoadRect (colSent (xstg m ρ) (yn c)))
            (sound_body.sl.v138 m ρ c)⟩ :: sound_body.sl.Hout_2 m ρ c))
        = out2 (xstg m ρ) c := by
      delta sound_body.sl.v138 sound_body.sl.Hout_2 sound_body.sl.v139 sound_body.sl.Hout_1
      simp only [View.readCov, View.writes_cons, View.writes_nil]
      rw [read_rb, read_cb, write_out, write_out, out0_lit (xstg m ρ) c _ _ hmx hmy, out1_fold0 (xstg m ρ) c hmx _ hmy,
        out2_fold0 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay2 (xstg m ρ c) := if_pos hmx
    have hcol : colSent (xstg m ρ) c = k0_pay5 (k0_pay1 (xstg m ρ c)) := if_neg (by rw [show myW c = 1#32 from hmy]; decide)
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay2 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay5 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol0, k0_pay14 (k0_pay9 0#32)
            ((cbM : Memref sig .tc .vmem S1x256 .f32).view.readAt (Elt F) rLine.toLoadRect (colSent (xstg m ρ) (yn c)))
            (sound_body.sl.v138_1 m ρ c)⟩ :: sound_body.sl.Hout_2_1 m ρ c))
        = out2 (xstg m ρ) c := by
      delta sound_body.sl.v138_1 sound_body.sl.Hout_2_1 sound_body.sl.v139_1 sound_body.sl.Hout_1_1
      simp only [View.readCov, View.writes_cons, View.writes_nil]
      rw [read_rb, read_cb, write_out, write_out, out0_lit (xstg m ρ) c _ _ hmx hmy, out1_fold0 (xstg m ρ) c hmx _ hmy,
        out2_fold1 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay3 (xstg m ρ c) := if_neg (by rw [show mxW c = 1#32 from hmx]; decide)
    have hcol : colSent (xstg m ρ) c = k0_pay4 (k0_pay1 (xstg m ρ c)) := if_pos hmy
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay3 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay4 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol255, k0_pay13 (k0_pay9 1#32)
            ((cbM : Memref sig .tc .vmem S1x256 .f32).view.readAt (Elt F) rLine.toLoadRect (colSent (xstg m ρ) (yn c)))
            (sound_body.sl.v138_2 m ρ c)⟩ :: sound_body.sl.Hout_2_2 m ρ c))
        = out2 (xstg m ρ) c := by
      delta sound_body.sl.v138_2 sound_body.sl.Hout_2_2 sound_body.sl.v139_2 sound_body.sl.Hout_1_2
      simp only [View.readCov, View.writes_cons, View.writes_nil]
      rw [read_rb, read_cb, write_out, write_out, out0_lit (xstg m ρ) c _ _ hmx hmy, out1_fold1 (xstg m ρ) c hmx _ hmy,
        out2_fold0 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

  · simp only [semSignalWord, semWaitWord, Prog.lift, Prog.bind_op, Prog.bind_ret, Prog.pure_eq_ret, wp_deviceId, hmx, hmy,
      cnd00, cnd01, cnd10, cnd11, reduceDIte, dev1_eq c, dev2_eq c]
    have hrow : rowSent (xstg m ρ) c = k0_pay3 (xstg m ρ c) := if_neg (by rw [show mxW c = 1#32 from hmx]; decide)
    have hcol : colSent (xstg m ρ) c = k0_pay5 (k0_pay1 (xstg m ρ c)) := if_neg (by rw [show myW c = 1#32 from hmy]; decide)
    unfold bodyPre ghost invs poss reacheds payToks creds scratch
    iintro ⟨⟨⟨⟨⟨#HIbar, #HIcr, #HIsr, #HIsc, #HIrr, #HIrc, #HIbarX, #HIrrX, #HIcrY, #HIrcY⟩,
        ⟨HatB, HatC, HatSR, HatSC, HatRR, HatRC⟩,
        ⟨#HrBX, #HrCY, #HrRRX, #HrRCY, #HrSR, #HrSC, #HrRR, #HrRC⟩,
        ⟨HtBX, HtCY, HtRRX, HtRCY, HtSR, HtSC⟩⟩,
      ⟨HcB, HcC, HcRR, HcRC⟩, #Hlev, ⟨⟨%f_rs, Hrs⟩, ⟨%f_cs, Hcs⟩, ⟨%f_rb, Hrb⟩, ⟨%f_cb, Hcb⟩⟩⟩,
      Ho, ⟨%d0, %g0, %hg0, Hx⟩, ⟨%d1, %g1, %hg1, Hout⟩⟩, Hk⟩
    have hx : g0 = xstg m ρ c := by rw [hg0]; unfold Dat.before; rw [if_pos (fetch_0 t₀)]; rfl
    subst hx
    unfold Dat.owesAt Pipeline.owesWithin
    icases Ho with ⟨%W, %hW, HO⟩
    rw [show (dats m ρ 0 c).owed t₀.castSucc = O₀ c from rfl]
    -- each buffer held through its memref's view; what the device owes as its four summands; the two level facts
    unfold O₀ O₁ O₂
    ihave Hrs := (Entails.of_eq ((rsPts_eq c f_rs).trans (toView_rs c _))) $$ Hrs
    ihave Hcs := (Entails.of_eq ((csPts_eq c f_cs).trans (toView_cs c _))) $$ Hcs
    ihave Hrb := (Entails.of_eq ((rbPts_eq c f_rb).trans (toView_rb c _))) $$ Hrb
    ihave Hcb := (Entails.of_eq ((cbPts_eq c f_cb).trans (toView_cb c _))) $$ Hcb
    ihave Hout := (Entails.of_eq (toView_o c _)) $$ Hout
    ihave Hx := (Entails.of_eq (toView_x c _)) $$ Hx
    have hmb : (levAts L lv : sProp 𝕄) ⊢ MayWait (c : Thread nD τ) (.reg barS) () (tallyAt (rColCell (yn c)) () N + tallyAt (rRowCell (xn c)) () N) := mayWait_bar c
    have hmc : (levAts L lv : sProp 𝕄) ⊢ MayWait (c : Thread nD τ) (.reg crS) () (tallyAt (rColCell (yn c)) () N) := mayWait_cr c
    -- the two signals, each handing over a landing buffer; the block read, its edge row staged; the wait on the barrier
    -- cell, owing the two receive credits: the x-neighbour's landing buffer comes with it
    sl_exec
    rw [read_x]
    -- the row copy to the x-neighbour
    have hRs : ((Memref.whole cc0_scratch0 : Memref sig .tc .vmem S1x256 .f32).view.writes (Elt F) f_rs
        [⟨rLine, k0_pay3 (xstg m ρ c)⟩]) = rowSent (xstg m ρ) c := by
      rw [hrow]; exact write_rs f_rs _
    rw [hRs]
    ihave Hrs := (Entails.of_eq ((rsPts_eq c _).trans (toView_rs c _)).symm) $$ Hrs
    ihave HrbN := (Entails.of_eq ((rbPts_eq (xn c) _).trans (toView_rb (xn c) _)).symm) $$ HatB_pay1
    iapply (wp_send_row m ρ K c _ (dev3_eq c) HatB_pay1_v (insert (SemLoc.reg barS, ()) W) (tallyAt (rColCell (yn c)) () N)) $$ [Hrs HrbN HO HtSR HtRRX]
    · isplitr; · iexact HIsr
      isplitr; · iexact HIrrX
      isplitl [Hrs]; · iexact Hrs
      isplitl [HrbN]; · iexact HrbN
      isplitl [HO]; · iexact HO
      isplitl [HtSR]; · iexact HtSR
      isplitr; · iexact HrSR
      isplitl [HtRRX]; · iexact HtRRX
      iexact HrRRX
    iintro ⟨HcSR, HO⟩
    -- the edge column staged; the wait on the credit cell, owing the column receive credit: the y-neighbour's landing
    -- buffer comes with it
    sl_exec
    -- the column copy to the y-neighbour
    have hCs : ((Memref.whole cc0_scratch1 : Memref sig .tc .vmem S1x256 .f32).view.writes (Elt F) f_cs
        [⟨rLine, k0_pay5 (k0_pay1 (xstg m ρ c))⟩]) = colSent (xstg m ρ) c := by
      rw [hcol]; exact write_cs f_cs _
    rw [hCs]
    ihave Hcs := (Entails.of_eq ((csPts_eq c _).trans (toView_cs c _)).symm) $$ Hcs
    ihave HcbN := (Entails.of_eq ((cbPts_eq (yn c) _).trans (toView_cb (yn c) _)).symm) $$ HatC_pay1
    iapply (wp_send_col m ρ K c _ (dev4_eq c) HatC_pay1_v (insert (SemLoc.reg crS, ()) (insert (SemLoc.reg barS, ()) W))) $$ [Hcs HcbN HO HtSC HtRCY]
    · isplitr; · iexact HIsc
      isplitr; · iexact HIrcY
      isplitl [Hcs]; · iexact Hcs
      isplitl [HcbN]; · iexact HcbN
      isplitl [HO]; · iexact HO
      isplitl [HtSC]; · iexact HtSC
      isplitr; · iexact HrSC
      isplitl [HtRCY]; · iexact HtRCY
      iexact HrRCY
    iintro ⟨HcSC, HO⟩
    -- the stencil of the own block stored; the row and the column from across the axes land, an eighth of each joins
    -- the facing edge; the two send buffers come back
    sl_exec
    -- the three stores into the output block compose to the device's result
    have hT : ((Memref.whole cc0_stg1_0 : Memref sig .tc .vmem S256x256 .f32).view.writes (Elt F) g1
        (⟨rCol0, k0_pay14 (k0_pay9 1#32)
            ((cbM : Memref sig .tc .vmem S1x256 .f32).view.readAt (Elt F) rLine.toLoadRect (colSent (xstg m ρ) (yn c)))
            (sound_body.sl.v138_3 m ρ c)⟩ :: sound_body.sl.Hout_2_3 m ρ c))
        = out2 (xstg m ρ) c := by
      delta sound_body.sl.v138_3 sound_body.sl.Hout_2_3 sound_body.sl.v139_3 sound_body.sl.Hout_1_3
      simp only [View.readCov, View.writes_cons, View.writes_nil]
      rw [read_rb, read_cb, write_out, write_out, out0_lit (xstg m ρ) c _ _ hmx hmy, out1_fold1 (xstg m ρ) c hmx _ hmy,
        out2_fold1 (xstg m ρ) c _ hmx hmy]
    rw [hT]
    ihave Hrs := (Entails.of_eq ((rsPts_eq c _).trans (toView_rs c _)).symm) $$ HatSR_pay1
    ihave Hcs := (Entails.of_eq ((csPts_eq c _).trans (toView_cs c _)).symm) $$ HatSC_pay1
    ihave Hrb := (Entails.of_eq ((rbPts_eq c _).trans (toView_rb c _)).symm) $$ HatRR_pay1
    ihave Hcb := (Entails.of_eq ((cbPts_eq c _).trans (toView_cb c _)).symm) $$ HatRC_pay1
    -- the five own cells close: their counters at zero are the device's again
    imod (Rounds.cell_close ER (sched m ρ) (Set.mem_univ (K (c, 1))) (fun h => h) (R := 0 + 1) (duties_later m ρ (crCell c))) $$ [HatC] with HzC
    · isplitr; · iexact HIcr
      iexact HatC
    imod (Rounds.cell_close ER (sched m ρ) (Set.mem_univ (K (c, 2))) (fun h => h) (R := 0 + 1) (duties_later m ρ (sRowCell c))) $$ [HatSR] with HzSR
    · isplitr; · iexact HIsr
      iexact HatSR
    imod (Rounds.cell_close ER (sched m ρ) (Set.mem_univ (K (c, 3))) (fun h => h) (R := 0 + 1) (duties_later m ρ (sColCell c))) $$ [HatSC] with HzSC
    · isplitr; · iexact HIsc
      iexact HatSC
    imod (Rounds.cell_close ER (sched m ρ) (Set.mem_univ (K (c, 4))) (fun h => h) (R := 0 + 1) (duties_later m ρ (rRowCell c))) $$ [HatRR] with HzRR
    · isplitr; · iexact HIrr
      iexact HatRR
    imod (Rounds.cell_close ER (sched m ρ) (Set.mem_univ (K (c, 5))) (fun h => h) (R := 0 + 1) (duties_later m ρ (rColCell c))) $$ [HatRC] with HzRC
    · isplitr; · iexact HIrc
      iexact HatRC
    rw [wp_ret]; imodintro
    iapply Hk
    unfold bodyPost Φ₁ scratch closed Dat.owesAt Pipeline.owesWithin
    rw [show (dats m ρ 0 c).owed t₀.succ = 0 from rfl]
    isplitl [Hrs Hcs Hrb Hcb HzC HzSR HzSC HzRR HzRC]
    · isplitl [Hrs Hcs Hrb Hcb]
      · isplitl [Hrs]; · iexists _; iexact Hrs
        isplitl [Hcs]; · iexists _; iexact Hcs
        isplitl [Hrb]; · iexists _; iexact Hrb
        iexists _; iexact Hcb
      · isplitl [HzC]; · iexact HzC
        isplitl [HzSR]; · iexact HzSR
        isplitl [HzSC]; · iexact HzSC
        isplitl [HzRR]; · iexact HzRR
        iexact HzRC
    isplitl [HO]
    · iexists (insert (SemLoc.dma sColS, ()) (insert (SemLoc.dma sRowS, ()) (insert (SemLoc.dma rColS, ()) (insert (SemLoc.dma rRowS, ()) (insert (SemLoc.reg crS, ()) (insert (SemLoc.reg barS, ()) W))))))
      isplitr; · ipureintro; exact fun _ _ => Or.inl trivial
      iexact HO
    isplitl [Hx]
    · iexists _; isplitr; · (ipureintro; rfl)
      iexact Hx
    iexists _; isplitr; · (ipureintro; rfl)
    iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.Kernel.Halo.body_obligation' depends on axioms: [propext, Classical.choice, Quot.sound] -/
#guard_msgs in #print axioms body_obligation

end Body

end Cert.Kernel.Halo

end
-- ==== Proof.Bits.Launch.lean ====
/-
  The launch of the halo exchange on the 2 × 2 mesh. Each device is minted the ghost state of its own six cells: the
  barrier cell, the credit cell, the two send cells and the two receive cells. The invariants of all twenty-four cells
  are allocated under one update, since a cell's invariant is opened both by the device that waits on the cell and by
  the device that pays it. Each cell's one duty token goes to the device that pays the duty: across the x axis for the
  barrier cell and the row receive cell, across the y axis for the credit cell and the column receive cell, and to the
  owner itself for the two send cells. Summed over the payers, what the devices owe at launch is each device's credit on
  the four cells the others pay. From each device's body the run of the whole program follows; after it every device's
  input array is as it was and its result array holds the block its body computed.
-/
import proofs.«900192_g7700000000000193_dist_halo2d_stencil_xy_m256_n256_v7x_xy2x2_bf16_1_alg».proof.Proof.Bits.Body

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts and the cells -/

theorem ownSemFacts : Pipeline.OwnSemFacts cfg0.spec osem := by decide

theorem share_eq (c : Dev nD) (w : Fin cfg0.W) : (dats m ρ 0 c).share w = fullShare := by unfold Dat.share; split <;> rfl

omit [FloatOps F] in
/-- Distinct (device, cell number) pairs name distinct cells. -/
theorem kcell_injective : Function.Injective (kcell : Dev nD × Fin 6 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The twenty-four cells of the protocol. -/
def haloCells : Finset (GSem nD τ sig) := Finset.univ.map ⟨kcell, kcell_injective⟩

/-- Each cell's one duty token of round 0, as minted: indexed by the cell. -/
abbrev tokOf (ck : Dev nD × Fin 6) : GSem nD τ sig × ℕ × Unit := (kcell ck, 0, ())
omit [FloatOps F] in
theorem tokOf_injective : Function.Injective (tokOf : Dev nD × Fin 6 → GSem nD τ sig × ℕ × Unit) :=
  fun a b h => kcell_injective (congrArg Prod.fst h)
def haloToks : Finset (GSem nD τ sig × ℕ × Unit) := Finset.univ.map ⟨tokOf, tokOf_injective⟩

/-- The launch element: the pipeline's cells and tokens beside the protocol's. -/
def u₀ : UU :=
  (initOf (Pipeline.cells cfgs cellOf_inj) (Pipeline.launchToks cfgs cellOf_inj), initOf haloCells haloToks)

/-- The duty tokens of device `c`'s own six cells. -/
def toks (c : Dev nD) : sProp 𝕄 :=
  iprop(dutyTok ER (barCell c) 0 () ∗ dutyTok ER (crCell c) 0 () ∗ dutyTok ER (sRowCell c) 0 () ∗ dutyTok ER (sColCell c) 0 ()
    ∗ dutyTok ER (rRowCell c) 0 () ∗ dutyTok ER (rColCell c) 0 ())

/-- What the launch element deals device `c`: its six cells' round states, positions and reached-marks, and their tokens. -/
def dealt (c : Dev nD) : sProp 𝕄 :=
  iprop((bigSep Finset.univ fun k : Fin 6 => roundState ER (sched m ρ) (kcell (c, k)) 0)
    ∗ (bigSep Finset.univ fun k : Fin 6 => iprop(atPos ER (kcell (c, k)) 0 ∅ 0 ∗ reached ER (kcell (c, k)) 0)) ∗ toks c)

/-- What the global step makes of it: the ghost state the body starts from, at some names. -/
def begun (c : Dev nD) : sProp 𝕄 := iprop(∃ K, ghost m ρ K c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_halo : BI.own (ER (initOf haloCells haloToks)) ⊢ (|==> bigSep Finset.univ (dealt m ρ) : sProp 𝕄) := by
  have hX (Φ : GSem nD τ sig → sProp 𝕄) : bigSep haloCells Φ = bigSep Finset.univ fun c : Dev nD => bigSep Finset.univ fun k : Fin 6 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores at zero, and the cells' invariants allocated -/

omit [FloatOps F] in
/-- The kernel's own five semaphores at zero are the five own cells closed; -/
theorem ownSems0_eq (c : Dev nD) : (Pipeline.ownSems0 (Ix := Unit) (Name := ℕ) (U := UU) (Lvl := ℕ) (Val := Elt F) (τ := τ) osem c : sProp 𝕄)
    = closed c := by
  rw [Pipeline.ownSems0_eq_of_list c osem [0, 1, 2, 3, 4] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  unfold closed
  iintro ⟨⟨H1, H2, H3, H4, H5⟩, HB⟩
  isplitl [HB]; · iexact HB
  isplitl [H1]; · iexact H1
  isplitl [H2]; · iexact H2
  isplitl [H3]; · iexact H3
  isplitl [H4]; · iexact H4
  iexact H5

omit [FloatOps F] in
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and round 0 reached on every cell: what the devices share. -/
def records (K : Dev nD × Fin 6 → ℕ) : sProp 𝕄 :=
  iprop((bigSep Finset.univ fun ck : Dev nD × Fin 6 => cellInv ER (sched m ρ) (K ck) (kcell ck))
    ∗ bigSep Finset.univ fun ck : Dev nD × Fin 6 => reached ER (kcell ck) 0)

instance records_persistent (K : Dev nD × Fin 6 → ℕ) : BI.Persistent (records m ρ K) := by unfold records; infer_instance

omit [FloatOps F] in
theorem inv_at (K : Dev nD × Fin 6 → ℕ) (ck : Dev nD × Fin 6) :
    (bigSep Finset.univ fun ck : Dev nD × Fin 6 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 6) :
    (bigSep Finset.univ fun ck : Dev nD × Fin 6 => (reached ER (kcell ck) 0 : sProp 𝕄)) ⊢ reached ER (kcell ck) 0 :=
  bigSep_elim (Finset.mem_univ ck)

/-- What stays with device `c` alone: its positions, and the tokens of the duties it pays. -/
def linear (c : Dev nD) : sProp 𝕄 := iprop(poss c ∗ payToks c)

omit [FloatOps F] in
theorem ghost_intro (K : Dev nD × Fin 6 → ℕ) (c : Dev nD) : iprop(records m ρ K ∗ linear c) ⊢ begun m ρ c := by
  unfold records linear begun ghost invs reacheds
  iintro ⟨⟨#HI, #HR⟩, Hpos, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (xn c, 0)); iexact HI
    isplitr; · iapply (inv_at m ρ K (xn c, 4)); iexact HI
    isplitr; · iapply (inv_at m ρ K (yn c, 1)); iexact HI
    iapply (inv_at m ρ K (yn c, 5)); iexact HI
  isplitl [Hpos]; · iexact Hpos
  isplitr
  · isplitr; · iapply (reached_at (F := F) (xn c, 0)); iexact HR
    isplitr; · iapply (reached_at (F := F) (yn c, 1)); iexact HR
    isplitr; · iapply (reached_at (F := F) (xn c, 4)); iexact HR
    isplitr; · iapply (reached_at (F := F) (yn c, 5)); iexact HR
    isplitr; · iapply (reached_at (F := F) (c, 2)); iexact HR
    isplitr; · iapply (reached_at (F := F) (c, 3)); iexact HR
    isplitr; · iapply (reached_at (F := F) (c, 4)); iexact HR
    iapply (reached_at (F := F) (c, 5)); iexact HR
  iexact Htok

/-- The two neighbour maps as permutations of the devices. -/
def xnE : Dev nD ≃ Dev nD := ⟨xn, xn, xn_xn, xn_xn⟩
def ynE : Dev nD ≃ Dev nD := ⟨yn, yn, yn_yn, yn_yn⟩

omit [FloatOps F] in
/-- The tokens dealt to their payers: a barrier token and a row receive token across the x axis, a credit token and a
    column receive token across the y axis, the two send tokens staying. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv xnE (fun c : Dev nD => (dutyTok ER (barCell c) 0 () : sProp 𝕄)),
    bigSep_univ_equiv ynE (fun c : Dev nD => (dutyTok ER (crCell c) 0 () : sProp 𝕄)),
    bigSep_univ_equiv xnE (fun c : Dev nD => (dutyTok ER (rRowCell c) 0 () : sProp 𝕄)),
    bigSep_univ_equiv ynE (fun c : Dev nD => (dutyTok ER (rColCell c) 0 () : sProp 𝕄))]
  iintro ⟨H0, H1, H2, H3, H4, H5⟩
  isplitl [H0]; · iexact H0
  isplitl [H1]; · iexact H1
  isplitl [H4]; · iexact H4
  isplitl [H5]; · iexact H5
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (begun m ρ) := by
  rw [bigSep_sep', bigSep_sep', ← bigSep_univ_prod (fun ck : Dev nD × Fin 6 => iprop(∃ κ : ℕ, cellInv ER (sched m ρ) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 6 => (atPos ER (kcell (c, k)) 0 ∅ 0 : sProp 𝕄)) payToks).symm).trans
      (bigSep_mono fun c _ => show _ ⊢ linear c from Entails.of_eq (by unfold linear poss; rw [bigSep_fin6])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (begun m ρ) :=
  ((bigSep_mono fun c _ => core_alloc m ρ c).trans (bigSep_fupd _ _)).trans (BI.fupd_mono (regroup m ρ))

/-! ## The launch credit -/

omit [FloatOps F] in
/-- Summed over the payers, what the devices owe at launch deals device `c` a unit on its barrier cell and on its credit
    cell and a line's credit on each of its two receive cells. -/
theorem launch_creds (c : Dev nD) : (Pipeline.launchCred O₀ c : sProp 𝕄) ⊢ creds c := by
  have e0 : (Pipeline.launchCred O₀ c : sProp 𝕄)
      = iprop(Pipeline.launchCred O₁ c ∗ Pipeline.launchCred (fun d : Dev nD => tallyAt (barCell (xn d)) () 1) c) :=
    Pipeline.launchCred_add O₁ (fun d : Dev nD => tallyAt (barCell (xn d)) () 1) c
  have e1 : (Pipeline.launchCred O₁ c : sProp 𝕄)
      = iprop(Pipeline.launchCred O₂ c ∗ Pipeline.launchCred (fun d : Dev nD => tallyAt (crCell (yn d)) () 1) c) :=
    Pipeline.launchCred_add O₂ (fun d : Dev nD => tallyAt (crCell (yn d)) () 1) c
  have e2 : (Pipeline.launchCred O₂ c : sProp 𝕄)
      = iprop(Pipeline.launchCred (fun d : Dev nD => tallyAt (rColCell (yn d)) () N) c ∗ Pipeline.launchCred (fun d : Dev nD => tallyAt (rRowCell (xn d)) () N) c) :=
    Pipeline.launchCred_add (fun d : Dev nD => tallyAt (rColCell (yn d)) () N) (fun d : Dev nD => tallyAt (rRowCell (xn d)) () N) c
  rw [e0, e1, e2]
  unfold creds
  iintro ⟨⟨⟨HrC, HrR⟩, Hcr⟩, Hbar⟩
  isplitl [Hbar]; · iapply (Pipeline.launchCred_tallyAt (.reg barS) xn xn xn_xn xn_xn () 1 c); iexact Hbar
  isplitl [Hcr]; · iapply (Pipeline.launchCred_tallyAt (.reg crS) yn yn yn_yn yn_yn () 1 c); iexact Hcr
  isplitl [HrR]; · iapply (Pipeline.launchCred_tallyAt (.dma rRowS) xn xn xn_xn xn_xn () N c); iexact HrR
  iapply (Pipeline.launchCred_tallyAt (.dma rColS) yn yn yn_yn yn_yn () N c); iexact HrC

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ begun m ρ c)
      ⊢ |={Set.univ}=> iprop(start m ρ c ∗ emp) := by
  iintro ⟨-, Hlev, Hcr, -, HG⟩
  ihave Hc := (launch_creds (F := F) c) $$ Hcr
  imodintro
  unfold start begun
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iexists f0; rw [rsPts_eq]; iexact H0
  isplitl [H1]; · iexists f1; rw [csPts_eq]; iexact H1
  isplitl [H2]; · iexists f2; rw [rbPts_eq]; iexact H2
  iexists f3; rw [cbPts_eq]; iexact H3

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨⟨⟨%f0, H0⟩, ⟨%f1, H1⟩, ⟨%f2, H2⟩, ⟨%f3, H3⟩⟩, Hc⟩
  isplitr; · iempintro
  isplitl [Hc]; · iexact Hc
  isplitl [H0]; · iexists f0; rw [← rsPts_eq]; iexact H0
  isplitl [H1]; · iexists f1; rw [← csPts_eq]; iexact H1
  isplitl [H2]; · iexists f2; rw [← rbPts_eq]; iexact H2
  iexists f3; rw [← cbPts_eq]; iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays after the one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with every counter at zero: every weakly
    fair execution of the program — the four kernels signalling their two neighbours, exchanging an edge row and an edge
    column, and adding what lands — terminates, and every final state has each device's input array as it was and its
    result array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := begun m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's computed block: the one point writes the whole output staging
    buffer back over the whole array. -/
theorem finalA_out (c : Dev nD) : finalA m ρ c (1 : Fin 2) = outAt m ρ c := by
  have h := (dats (F := F) m ρ 0 c).arrAt_succ (1 : Fin 2) t₀
  rw [show (cfg0.win (1 : Fin 2)).flush t₀ = true from rfl, if_pos rfl] at h
  refine (show finalA m ρ c (1 : Fin 2) = (dats m ρ 0 c).arrAt (1 : Fin 2) (t₀.val + 1) from rfl).trans (h.trans ?_)
  exact Memref.write_access_unit_zero_univ (Elt F) main_v1 (funext fun a => Nat.zero_mul _) _ _ _

/-- The input staging block, read through the window that is the whole array, is the array. -/
theorem xstg_eq (c : Dev nD) : xstg m ρ c = m ((c : Thread nD τ).loc main_arg0) := by
  unfold xstg
  exact Memref.read_access_unit_zero (Elt F) main_arg0 (funext fun a => Nat.zero_mul _) _ _

/-- info: 'Cert.Kernel.Halo.run_main' depends on axioms: [propext, Classical.choice, Quot.sound] -/
#guard_msgs in #print axioms run_main

end Cert.Kernel.Halo

end
-- ==== Proof.Claims.lean ====
/-
  The claims assembled from the kernel's run at both instances, its result's value and the reference's value: the kernel
  runs leaving its argument as it was; the reference does; and from memories where every device holds its block of
  the reference's argument, both run, each device's result ending as its block of the stencil of the whole grid,
  which is what the reference's result ends as.
-/
import proofs.«900192_g7700000000000193_dist_halo2d_stencil_xy_m256_n256_v7x_xy2x2_bf16_1_alg».proof.Defs
import proofs.«900192_g7700000000000193_dist_halo2d_stencil_xy_m256_n256_v7x_xy2x2_bf16_1_alg».proof.Proof.Gen.Kernel
import proofs.«900192_g7700000000000193_dist_halo2d_stencil_xy_m256_n256_v7x_xy2x2_bf16_1_alg».proof.Proof.Gen.KernelIdeal
import proofs.«900192_g7700000000000193_dist_halo2d_stencil_xy_m256_n256_v7x_xy2x2_bf16_1_alg».proof.Proof.Gen.ReferenceIdeal
import proofs.«900192_g7700000000000193_dist_halo2d_stencil_xy_m256_n256_v7x_xy2x2_bf16_1_alg».proof.Proof.Gen.Pre_finite_inputs_Kernel
import proofs.«900192_g7700000000000193_dist_halo2d_stencil_xy_m256_n256_v7x_xy2x2_bf16_1_alg».proof.Proof.Gen.Pre_finite_inputs_ReferenceIdeal
import proofs.«900192_g7700000000000193_dist_halo2d_stencil_xy_m256_n256_v7x_xy2x2_bf16_1_alg».proof.Proof.Launch
import proofs.«900192_g7700000000000193_dist_halo2d_stencil_xy_m256_n256_v7x_xy2x2_bf16_1_alg».proof.Proof.KVal
import proofs.«900192_g7700000000000193_dist_halo2d_stencil_xy_m256_n256_v7x_xy2x2_bf16_1_alg».proof.Proof.RefValue
import proofs.«900192_g7700000000000193_dist_halo2d_stencil_xy_m256_n256_v7x_xy2x2_bf16_1_alg».proof.Proof.Bits.Launch

noncomputable section

namespace Cert.Proof.KI

open Idealize.ShloMosaic Idealize.ShloMosaic.TcCoe Idealize.SL.Sem
open Cert.KernelIdeal Cert.KernelIdeal.Gen Cert.KernelIdeal.Halo

/-- The word-level kernel runs and leaves each device's argument block as it was: the same run at the word-level instance. -/
theorem frame_k : Cert.frame_Kernel := fun m ρ _ =>
  (θ_run _ _ _).mono (fun r h c => (h c (0 : Fin 2)).trans (Cert.Kernel.Halo.finalA_x m ρ c)) (Cert.Kernel.Halo.run_main (F := Bits) m ρ)

/-- The idealized kernel runs and leaves each device's argument block as it was. -/
theorem frame_ki : Cert.frame_KernelIdeal := fun m ρ _ =>
  (θ_run _ _ _).mono (fun r h c => (h c (0 : Fin 2)).trans (finalA_x m ρ c)) (run_main (F := Ideal) m ρ)

/-- The idealized reference runs and leaves its argument as it was. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs run; every device's result ends as its block of the stencil of the whole grid, the reference's
    result as that stencil; all arguments end unchanged. -/
theorem algebraic : Cert.algebraic_KernelIdeal_ReferenceIdeal := by
  intro m ρ m' ρ' _ hagree
  refine ⟨Cert.Spec.G (m' (((0 : Dev Cert.ReferenceIdeal.nD).tc : Thread Cert.ReferenceIdeal.nD Cert.ReferenceIdeal.τ).loc Cert.ReferenceIdeal.main_arg0)), ?_, ?_⟩
  · have hX : ∀ c : Dev nD, xstg m ρ c
        = Layout.blockN ⟨2, ![256, 256]⟩ ⟨2, ![512, 512]⟩ (Layout.meshBlock [2, 2] ![[0], [1]] c)
            (m' (((0 : Dev Cert.ReferenceIdeal.nD).tc : Thread Cert.ReferenceIdeal.nD Cert.ReferenceIdeal.τ).loc Cert.ReferenceIdeal.main_arg0)) :=
      fun c => (xstg_eq m ρ c).trans (hagree c)
    exact (θ_run _ _ _).mono (fun r h c =>
      ⟨(h c (1 : Fin 2)).trans ((finalA_out m ρ c).trans (out2_block _ (xstg m ρ) hX c)),
        (h c (0 : Fin 2)).trans (finalA_x m ρ c)⟩) (run_main (F := Ideal) m ρ)
  · exact (θ_run Cert.ReferenceIdeal.defs _ _).mono (fun _ h => h 0) (Cert.RefValue.run m' ρ')

end Cert.Proof.KI

end
-- ==== Proof.lean ====
/-
  The certificate of the 2 × 2 halo-exchange stencil. Each device holds one 256 × 256 block of the 512 × 512 grid, sends
  its two inner edge lines to its two neighbours after a handshake on a semaphore each neighbour signals, applies the
  five-point stencil to its own block and adds an eighth of each received line on the facing edge; interior points of
  the whole grid end as half themselves plus an eighth of their four neighbours, rim points unchanged, which is the
  reference's result block by block. The kernel's run is proved once, generic in the float instance, from the per-device
  body and the protocol's schedule (Proof/Vals, Proto, Data, Body, Launch; Proof/Bits holds the word-level instance's
  modules); the device's result is its block of the stencil (Proof/KVal) and so is the reference's (Proof/RefValue) of
  the one specification (Proof/Spec); Proof/Claims assembles the five claims.
-/
import proofs.«900192_g7700000000000193_dist_halo2d_stencil_xy_m256_n256_v7x_xy2x2_bf16_1_alg».proof.Defs
import proofs.«900192_g7700000000000193_dist_halo2d_stencil_xy_m256_n256_v7x_xy2x2_bf16_1_alg».proof.Proof.Gen.Kernel
import proofs.«900192_g7700000000000193_dist_halo2d_stencil_xy_m256_n256_v7x_xy2x2_bf16_1_alg».proof.Proof.Gen.Kernel.Skeleton
import proofs.«900192_g7700000000000193_dist_halo2d_stencil_xy_m256_n256_v7x_xy2x2_bf16_1_alg».proof.Proof.Gen.Kernel.Launch
import proofs.«900192_g7700000000000193_dist_halo2d_stencil_xy_m256_n256_v7x_xy2x2_bf16_1_alg».proof.Proof.Gen.Kernel.Points
import proofs.«900192_g7700000000000193_dist_halo2d_stencil_xy_m256_n256_v7x_xy2x2_bf16_1_alg».proof.Proof.Gen.Kernel.Frame
import proofs.«900192_g7700000000000193_dist_halo2d_stencil_xy_m256_n256_v7x_xy2x2_bf16_1_alg».proof.Proof.Gen.KernelIdeal
import proofs.«900192_g7700000000000193_dist_halo2d_stencil_xy_m256_n256_v7x_xy2x2_bf16_1_alg».proof.Proof.Gen.KernelIdeal.Skeleton
import proofs.«900192_g7700000000000193_dist_halo2d_stencil_xy_m256_n256_v7x_xy2x2_bf16_1_alg».proof.Proof.Gen.KernelIdeal.Launch
import proofs.«900192_g7700000000000193_dist_halo2d_stencil_xy_m256_n256_v7x_xy2x2_bf16_1_alg».proof.Proof.Gen.KernelIdeal.Points
import proofs.«900192_g7700000000000193_dist_halo2d_stencil_xy_m256_n256_v7x_xy2x2_bf16_1_alg».proof.Proof.Gen.KernelIdeal.Frame
import proofs.«900192_g7700000000000193_dist_halo2d_stencil_xy_m256_n256_v7x_xy2x2_bf16_1_alg».proof.Proof.Gen.ReferenceIdeal
import proofs.«900192_g7700000000000193_dist_halo2d_stencil_xy_m256_n256_v7x_xy2x2_bf16_1_alg».proof.Proof.Gen.Pre_finite_inputs_Kernel
import proofs.«900192_g7700000000000193_dist_halo2d_stencil_xy_m256_n256_v7x_xy2x2_bf16_1_alg».proof.Proof.Gen.Pre_finite_inputs_ReferenceIdeal
import proofs.«900192_g7700000000000193_dist_halo2d_stencil_xy_m256_n256_v7x_xy2x2_bf16_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Proof.KI.frame_k, Cert.Proof.KI.frame_ki, Cert.Proof.KI.frame_ri, Cert.Proof.KI.preserves, Cert.Proof.KI.algebraic⟩

end Cert.Proof

end
